-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S2048x1024 : Shape := ⟨2, ![2048, 1024]⟩
abbrev S1x1024 : Shape := ⟨2, ![1, 1024]⟩
abbrev S16x1024 : Shape := ⟨2, ![16, 1024]⟩
abbrev S16 : Shape := ⟨1, ![16]⟩
abbrev S_ : Shape := ⟨0, ![]⟩
abbrev S1024 : Shape := ⟨1, ![1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S16x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c1_i32_150 : BitVec 32 := 1#32
  let v216 : BitVec 32 := Scalar.muli v215 c1_i32_150
  let v217 : BitVec 32 := Scalar.addi c0_i32_151 v216
  v217.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_154 : BitVec 32 := 2#32
  let v226 : BitVec 32 := Scalar.addi v2 c2_i32_154
  let c16_i32_155 : BitVec 32 := 16#32
  let c0_i32_156 : BitVec 32 := 0#32
  let v227 : BitVec 1 := Scalar.cmpi .eq c16_i32_155 c0_i32_156
  let c1_i32_157 : BitVec 32 := 1#32
  let v228 : BitVec 32 := Scalar.select v227 c1_i32_157 c16_i32_155
  let v229 : BitVec 32 := Scalar.remsi v226 v228
  let c0_i32_159 : BitVec 32 := 0#32
  let v231 : BitVec 1 := Scalar.cmpi .slt v229 c0_i32_159
  let c0_i32_160 : BitVec 32 := 0#32
  let v232 : BitVec 1 := Scalar.cmpi .slt v228 c0_i32_160
  let v233 : BitVec 1 := Scalar.xori v231 v232
  let c0_i32_158 : BitVec 32 := 0#32
  let v230 : BitVec 1 := Scalar.cmpi .ne v229 c0_i32_158
  let v234 : BitVec 1 := Scalar.andi v233 v230
  let v235 : BitVec 32 := Scalar.addi v229 v228
  let v236 : BitVec 32 := Scalar.select v234 v235 v229
  let c1_i32_165 : BitVec 32 := 1#32
  let v237 : BitVec 32 := Scalar.muli v236 c1_i32_165
  let v238 : BitVec 32 := Scalar.addi c0_i32_166 v237
  v238.toNat
def k0_dev18 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_169 : BitVec 32 := 3#32
  let v247 : BitVec 32 := Scalar.addi v2 c3_i32_169
  let c16_i32_170 : BitVec 32 := 16#32
  let c0_i32_171 : BitVec 32 := 0#32
  let v248 : BitVec 1 := Scalar.cmpi .eq c16_i32_170 c0_i32_171
  let c1_i32_172 : BitVec 32 := 1#32
  let v249 : BitVec 32 := Scalar.select v248 c1_i32_172 c16_i32_170
  let v250 : BitVec 32 := Scalar.remsi v247 v249
  let c0_i32_174 : BitVec 32 := 0#32
  let v252 : BitVec 1 := Scalar.cmpi .slt v250 c0_i32_174
  let c0_i32_175 : BitVec 32 := 0#32
  let v253 : BitVec 1 := Scalar.cmpi .slt v249 c0_i32_175
  let v254 : BitVec 1 := Scalar.xori v252 v253
  let c0_i32_173 : BitVec 32 := 0#32
  let v251 : BitVec 1 := Scalar.cmpi .ne v250 c0_i32_173
  let v255 : BitVec 1 := Scalar.andi v254 v251
  let v256 : BitVec 32 := Scalar.addi v250 v249
  let v257 : BitVec 32 := Scalar.select v255 v256 v250
  let c1_i32_180 : BitVec 32 := 1#32
  let v258 : BitVec 32 := Scalar.muli v257 c1_i32_180
  let v259 : BitVec 32 := Scalar.addi c0_i32_181 v258
  v259.toNat
def k0_dev19 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_184 : BitVec 32 := 4#32
  let v268 : BitVec 32 := Scalar.addi v2 c4_i32_184
  let c16_i32_185 : BitVec 32 := 16#32
  let c0_i32_186 : BitVec 32 := 0#32
  let v269 : BitVec 1 := Scalar.cmpi .eq c16_i32_185 c0_i32_186
  let c1_i32_187 : BitVec 32 := 1#32
  let v270 : BitVec 32 := Scalar.select v269 c1_i32_187 c16_i32_185
  let v271 : BitVec 32 := Scalar.remsi v268 v270
  let c0_i32_189 : BitVec 32 := 0#32
  let v273 : BitVec 1 := Scalar.cmpi .slt v271 c0_i32_189
  let c0_i32_190 : BitVec 32 := 0#32
  let v274 : BitVec 1 := Scalar.cmpi .slt v270 c0_i32_190
  let v275 : BitVec 1 := Scalar.xori v273 v274
  let c0_i32_188 : BitVec 32 := 0#32
  let v272 : BitVec 1 := Scalar.cmpi .ne v271 c0_i32_188
  let v276 : BitVec 1 := Scalar.andi v275 v272
  let v277 : BitVec 32 := Scalar.addi v271 v270
  let v278 : BitVec 32 := Scalar.select v276 v277 v271
  let c1_i32_195 : BitVec 32 := 1#32
  let v279 : BitVec 32 := Scalar.muli v278 c1_i32_195
  let v280 : BitVec 32 := Scalar.addi c0_i32_196 v279
  v280.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_199 : BitVec 32 := 5#32
  let v289 : BitVec 32 := Scalar.addi v2 c5_i32_199
  let c16_i32_200 : BitVec 32 := 16#32
  let c0_i32_201 : BitVec 32 := 0#32
  let v290 : BitVec 1 := Scalar.cmpi .eq c16_i32_200 c0_i32_201
  let c1_i32_202 : BitVec 32 := 1#32
  let v291 : BitVec 32 := Scalar.select v290 c1_i32_202 c16_i32_200
  let v292 : BitVec 32 := Scalar.remsi v289 v291
  let c0_i32_204 : BitVec 32 := 0#32
  let v294 : BitVec 1 := Scalar.cmpi .slt v292 c0_i32_204
  let c0_i32_205 : BitVec 32 := 0#32
  let v295 : BitVec 1 := Scalar.cmpi .slt v291 c0_i32_205
  let v296 : BitVec 1 := Scalar.xori v294 v295
  let c0_i32_203 : BitVec 32 := 0#32
  let v293 : BitVec 1 := Scalar.cmpi .ne v292 c0_i32_203
  let v297 : BitVec 1 := Scalar.andi v296 v293
  let v298 : BitVec 32 := Scalar.addi v292 v291
  let v299 : BitVec 32 := Scalar.select v297 v298 v292
  let c1_i32_210 : BitVec 32 := 1#32
  let v300 : BitVec 32 := Scalar.muli v299 c1_i32_210
  let v301 : BitVec 32 := Scalar.addi c0_i32_211 v300
  v301.toNat
def k0_dev21 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_214 : BitVec 32 := 6#32
  let v310 : BitVec 32 := Scalar.addi v2 c6_i32_214
  let c16_i32_215 : BitVec 32 := 16#32
  let c0_i32_216 : BitVec 32 := 0#32
  let v311 : BitVec 1 := Scalar.cmpi .eq c16_i32_215 c0_i32_216
  let c1_i32_217 : BitVec 32 := 1#32
  let v312 : BitVec 32 := Scalar.select v311 c1_i32_217 c16_i32_215
  let v313 : BitVec 32 := Scalar.remsi v310 v312
  let c0_i32_219 : BitVec 32 := 0#32
  let v315 : BitVec 1 := Scalar.cmpi .slt v313 c0_i32_219
  let c0_i32_220 : BitVec 32 := 0#32
  let v316 : BitVec 1 := Scalar.cmpi .slt v312 c0_i32_220
  let v317 : BitVec 1 := Scalar.xori v315 v316
  let c0_i32_218 : BitVec 32 := 0#32
  let v314 : BitVec 1 := Scalar.cmpi .ne v313 c0_i32_218
  let v318 : BitVec 1 := Scalar.andi v317 v314
  let v319 : BitVec 32 := Scalar.addi v313 v312
  let v320 : BitVec 32 := Scalar.select v318 v319 v313
  let c1_i32_225 : BitVec 32 := 1#32
  let v321 : BitVec 32 := Scalar.muli v320 c1_i32_225
  let v322 : BitVec 32 := Scalar.addi c0_i32_226 v321
  v322.toNat
def k0_dev22 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_229 : BitVec 32 := 7#32
  let v331 : BitVec 32 := Scalar.addi v2 c7_i32_229
  let c16_i32_230 : BitVec 32 := 16#32
  let c0_i32_231 : BitVec 32 := 0#32
  let v332 : BitVec 1 := Scalar.cmpi .eq c16_i32_230 c0_i32_231
  let c1_i32_232 : BitVec 32 := 1#32
  let v333 : BitVec 32 := Scalar.select v332 c1_i32_232 c16_i32_230
  let v334 : BitVec 32 := Scalar.remsi v331 v333
  let c0_i32_234 : BitVec 32 := 0#32
  let v336 : BitVec 1 := Scalar.cmpi .slt v334 c0_i32_234
  let c0_i32_235 : BitVec 32 := 0#32
  let v337 : BitVec 1 := Scalar.cmpi .slt v333 c0_i32_235
  let v338 : BitVec 1 := Scalar.xori v336 v337
  let c0_i32_233 : BitVec 32 := 0#32
  let v335 : BitVec 1 := Scalar.cmpi .ne v334 c0_i32_233
  let v339 : BitVec 1 := Scalar.andi v338 v335
  let v340 : BitVec 32 := Scalar.addi v334 v333
  let v341 : BitVec 32 := Scalar.select v339 v340 v334
  let c1_i32_240 : BitVec 32 := 1#32
  let v342 : BitVec 32 := Scalar.muli v341 c1_i32_240
  let v343 : BitVec 32 := Scalar.addi c0_i32_241 v342
  v343.toNat
def k0_dev23 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_244 : BitVec 32 := 8#32
  let v352 : BitVec 32 := Scalar.addi v2 c8_i32_244
  let c16_i32_245 : BitVec 32 := 16#32
  let c0_i32_246 : BitVec 32 := 0#32
  let v353 : BitVec 1 := Scalar.cmpi .eq c16_i32_245 c0_i32_246
  let c1_i32_247 : BitVec 32 := 1#32
  let v354 : BitVec 32 := Scalar.select v353 c1_i32_247 c16_i32_245
  let v355 : BitVec 32 := Scalar.remsi v352 v354
  let c0_i32_249 : BitVec 32 := 0#32
  let v357 : BitVec 1 := Scalar.cmpi .slt v355 c0_i32_249
  let c0_i32_250 : BitVec 32 := 0#32
  let v358 : BitVec 1 := Scalar.cmpi .slt v354 c0_i32_250
  let v359 : BitVec 1 := Scalar.xori v357 v358
  let c0_i32_248 : BitVec 32 := 0#32
  let v356 : BitVec 1 := Scalar.cmpi .ne v355 c0_i32_248
  let v360 : BitVec 1 := Scalar.andi v359 v356
  let v361 : BitVec 32 := Scalar.addi v355 v354
  let v362 : BitVec 32 := Scalar.select v360 v361 v355
  let c1_i32_255 : BitVec 32 := 1#32
  let v363 : BitVec 32 := Scalar.muli v362 c1_i32_255
  let v364 : BitVec 32 := Scalar.addi c0_i32_256 v363
  v364.toNat
def k0_dev24 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_259 : BitVec 32 := 9#32
  let v373 : BitVec 32 := Scalar.addi v2 c9_i32_259
  let c16_i32_260 : BitVec 32 := 16#32
  let c0_i32_261 : BitVec 32 := 0#32
  let v374 : BitVec 1 := Scalar.cmpi .eq c16_i32_260 c0_i32_261
  let c1_i32_262 : BitVec 32 := 1#32
  let v375 : BitVec 32 := Scalar.select v374 c1_i32_262 c16_i32_260
  let v376 : BitVec 32 := Scalar.remsi v373 v375
  let c0_i32_264 : BitVec 32 := 0#32
  let v378 : BitVec 1 := Scalar.cmpi .slt v376 c0_i32_264
  let c0_i32_265 : BitVec 32 := 0#32
  let v379 : BitVec 1 := Scalar.cmpi .slt v375 c0_i32_265
  let v380 : BitVec 1 := Scalar.xori v378 v379
  let c0_i32_263 : BitVec 32 := 0#32
  let v377 : BitVec 1 := Scalar.cmpi .ne v376 c0_i32_263
  let v381 : BitVec 1 := Scalar.andi v380 v377
  let v382 : BitVec 32 := Scalar.addi v376 v375
  let v383 : BitVec 32 := Scalar.select v381 v382 v376
  let c1_i32_270 : BitVec 32 := 1#32
  let v384 : BitVec 32 := Scalar.muli v383 c1_i32_270
  let v385 : BitVec 32 := Scalar.addi c0_i32_271 v384
  v385.toNat
def k0_dev25 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_274 : BitVec 32 := 10#32
  let v394 : BitVec 32 := Scalar.addi v2 c10_i32_274
  let c16_i32_275 : BitVec 32 := 16#32
  let c0_i32_276 : BitVec 32 := 0#32
  let v395 : BitVec 1 := Scalar.cmpi .eq c16_i32_275 c0_i32_276
  let c1_i32_277 : BitVec 32 := 1#32
  let v396 : BitVec 32 := Scalar.select v395 c1_i32_277 c16_i32_275
  let v397 : BitVec 32 := Scalar.remsi v394 v396
  let c0_i32_279 : BitVec 32 := 0#32
  let v399 : BitVec 1 := Scalar.cmpi .slt v397 c0_i32_279
  let c0_i32_280 : BitVec 32 := 0#32
  let v400 : BitVec 1 := Scalar.cmpi .slt v396 c0_i32_280
  let v401 : BitVec 1 := Scalar.xori v399 v400
  let c0_i32_278 : BitVec 32 := 0#32
  let v398 : BitVec 1 := Scalar.cmpi .ne v397 c0_i32_278
  let v402 : BitVec 1 := Scalar.andi v401 v398
  let v403 : BitVec 32 := Scalar.addi v397 v396
  let v404 : BitVec 32 := Scalar.select v402 v403 v397
  let c1_i32_285 : BitVec 32 := 1#32
  let v405 : BitVec 32 := Scalar.muli v404 c1_i32_285
  let v406 : BitVec 32 := Scalar.addi c0_i32_286 v405
  v406.toNat
def k0_dev26 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_289 : BitVec 32 := 11#32
  let v415 : BitVec 32 := Scalar.addi v2 c11_i32_289
  let c16_i32_290 : BitVec 32 := 16#32
  let c0_i32_291 : BitVec 32 := 0#32
  let v416 : BitVec 1 := Scalar.cmpi .eq c16_i32_290 c0_i32_291
  let c1_i32_292 : BitVec 32 := 1#32
  let v417 : BitVec 32 := Scalar.select v416 c1_i32_292 c16_i32_290
  let v418 : BitVec 32 := Scalar.remsi v415 v417
  let c0_i32_294 : BitVec 32 := 0#32
  let v420 : BitVec 1 := Scalar.cmpi .slt v418 c0_i32_294
  let c0_i32_295 : BitVec 32 := 0#32
  let v421 : BitVec 1 := Scalar.cmpi .slt v417 c0_i32_295
  let v422 : BitVec 1 := Scalar.xori v420 v421
  let c0_i32_293 : BitVec 32 := 0#32
  let v419 : BitVec 1 := Scalar.cmpi .ne v418 c0_i32_293
  let v423 : BitVec 1 := Scalar.andi v422 v419
  let v424 : BitVec 32 := Scalar.addi v418 v417
  let v425 : BitVec 32 := Scalar.select v423 v424 v418
  let c1_i32_300 : BitVec 32 := 1#32
  let v426 : BitVec 32 := Scalar.muli v425 c1_i32_300
  let v427 : BitVec 32 := Scalar.addi c0_i32_301 v426
  v427.toNat
def k0_dev27 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_304 : BitVec 32 := 12#32
  let v436 : BitVec 32 := Scalar.addi v2 c12_i32_304
  let c16_i32_305 : BitVec 32 := 16#32
  let c0_i32_306 : BitVec 32 := 0#32
  let v437 : BitVec 1 := Scalar.cmpi .eq c16_i32_305 c0_i32_306
  let c1_i32_307 : BitVec 32 := 1#32
  let v438 : BitVec 32 := Scalar.select v437 c1_i32_307 c16_i32_305
  let v439 : BitVec 32 := Scalar.remsi v436 v438
  let c0_i32_309 : BitVec 32 := 0#32
  let v441 : BitVec 1 := Scalar.cmpi .slt v439 c0_i32_309
  let c0_i32_310 : BitVec 32 := 0#32
  let v442 : BitVec 1 := Scalar.cmpi .slt v438 c0_i32_310
  let v443 : BitVec 1 := Scalar.xori v441 v442
  let c0_i32_308 : BitVec 32 := 0#32
  let v440 : BitVec 1 := Scalar.cmpi .ne v439 c0_i32_308
  let v444 : BitVec 1 := Scalar.andi v443 v440
  let v445 : BitVec 32 := Scalar.addi v439 v438
  let v446 : BitVec 32 := Scalar.select v444 v445 v439
  let c1_i32_315 : BitVec 32 := 1#32
  let v447 : BitVec 32 := Scalar.muli v446 c1_i32_315
  let v448 : BitVec 32 := Scalar.addi c0_i32_316 v447
  v448.toNat
def k0_dev28 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_319 : BitVec 32 := 13#32
  let v457 : BitVec 32 := Scalar.addi v2 c13_i32_319
  let c16_i32_320 : BitVec 32 := 16#32
  let c0_i32_321 : BitVec 32 := 0#32
  let v458 : BitVec 1 := Scalar.cmpi .eq c16_i32_320 c0_i32_321
  let c1_i32_322 : BitVec 32 := 1#32
  let v459 : BitVec 32 := Scalar.select v458 c1_i32_322 c16_i32_320
  let v460 : BitVec 32 := Scalar.remsi v457 v459
  let c0_i32_324 : BitVec 32 := 0#32
  let v462 : BitVec 1 := Scalar.cmpi .slt v460 c0_i32_324
  let c0_i32_325 : BitVec 32 := 0#32
  let v463 : BitVec 1 := Scalar.cmpi .slt v459 c0_i32_325
  let v464 : BitVec 1 := Scalar.xori v462 v463
  let c0_i32_323 : BitVec 32 := 0#32
  let v461 : BitVec 1 := Scalar.cmpi .ne v460 c0_i32_323
  let v465 : BitVec 1 := Scalar.andi v464 v461
  let v466 : BitVec 32 := Scalar.addi v460 v459
  let v467 : BitVec 32 := Scalar.select v465 v466 v460
  let c1_i32_330 : BitVec 32 := 1#32
  let v468 : BitVec 32 := Scalar.muli v467 c1_i32_330
  let v469 : BitVec 32 := Scalar.addi c0_i32_331 v468
  v469.toNat
def k0_dev29 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_334 : BitVec 32 := 14#32
  let v478 : BitVec 32 := Scalar.addi v2 c14_i32_334
  let c16_i32_335 : BitVec 32 := 16#32
  let c0_i32_336 : BitVec 32 := 0#32
  let v479 : BitVec 1 := Scalar.cmpi .eq c16_i32_335 c0_i32_336
  let c1_i32_337 : BitVec 32 := 1#32
  let v480 : BitVec 32 := Scalar.select v479 c1_i32_337 c16_i32_335
  let v481 : BitVec 32 := Scalar.remsi v478 v480
  let c0_i32_339 : BitVec 32 := 0#32
  let v483 : BitVec 1 := Scalar.cmpi .slt v481 c0_i32_339
  let c0_i32_340 : BitVec 32 := 0#32
  let v484 : BitVec 1 := Scalar.cmpi .slt v480 c0_i32_340
  let v485 : BitVec 1 := Scalar.xori v483 v484
  let c0_i32_338 : BitVec 32 := 0#32
  let v482 : BitVec 1 := Scalar.cmpi .ne v481 c0_i32_338
  let v486 : BitVec 1 := Scalar.andi v485 v482
  let v487 : BitVec 32 := Scalar.addi v481 v480
  let v488 : BitVec 32 := Scalar.select v486 v487 v481
  let c1_i32_345 : BitVec 32 := 1#32
  let v489 : BitVec 32 := Scalar.muli v488 c1_i32_345
  let v490 : BitVec 32 := Scalar.addi c0_i32_346 v489
  v490.toNat
def k0_dev30 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_349 : BitVec 32 := 15#32
  let v499 : BitVec 32 := Scalar.addi v2 c15_i32_349
  let c16_i32_350 : BitVec 32 := 16#32
  let c0_i32_351 : BitVec 32 := 0#32
  let v500 : BitVec 1 := Scalar.cmpi .eq c16_i32_350 c0_i32_351
  let c1_i32_352 : BitVec 32 := 1#32
  let v501 : BitVec 32 := Scalar.select v500 c1_i32_352 c16_i32_350
  let v502 : BitVec 32 := Scalar.remsi v499 v501
  let c0_i32_354 : BitVec 32 := 0#32
  let v504 : BitVec 1 := Scalar.cmpi .slt v502 c0_i32_354
  let c0_i32_355 : BitVec 32 := 0#32
  let v505 : BitVec 1 := Scalar.cmpi .slt v501 c0_i32_355
  let v506 : BitVec 1 := Scalar.xori v504 v505
  let c0_i32_353 : BitVec 32 := 0#32
  let v503 : BitVec 1 := Scalar.cmpi .ne v502 c0_i32_353
  let v507 : BitVec 1 := Scalar.andi v506 v503
  let v508 : BitVec 32 := Scalar.addi v502 v501
  let v509 : BitVec 32 := Scalar.select v507 v508 v502
  let c1_i32_360 : BitVec 32 := 1#32
  let v510 : BitVec 32 := Scalar.muli v509 c1_i32_360
  let v511 : BitVec 32 := Scalar.addi c0_i32_361 v510
  v511.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  shapeCasts_S1024_S1x1024 : S1024.ShapeCasts S1x1024
  hamt_15 : (15#32 : BitVec 32).msb = false
  inb_S16_S1_1 : ∀ a, (![1] : Fin 1 → Nat) a + S1.size a ≤ S16.size a
  squeezes_S1_S_ : S1.Squeezes S_
  inb_S16x1024_S1x1024_1_0 : ∀ a, (![1, 0] : Fin 2 → Nat) a + S1x1024.size a ≤ S16x1024.size a
  squeezes_S1x1024_S1024 : S1x1024.Squeezes S1024
  inb_S16_S1_2 : ∀ a, (![2] : Fin 1 → Nat) a + S1.size a ≤ S16.size a
  inb_S16x1024_S1x1024_2_0 : ∀ a, (![2, 0] : Fin 2 → Nat) a + S1x1024.size a ≤ S16x1024.size a
  inb_S16_S1_3 : ∀ a, (![3] : Fin 1 → Nat) a + S1.size a ≤ S16.size a
  inb_S16x1024_S1x1024_3_0 : ∀ a, (![3, 0] : Fin 2 → Nat) a + S1x1024.size a ≤ S16x1024.size a
  inb_S16_S1_4 : ∀ a, (![4] : Fin 1 → Nat) a + S1.size a ≤ S16.size a
  inb_S16x1024_S1x1024_4_0 : ∀ a, (![4, 0] : Fin 2 → Nat) a + S1x1024.size a ≤ S16x1024.size a
  inb_S16_S1_5 : ∀ a, (![5] : Fin 1 → Nat) a + S1.size a ≤ S16.size a
  inb_S16x1024_S1x1024_5_0 : ∀ a, (![5, 0] : Fin 2 → Nat) a + S1x1024.size a ≤ S16x1024.size a
  inb_S16_S1_6 : ∀ a, (![6] : Fin 1 → Nat) a + S1.size a ≤ S16.size a
  inb_S16x1024_S1x1024_6_0 : ∀ a, (![6, 0] : Fin 2 → Nat) a + S1x1024.size a ≤ S16x1024.size a
  inb_S16_S1_7 : ∀ a, (![7] : Fin 1 → Nat) a + S1.size a ≤ S16.size a
  inb_S16x1024_S1x1024_7_0 : ∀ a, (![7, 0] : Fin 2 → Nat) a + S1x1024.size a ≤ S16x1024.size a
  inb_S16_S1_8 : ∀ a, (![8] : Fin 1 → Nat) a + S1.size a ≤ S16.size a
  inb_S16x1024_S1x1024_8_0 : ∀ a, (![8, 0] : Fin 2 → Nat) a + S1x1024.size a ≤ S16x1024.size a
  inb_S16_S1_9 : ∀ a, (![9] : Fin 1 → Nat) a + S1.size a ≤ S16.size a
  inb_S16x1024_S1x1024_9_0 : ∀ a, (![9, 0] : Fin 2 → Nat) a + S1x1024.size a ≤ S16x1024.size a
  inb_S16_S1_10 : ∀ a, (![10] : Fin 1 → Nat) a + S1.size a ≤ S16.size a
  inb_S16x1024_S1x1024_10_0 : ∀ a, (![10, 0] : Fin 2 → Nat) a + S1x1024.size a ≤ S16x1024.size a
  inb_S16_S1_11 : ∀ a, (![11] : Fin 1 → Nat) a + S1.size a ≤ S16.size a
  inb_S16x1024_S1x1024_11_0 : ∀ a, (![11, 0] : Fin 2 → Nat) a + S1x1024.size a ≤ S16x1024.size a
  inb_S16_S1_12 : ∀ a, (![12] : Fin 1 → Nat) a + S1.size a ≤ S16.size a
  inb_S16x1024_S1x1024_12_0 : ∀ a, (![12, 0] : Fin 2 → Nat) a + S1x1024.size a ≤ S16x1024.size a
  inb_S16_S1_13 : ∀ a, (![13] : Fin 1 → Nat) a + S1.size a ≤ S16.size a
  inb_S16x1024_S1x1024_13_0 : ∀ a, (![13, 0] : Fin 2 → Nat) a + S1x1024.size a ≤ S16x1024.size a
  inb_S16_S1_14 : ∀ a, (![14] : Fin 1 → Nat) a + S1.size a ≤ S16.size a
  inb_S16x1024_S1x1024_14_0 : ∀ a, (![14, 0] : Fin 2 → Nat) a + S1x1024.size a ≤ S16x1024.size a
  inb_S16_S1_15 : ∀ a, (![15] : Fin 1 → Nat) a + S1.size a ≤ S16.size a
  inb_S16x1024_S1x1024_15_0 : ∀ a, (![15, 0] : Fin 2 → Nat) a + S1x1024.size a ≤ S16x1024.size a
  inb_S16x1024_S16x1024_0_0 : ∀ a, (![0, 0] : Fin 2 → Nat) a + S16x1024.size a ≤ S16x1024.size a
  h_S16x1024 : 0 < S16x1024.numel
  reduces_S16x1024_S1024 : S16x1024.Reduces [0] S1024
  inb_S1x1024_S1x1024_0_0 : ∀ a, (![0, 0] : Fin 2 → Nat) a + S1x1024.size a ≤ S1x1024.size a
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.Proto.lean ====
import proofs.«900947_g7700000000000948_dist_mean_ax0_shard0_i_m2048_n1024_v7x_i16_f32_1_alg».proof.Proof.Gen.KernelIdeal
import proofs.«900947_g7700000000000948_dist_mean_ax0_shard0_i_m2048_n1024_v7x_i16_f32_1_alg».proof.Proof.Gen.KernelIdeal.Skeleton
import proofs.«900947_g7700000000000948_dist_mean_ax0_shard0_i_m2048_n1024_v7x_i16_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

/-!
# The all-to-all mean over sixteen devices: the protocol

Every device reduces its own block of `x` to one row of column sums, hands that row to each of the other
fifteen devices, and averages the sixteen rows it then holds. Device `c` keeps its own sums in row 0 of a
sixteen-row table and receives the sums of device `c - k` in row `k`.

The synchronisation, cell by cell, for a device `c` and an offset `k = 1 … 15`:
* the barrier cell of `c` has one round of fifteen unit duties; duty `k` is paid by device `c + k`
  and hands `c` that device's row `k` (the row `c` is about to fill) together with the fact that
  its receive cell `k` stands at round 0;
* receive cell `k` of `c` has one duty, paid by the copy issued on device `c - k`; it hands `c`
  its own row `k` holding the sender's column sums;
* send cell `k` of `c` has one duty, paid by `c`'s own copy `k`; it hands back the share of row 0
  that copy read from.
Send and receive cell 0 are never used and have no duty.
-/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra: the pipeline's own copy and one for this protocol, duties named by an offset -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices at an offset, around the ring of sixteen -/

/-- The device `k` places after `c`. -/
def fwd (c : Dev nD) (k : Fin 16) : Dev nD := ⟨(c.val + k.val) % 16, Nat.mod_lt _ (by decide)⟩
/-- The device `k` places before `c`. -/
def bwd (c : Dev nD) (k : Fin 16) : Dev nD := ⟨(c.val + (16 - k.val)) % 16, Nat.mod_lt _ (by decide)⟩

theorem bwd_fwd (c : Dev nD) (k : Fin 16) : bwd (fwd c k) k = c := by revert c k; decide
theorem fwd_bwd (c : Dev nD) (k : Fin 16) : fwd (bwd c k) k = c := by revert c k; decide
theorem bwd_zero (c : Dev nD) : bwd c 0 = c := by revert c; decide
theorem fwd_zero (c : Dev nD) : fwd c 0 = c := by revert c; decide

/-- The offsets that are used: all but 0. -/
def ks : Finset (Fin 16) := Finset.univ.erase 0
theorem mem_ks {k : Fin 16} : k ∈ ks ↔ k ≠ 0 := by unfold ks; simp

/-! ## The memrefs and cells -/

abbrev xM : Memref sig .tc .vmem S2048x1024 .f32 := Memref.whole cc0_stg0_0
abbrev oM : Memref sig .tc .vmem S1x1024 .f32 := Memref.whole cc0_stg1_0
abbrev rM : Memref sig .tc .vmem S16x1024 .f32 := Memref.whole cc0_scratch0

theorem inbRow (k : Fin 16) : ∀ a, (![k.val, 0] : Fin 2 → Nat) a + S1x1024.size a ≤ S16x1024.size a := by revert k; decide
theorem inbSem (k : Fin 16) : ∀ a, (![k.val] : Fin 1 → Nat) a + S1.size a ≤ S16.size a := by revert k; decide

/-- Row `k` of the table, as the kernel's copies and waits name it. -/
abbrev rowM (k : Fin 16) : Memref sig .tc .vmem S1024 .f32 :=
  ((rM : Memref sig .tc .vmem S16x1024 .f32).slice (Rect.unit (s := S16x1024) ![k.val, 0] S1x1024.size (inbRow k)) (fun _ => rfl)).squeeze S1024 squeezes_S1x1024_S1024

/-- The runtime's barrier semaphore of collective id 0 (unscoped); the send and receive DMA semaphores (scoped scratch). -/
abbrev barS : Sem sig := (SemArray.scalar (sig.barrier 0 rfl) : Sems sig S_).sem
abbrev sendS (k : Fin 16) : DmaSem sig :=
  ((cc0_scratch1.slice (Rect.unit (s := S16) ![k.val] S1.size (inbSem k))).squeeze S_ squeezes_S1_S_).sem
abbrev recvS (k : Fin 16) : DmaSem sig :=
  ((cc0_scratch2.slice (Rect.unit (s := S16) ![k.val] S1.size (inbSem k))).squeeze S_ squeezes_S1_S_).sem

theorem sendS_val (k : Fin 16) : (sendS k).val = 2 + k.val := by revert k; decide
theorem recvS_val (k : Fin 16) : (recvS k).val = 18 + k.val := by revert k; decide

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- A device's thirty-three cells: the barrier's, then (which, offset) with `false` for send and `true` for receive. -/
abbrev CI : Type := Option (Bool × Fin 16)
abbrev csem : CI → SemLoc sig
  | none => .reg barS
  | some (false, k) => .dma (sendS k)
  | some (true, k) => .dma (recvS k)
abbrev kcell (ck : Dev nD × CI) : GSem nD τ sig := ((ck.1 : Thread nD τ), csem ck.2)

/-- What a copy of one row credits the cells it completes on. -/
abbrev N : ℕ := (rowM 0 : Memref sig .tc .vmem S1024 .f32).view.dmaCredit
theorem N_pos : 0 < N := View.dmaCredit_pos _ (by decide)

/-- Which send or receive cell a DMA semaphore is, if any. -/
def slot : SemLoc sig → Option (Bool × Fin 16)
  | .reg _ => none
  | .dma q => if h : 2 ≤ q.val ∧ q.val < 18 then some (false, ⟨q.val - 2, by omega⟩)
      else if h' : 18 ≤ q.val ∧ q.val < 34 then some (true, ⟨q.val - 18, by omega⟩) else none

theorem slot_send (k : Fin 16) : slot (.dma (sendS k)) = some (false, k) := by revert k; decide
theorem slot_recv (k : Fin 16) : slot (.dma (recvS k)) = some (true, k) := by revert k; decide
theorem slot_bar : slot (.reg barS) = none := rfl

/-! ## Contents -/

/-- Device `c`'s block of `x` as its kernel finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- The index `(0, j)` of a one-row matrix. -/
abbrev rowIx (j : Fin 1024) : S1x1024.Idx := fun a => match a with
  | ⟨0, _⟩ => (⟨0, Nat.one_pos⟩ : Fin 1)
  | ⟨1, _⟩ => (⟨j.val, j.isLt⟩ : Fin 1024)

/-- The table device `c` ends with: row `k` holds the column sums of the block of device `c - k`. -/
def commAt (c : Dev nD) : Buf (Elt F) (((c : Dev nD) : Thread nD τ).loc cc0_scratch0) :=
  fun i => k0_pay2 (xstg m ρ (bwd c ⟨(i 0).val, (i 0).isLt⟩)) (rowIx ⟨(i 1).val, (i 1).isLt⟩)

/-- The kernel's result on device `c`: the sixteen rows added up and scaled. -/
def outAt (c : Dev nD) : (cc0_stg1_0 : Ref sig .tc).ty.Contents (Elt F) := k0_pay1 (commAt m ρ c)

def scrPts (c : Dev nD) (f : Buf (Elt F) ((rM : Memref sig .tc .vmem S16x1024 .f32).view.loc (c : Thread nD τ))) : sProp 𝕄 :=
  (rM : Memref sig .tc .vmem S16x1024 .f32).view.loc (c : Thread nD τ) ↦[(rM : Memref sig .tc .vmem S16x1024 .f32).view.set]{fullShare} f
/-- Row `k` of device `c`'s table, held outright at contents `f`. -/
def rowPts (c : Dev nD) (k : Fin 16) (f : Buf (Elt F) ((rowM k : Memref sig .tc .vmem S1024 .f32).view.loc (c : Thread nD τ))) : sProp 𝕄 :=
  (rowM k : Memref sig .tc .vmem S1024 .f32).view.loc (c : Thread nD τ) ↦[(rowM k : Memref sig .tc .vmem S1024 .f32).view.set]{fullShare} f
/-- Row 0 of device `c`'s table at its final contents, held at a share. -/
def row0Pts (c : Dev nD) (q : PosShare TreeShare) : sProp 𝕄 :=
  (rowM 0 : Memref sig .tc .vmem S1024 .f32).view.loc (c : Thread nD τ) ↦[(rowM 0 : Memref sig .tc .vmem S1024 .f32).view.set]{q} commAt m ρ c

/-- The share of row 0 that copy `k` reads from. -/
abbrev shr (k : Fin 16) : PosShare TreeShare := shareTok fullShare 16 k

instance scrPts_storable (c : Dev nD) (f) : BI.Storable (upEmb : UEmb _ 𝕄) (scrPts (F := F) c f) := by unfold scrPts; infer_instance
instance rowPts_storable (c : Dev nD) (k : Fin 16) (f) : BI.Storable (upEmb : UEmb _ 𝕄) (rowPts (F := F) c k f) := by unfold rowPts; infer_instance
instance row0Pts_storable (c : Dev nD) (q) : BI.Storable (upEmb : UEmb _ 𝕄) (row0Pts (F := F) m ρ c q) := by unfold row0Pts; infer_instance

/-! ## The schedule -/

/-- What device `c + d`'s signal (duty `d` of `c`'s barrier cell) hands `c`: that device's row `d`, and that its
    receive cell `d` stands at round 0 — what `c`'s copy `d` into it needs. -/
def barPay (c : Dev nD) (d : Fin 16) : sProp 𝕄 := iprop((∃ f, rowPts (fwd c d) d f) ∗ reached ER (recvCell (fwd c d) d) 0)
def recvPay (c : Dev nD) (k : Fin 16) : sProp 𝕄 := rowPts c k (commAt m ρ c)
def sendPay (c : Dev nD) (k : Fin 16) : sProp 𝕄 := row0Pts m ρ c (shr k)

def dutiesOf (sm : SemLoc sig) : Finset (Fin 16) :=
  if sm = .reg barS then ks else match slot sm with
    | some (_, k) => if k = 0 then ∅ else {0}
    | none => ∅

def payOf (c : Dev nD) (sm : SemLoc sig) (d : Fin 16) : sProp 𝕄 :=
  if sm = .reg barS then barPay c d else match slot sm with
    | some (false, k) => sendPay m ρ c k
    | some (true, k) => recvPay m ρ c k
    | none => iprop(emp)

/-- One round, round 0. -/
def sched : Rounds.Schedule (GSem nD τ sig) (Fin 16) 𝕄 where
  duties g r := if r = 0 ∧ g.1.2 = .tc then dutiesOf g.2 else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance sched_payload_storable (g : GSem nD τ sig) (r : ℕ) (d : Fin 16) :
    BI.Storable (upEmb : UEmb _ 𝕄) ((sched (F := F) m ρ).payload g r d) := by
  show BI.Storable upEmb (payOf m ρ g.1.1 g.2 d)
  unfold payOf barPay recvPay sendPay
  (repeat' split) <;> infer_instance

section Sched
variable (c : Dev nD) (k : Fin 16)

theorem send_ne_bar : (SemLoc.dma (sendS k) : SemLoc sig) ≠ .reg barS := fun h => by cases h
theorem recv_ne_bar : (SemLoc.dma (recvS k) : SemLoc sig) ≠ .reg barS := fun h => by cases h

theorem dutiesOf_bar : dutiesOf (.reg barS) = ks := if_pos rfl
theorem dutiesOf_send (hk : k ≠ 0) : dutiesOf (.dma (sendS k)) = {0} := by
  unfold dutiesOf; rw [if_neg (send_ne_bar k), slot_send]; exact if_neg hk
theorem dutiesOf_recv (hk : k ≠ 0) : dutiesOf (.dma (recvS k)) = {0} := by
  unfold dutiesOf; rw [if_neg (recv_ne_bar k), slot_recv]; exact if_neg hk
theorem dutiesOf_send0 : dutiesOf (.dma (sendS 0)) = ∅ := by
  unfold dutiesOf; rw [if_neg (send_ne_bar 0), slot_send]; exact if_pos rfl
theorem dutiesOf_recv0 : dutiesOf (.dma (recvS 0)) = ∅ := by
  unfold dutiesOf; rw [if_neg (recv_ne_bar 0), slot_recv]; exact if_pos rfl

theorem duties_bar : (sched (F := F) m ρ).duties (barCell c) 0 = ks := by
  dsimp only [sched]; rw [if_pos ⟨rfl, rfl⟩]; exact dutiesOf_bar
theorem duties_send (hk : k ≠ 0) : (sched (F := F) m ρ).duties (sendCell c k) 0 = {0} := by
  dsimp only [sched]; rw [if_pos ⟨rfl, rfl⟩]; exact dutiesOf_send k hk
theorem duties_recv (hk : k ≠ 0) : (sched (F := F) m ρ).duties (recvCell c k) 0 = {0} := by
  dsimp only [sched]; rw [if_pos ⟨rfl, rfl⟩]; exact dutiesOf_recv k hk
theorem duties_send0 : (sched (F := F) m ρ).duties (sendCell c 0) 0 = ∅ := by
  dsimp only [sched]; rw [if_pos ⟨rfl, rfl⟩]; exact dutiesOf_send0
theorem duties_recv0 : (sched (F := F) m ρ).duties (recvCell c 0) 0 = ∅ := by
  dsimp only [sched]; rw [if_pos ⟨rfl, rfl⟩]; exact dutiesOf_recv0
theorem duties_later (g : GSem nD τ sig) : ∀ r, 1 ≤ r → (sched (F := F) m ρ).duties g r = ∅ :=
  fun r hr => by dsimp only [sched]; rw [if_neg fun h => by omega]

theorem amount_bar (d : Fin 16) : (sched (F := F) m ρ).amount (barCell c) 0 d = 1 := by dsimp only [sched]; exact if_pos rfl
theorem amount_send (d : Fin 16) : (sched (F := F) m ρ).amount (sendCell c k) 0 d = N := by dsimp only [sched]; exact if_neg (send_ne_bar k)
theorem amount_recv (d : Fin 16) : (sched (F := F) m ρ).amount (recvCell c k) 0 d = N := by dsimp only [sched]; exact if_neg (recv_ne_bar k)

theorem expect_bar : (sched (F := F) m ρ).expect (barCell c) 0 = 15 := by
  unfold Schedule.expect Schedule.amountOf
  rw [duties_bar, Finset.sum_congr rfl fun d _ => amount_bar m ρ c d, Finset.sum_const, smul_eq_mul, Nat.mul_one]
  decide
theorem expect_send (hk : k ≠ 0) : (sched (F := F) m ρ).expect (sendCell c k) 0 = N := by
  unfold Schedule.expect Schedule.amountOf; rw [duties_send m ρ c k hk, Finset.sum_singleton, amount_send]
theorem expect_recv (hk : k ≠ 0) : (sched (F := F) m ρ).expect (recvCell c k) 0 = N := by
  unfold Schedule.expect Schedule.amountOf; rw [duties_recv m ρ c k hk, Finset.sum_singleton, amount_recv]

theorem payload_bar (d : Fin 16) : (sched (F := F) m ρ).payload (barCell c) 0 d = barPay c d := by
  dsimp only [sched]; unfold payOf; exact if_pos rfl
theorem payload_send (d : Fin 16) : (sched (F := F) m ρ).payload (sendCell c k) 0 d = sendPay m ρ c k := by
  dsimp only [sched]; unfold payOf; rw [if_neg (send_ne_bar k), slot_send]
theorem payload_recv (d : Fin 16) : (sched (F := F) m ρ).payload (recvCell c k) 0 d = recvPay m ρ c k := by
  dsimp only [sched]; unfold payOf; rw [if_neg (recv_ne_bar k), slot_recv]

/-- The whole of the barrier cell's round, no duty taken yet: the fifteen senders' payloads. -/
theorem rest_bar : bigSep ((sched (F := F) m ρ).duties (barCell c) 0 \ ∅) (fun d => (sched (F := F) m ρ).payload (barCell c) 0 d) = bigSep ks (fun d => barPay (F := F) c d) := by
  rw [Finset.sdiff_empty, duties_bar]
  exact bigSep_congr fun d _ => payload_bar m ρ c d
theorem rest_send (hk : k ≠ 0) : bigSep ((sched (F := F) m ρ).duties (sendCell c k) 0 \ ∅) (fun d => (sched (F := F) m ρ).payload (sendCell c k) 0 d) = sendPay m ρ c k := by
  rw [Finset.sdiff_empty, duties_send m ρ c k hk, bigSep_singleton, payload_send]
theorem rest_recv (hk : k ≠ 0) : bigSep ((sched (F := F) m ρ).duties (recvCell c k) 0 \ ∅) (fun d => (sched (F := F) m ρ).payload (recvCell c k) 0 d) = recvPay m ρ c k := by
  rw [Finset.sdiff_empty, duties_recv m ρ c k hk, bigSep_singleton, payload_recv]

end Sched

/-! ## What each device owes at launch; the levels -/

/-- The signals still to send, to the barrier cells of the devices `k` places back for `k` in `S`. -/
def Osig (c : Dev nD) (S : Finset (Fin 16)) : CellTallies nD τ sig Unit := ∑ k ∈ S, tallyAt (barCell (bwd c k)) () 1
/-- The copies still to issue, to the receive cells `k` of the devices `k` places on for `k` in `S`. -/
def Ocpy (c : Dev nD) (S : Finset (Fin 16)) : CellTallies nD τ sig Unit := ∑ k ∈ S, tallyAt (recvCell (fwd c k) k) () N
def O₀ (c : Dev nD) : CellTallies nD τ sig Unit := Ocpy c ks + Osig c ks

theorem Osig_erase (c : Dev nD) {S : Finset (Fin 16)} {k : Fin 16} (hk : k ∈ S) :
    Osig c S = Osig c (S.erase k) + tallyAt (barCell (bwd c k)) () 1 := by
  unfold Osig; rw [add_comm]; exact (Finset.add_sum_erase S _ hk).symm
theorem Ocpy_erase (c : Dev nD) {S : Finset (Fin 16)} {k : Fin 16} (hk : k ∈ S) :
    Ocpy c S = Ocpy c (S.erase k) + tallyAt (recvCell (fwd c k) k) () N := by
  unfold Ocpy; rw [add_comm]; exact (Finset.add_sum_erase S _ hk).symm
theorem Osig_empty (c : Dev nD) : Osig c ∅ = 0 := Finset.sum_empty
theorem Ocpy_empty (c : Dev nD) : Ocpy c ∅ = 0 := Finset.sum_empty

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if (slot g.2).map Prod.fst = some true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 16) (u : Unit) : lv (recvCell c k) u = 2 := by
  unfold lv; rw [if_neg (recv_ne_bar k), slot_recv]; rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names the launch allocated them at, and that every cell has reached round 0. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

/-- Device `c`'s positions, at round 0 of each of its cells. -/
def poss (c : Dev nD) : sProp 𝕄 := bigSep Finset.univ fun j : CI => atPos ER (kcell (c, j)) 0 ∅ 0
/-- The tokens of the duties device `c` pays: duty `k` of the barrier cell `k` places back, the arrival on receive cell `k`
    of the device `k` places on, and its own send cell `k`'s. -/
def payToks (c : Dev nD) : sProp 𝕄 :=
  iprop((bigSep ks fun k => dutyTok ER (barCell (bwd c k)) 0 k) ∗ (bigSep ks fun k => dutyTok ER (recvCell (fwd c k) k) 0 0)
    ∗ bigSep ks fun k => dutyTok ER (sendCell c k) 0 0)

def ghost (K : Dev nD × CI → ℕ) (c : Dev nD) : sProp 𝕄 := iprop(records m ρ K ∗ poss c ∗ payToks c)

/-- What device `c`'s body starts from: the ghost state at some names, the credit of its barrier's fifteen units and of each
    receive cell's row, and the level facts. -/
def start (c : Dev nD) : sProp 𝕄 :=
  iprop((∃ K, ghost m ρ K c) ∗ cred (tallyAt (barCell c) () 15) ∗ (bigSep ks fun k => cred (tallyAt (recvCell c k) () N)) ∗ levAts L lv)

def Φ₀ (c : Dev nD) : sProp 𝕄 := iprop(start m ρ c ∗ ∃ f, scrPts c f)
/-- After the point: the table at its final contents, the thirty-two own cells at zero, closed. -/
def Φ₁ (c : Dev nD) : sProp 𝕄 :=
  iprop(scrPts c (commAt m ρ c) ∗ (bigSep Finset.univ fun k : Fin 16 => semVal (sendCell c k) 0) ∗ bigSep Finset.univ fun k : Fin 16 => semVal (recvCell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdealProof

end
-- ==== Proof.Rows.lean ====
import proofs.«900947_g7700000000000948_dist_mean_ax0_shard0_i_m2048_n1024_v7x_i16_f32_1_alg».proof.Proof.Proto
import Idealize.ShloMosaic.Lib.Pipeline.Value

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # The table's rows: their elements, and what a store into row 0 and a landing into row `k` leave there -/

/-- Row `k`'s elements, as elements of device `c`'s table. -/
abbrev rowSet (c : Dev nD) (k : Fin 16) : Finset (Idx ((rM : Memref sig .tc .vmem S16x1024 .f32).view.loc (c : Thread nD τ))) :=
  (rowM k : Memref sig .tc .vmem S1024 .f32).view.set

theorem rowSet_eq (c : Dev nD) (k : Fin 16) : rowSet c k = (Rect.unit (s := S16x1024) ![k.val, 0] S1x1024.size (inbRow k)).set := by
  unfold rowSet
  simp only [Memref.view_squeeze, Memref.view_slice, Memref.view_whole, View.set_reshape, View.set_slice_whole]

/-- An element lies in row `k` exactly when its first coordinate is `k`. -/
theorem mem_rowSet (c : Dev nD) {k : Fin 16} {i : Idx ((rM : Memref sig .tc .vmem S16x1024 .f32).view.loc (c : Thread nD τ))} :
    i ∈ rowSet c k ↔ ((i : S16x1024.Idx) 0).val = k.val := by
  rw [rowSet_eq, Rect.mem_set_unit]
  constructor
  · intro h; have := h 0; simp at this; omega
  · intro h a
    fin_cases a
    · simp; omega
    · simp; exact ((i : S16x1024.Idx) 1).isLt

theorem rowSet_disjoint (c : Dev nD) {k k' : Fin 16} (h : k ≠ k') : Disjoint (rowSet c k) (rowSet c k') := by
  rw [Finset.disjoint_left]
  intro i hi hi'
  rw [mem_rowSet] at hi hi'
  exact h (Fin.ext (hi.symm.trans hi'))

theorem biUnion_rowSet (c : Dev nD) : (Finset.univ : Finset (Fin 16)).biUnion (rowSet c) = Finset.univ := by
  ext i
  simp only [Finset.mem_biUnion, Finset.mem_univ, true_and, iff_true]
  exact ⟨⟨((i : S16x1024.Idx) 0).val, ((i : S16x1024.Idx) 0).isLt⟩, (mem_rowSet c).mpr rfl⟩

set_option maxHeartbeats 1000000 in
/-- The table held outright is its sixteen rows held outright. -/
theorem scr_rows (c : Dev nD) (f : Buf (Elt F) ((rM : Memref sig .tc .vmem S16x1024 .f32).view.loc (c : Thread nD τ))) :
    scrPts (F := F) c f = bigSep Finset.univ fun k : Fin 16 => ((rM : Memref sig .tc .vmem S16x1024 .f32).view.loc (c : Thread nD τ) ↦[rowSet c k]{fullShare} f : sProp 𝕄) := by
  unfold scrPts
  have h1 : (rM : Memref sig .tc .vmem S16x1024 .f32).view.set = (Finset.univ : Finset (Fin 16)).biUnion (rowSet c) := by
    rw [biUnion_rowSet]; exact View.set_whole _
  rw [h1]
  exact pointsTo_biUnion Finset.univ (rowSet c) fun k _ k' _ h => rowSet_disjoint c h

/-- A family over the sixteen offsets is its member at 0 and the rest. -/
theorem bigSep_ks (Φ : Fin 16 → sProp 𝕄) : bigSep Finset.univ Φ = iprop(Φ 0 ∗ bigSep ks Φ) := by
  unfold ks; exact bigSep_erase (Finset.mem_univ 0)

/-- Where row `k`'s view sends the index `j` of a row: to `(k, j)`. -/
theorem rowM_emb_0 (k : Fin 16) (j : S1024.Idx) :
    ((((rowM k : Memref sig .tc .vmem S1024 .f32).view.emb j : (rM : Memref sig .tc .vmem S16x1024 .f32).view.ty.Idx) : S16x1024.Idx) 0).val = k.val := by
  simp only [Memref.view_squeeze, Memref.view_slice, Memref.view_whole, View.emb_reshape, View.emb_slice, View.emb_whole,
    Function.Embedding.trans_apply, Equiv.coe_toEmbedding, Function.Embedding.refl_apply]
  rw [Shape.reshapeEquiv_cons_one]
  show k.val + 1 * 0 = k.val
  omega
theorem rowM_emb_1 (k : Fin 16) (j : S1024.Idx) :
    ((((rowM k : Memref sig .tc .vmem S1024 .f32).view.emb j : (rM : Memref sig .tc .vmem S16x1024 .f32).view.ty.Idx) : S16x1024.Idx) 1).val = (j 0).val := by
  simp only [Memref.view_squeeze, Memref.view_slice, Memref.view_whole, View.emb_reshape, View.emb_slice, View.emb_whole,
    Function.Embedding.trans_apply, Equiv.coe_toEmbedding, Function.Embedding.refl_apply]
  rw [Shape.reshapeEquiv_cons_one]
  show 0 + 1 * (j 0).val = (j 0).val
  omega

/-- The table's entry at `(k, j)` in closed form, from the coordinates alone. -/
theorem commAt_of (c : Dev nD) (i : Idx ((rM : Memref sig .tc .vmem S16x1024 .f32).view.loc (c : Thread nD τ))) (k : Fin 16) (j : Fin 1024)
    (h0 : ((i : S16x1024.Idx) 0).val = k.val) (h1 : ((i : S16x1024.Idx) 1).val = j.val) :
    commAt m ρ c i = k0_pay2 (xstg m ρ (bwd c k)) (rowIx j) := by
  unfold commAt
  have e0 : (⟨((i : S16x1024.Idx) 0).val, ((i : S16x1024.Idx) 0).isLt⟩ : Fin 16) = k := Fin.ext h0
  have e1 : (⟨((i : S16x1024.Idx) 1).val, ((i : S16x1024.Idx) 1).isLt⟩ : Fin 1024) = j := Fin.ext h1
  rw [e0, e1]

/-- What a landing of the sender's row 0 leaves in row `k` of the device `k` places on is that device's final row `k`. -/
theorem landing_eq (c : Dev nD) (k : Fin 16) (fd : Buf (Elt F) ((rowM k : Memref sig .tc .vmem S1024 .f32).view.loc ((fwd c k : Dev nD) : Thread nD τ))) :
    ∀ i ∈ rowSet (fwd c k) k,
      (rowM k : Memref sig .tc .vmem S1024 .f32).view.write (Elt F) fd ((rowM 0 : Memref sig .tc .vmem S1024 .f32).view.read (Elt F) (commAt m ρ c)) Finset.univ i
        = commAt m ρ (fwd c k) i := by
  intro i hi
  obtain ⟨j, -, rfl⟩ := Finset.mem_map.mp hi
  rw [View.write_emb_of_mem (Val := Elt F) (v := (rowM k : Memref sig .tc .vmem S1024 .f32).view) fd _ (M := Finset.univ) (Finset.mem_univ j)]
  rw [commAt_of m ρ (fwd c k) _ k ⟨(j 0).val, (j 0).isLt⟩ (rowM_emb_0 k j) (rowM_emb_1 k j), bwd_fwd]
  show commAt m ρ c ((rowM 0 : Memref sig .tc .vmem S1024 .f32).view.emb j) = _
  rw [commAt_of m ρ c _ 0 ⟨(j 0).val, (j 0).isLt⟩ (rowM_emb_0 0 j) (rowM_emb_1 0 j), bwd_zero]

end Cert.KernelIdealProof
end
-- ==== Proof.Steps.lean ====
import proofs.«900947_g7700000000000948_dist_mean_ax0_shard0_i_m2048_n1024_v7x_i16_f32_1_alg».proof.Proof.Rows

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)
open Idealize.ShloMosaic.Tactic

variable {F : FTy → Type} [FloatOps F]
variable (m : (ℓ : Loc nD τ sig) → Buf (Elt F) ℓ) (ρ : Dev nD → PrngReg)
local notation "𝕄" => MT nD τ sig Unit (Elt F) ℕ UU ℕ

/-! # One step of each kind, for a symbolic device and a symbolic offset

The body is the same four remote steps fifteen times over: a signal to the barrier cell `k` places back, a copy of
row 0 into row `k` of the device `k` places on, the wait for the landing in the own row `k`, and the wait for copy
`k` to have left. Each is proved once here, over what is still to be done (a set of offsets). -/

variable (K : Dev nD × CI → ℕ)

theorem inv_at (ck : Dev nD × CI) : records m ρ K ⊢ cellInv ER (sched m ρ) (K ck) (kcell ck) := by
  unfold records
  iintro ⟨HI, -⟩
  iapply (show (bigSep Finset.univ fun ck : Dev nD × CI => (cellInv ER (sched m ρ) (K ck) (kcell ck) : sProp 𝕄)) ⊢ cellInv ER (sched m ρ) (K ck) (kcell ck)
    from bigSep_elim (Finset.mem_univ ck))
  iexact HI
theorem reached_at (ck : Dev nD × CI) : records m ρ K ⊢ (reached ER (kcell ck) 0 : sProp 𝕄) := by
  unfold records
  iintro ⟨-, HR⟩
  iapply (show (bigSep Finset.univ fun ck : Dev nD × CI => (reached ER (kcell ck) 0 : sProp 𝕄)) ⊢ reached ER (kcell ck) 0
    from bigSep_elim (Finset.mem_univ ck))
  iexact HR

/-! ## Levels -/

theorem Ocpy_pos {c : Dev nD} {S : Finset (Fin 16)} {g : GSem nD τ sig} {u : Unit} (h : 0 < Ocpy c S g u) :
    ∃ k ∈ S, g = recvCell (fwd c k) k := by
  unfold Ocpy at h
  rw [Finset.sum_apply, Finsupp.finset_sum_apply] at h
  obtain ⟨k, hk, hpos⟩ := Finset.exists_ne_zero_of_sum_ne_zero (Nat.pos_iff_ne_zero.mp h)
  rw [tallyAt_apply] at hpos
  by_cases hg : g = recvCell (fwd c k) k ∧ u = ()
  · exact ⟨k, hk, hg.1⟩
  · rw [if_neg hg] at hpos; exact absurd rfl hpos

/-- At its barrier wait a device owes only landings on receive cells, which sit above every barrier cell. -/
theorem mayWait_bar (c : Dev nD) :
    (levAts L lv : sProp 𝕄) ⊢ MayWait (c : Thread nD τ) (.reg barS) () (Ocpy c ks) :=
  MayOwe.of_cut (L := L) (lev := lv) 1 (fun p hp => by rw [Finset.mem_singleton.mp hp, L_tc]; exact Finset.mem_singleton_self _)
    (fun g u hg => by obtain ⟨k, -, rfl⟩ := Ocpy_pos hg; rw [L_tc]; exact Finset.mem_singleton_self _)
    (fun p hp => by rw [Finset.mem_singleton.mp hp]; exact (lv_bar c ()).le)
    (fun g u hg => by obtain ⟨k, -, rfl⟩ := Ocpy_pos hg; rw [lv_recv]; decide)

/-! ## What is still to be done, as one assertion -/

/-- Before the signals to the offsets `S`: what is owed, the tokens of those signals' duties, and the own rows they hand over. -/
def sigSt (c : Dev nD) (S : Finset (Fin 16)) : sProp 𝕄 :=
  iprop((∃ W, owes (c : Thread nD τ) (Ocpy c ks + Osig c S) W)
    ∗ (bigSep S fun k => dutyTok ER (barCell (bwd c k)) 0 k)
    ∗ bigSep S fun k => iprop(∃ f, (rM : Memref sig .tc .vmem S16x1024 .f32).view.loc (c : Thread nD τ) ↦[rowSet c k]{fullShare} f))

/-- Before the copies to the offsets `S`: what is owed, the two tokens and the share of row 0 each copy needs, and what
    the barrier handed over for it (the target's row and that its receive cell stands at round 0). -/
def cpySt (c : Dev nD) (S : Finset (Fin 16)) : sProp 𝕄 :=
  iprop((∃ W, owes (c : Thread nD τ) (Ocpy c S) W)
    ∗ (bigSep S fun k => dutyTok ER (recvCell (fwd c k) k) 0 0)
    ∗ (bigSep S fun k => dutyTok ER (sendCell c k) 0 0)
    ∗ (bigSep S fun k => row0Pts m ρ c (shr k))
    ∗ bigSep S fun k => barPay (F := F) c k)

/-! ## The facts and payloads as the steps read them

Each cell's invariant and mark under the cell's own name, a row held through its own view, and each duty's payload
spelt out as what it hands over. -/

/-- The payload of the duty a device pays on the barrier cell `k` places back, spelt out: its own row `k` and its receive cell's mark. -/
theorem barPay_bwd (c : Dev nD) (k : Fin 16) :
    barPay (F := F) (bwd c k) k = iprop((∃ f, ((rowM k : Memref sig .tc .vmem S1024 .f32).view.loc (c : Thread nD τ) ↦[(rowM k : Memref sig .tc .vmem S1024 .f32).view.set]{fullShare} f)) ∗ reached ER (recvCell c k) 0) := by
  unfold barPay rowPts; rw [fwd_bwd]

theorem inv_bar (c : Dev nD) : records m ρ K ⊢ cellInv ER (sched m ρ) (K (c, none)) (barCell c) := inv_at m ρ K (c, none)
theorem inv_send (c : Dev nD) (k : Fin 16) : records m ρ K ⊢ cellInv ER (sched m ρ) (K (c, some (false, k))) (sendCell c k) := inv_at m ρ K (c, some (false, k))
theorem inv_recv (c : Dev nD) (k : Fin 16) : records m ρ K ⊢ cellInv ER (sched m ρ) (K (c, some (true, k))) (recvCell c k) := inv_at m ρ K (c, some (true, k))
theorem reached_bar (c : Dev nD) : records m ρ K ⊢ (reached ER (barCell c) 0 : sProp 𝕄) := reached_at m ρ K (c, none)
theorem reached_send (c : Dev nD) (k : Fin 16) : records m ρ K ⊢ (reached ER (sendCell c k) 0 : sProp 𝕄) := reached_at m ρ K (c, some (false, k))
theorem reached_recv (c : Dev nD) (k : Fin 16) : records m ρ K ⊢ (reached ER (recvCell c k) 0 : sProp 𝕄) := reached_at m ρ K (c, some (true, k))
/-- A row held through the table's view is the row held through its own. -/
theorem row_restate (c : Dev nD) (k : Fin 16) (q : PosShare TreeShare) (f : Buf (Elt F) ((rM : Memref sig .tc .vmem S16x1024 .f32).view.loc (c : Thread nD τ))) :
    ((rM : Memref sig .tc .vmem S16x1024 .f32).view.loc (c : Thread nD τ) ↦[rowSet c k]{q} f : sProp 𝕄)
      ⊢ ((rowM k : Memref sig .tc .vmem S1024 .f32).view.loc (c : Thread nD τ) ↦[(rowM k : Memref sig .tc .vmem S1024 .f32).view.set]{q} f) := BI.Entails.refl _

theorem recvPay_eq (c : Dev nD) (k : Fin 16) :
    recvPay m ρ c k = ((rowM k : Memref sig .tc .vmem S1024 .f32).view.loc (c : Thread nD τ) ↦[(rowM k : Memref sig .tc .vmem S1024 .f32).view.set]{fullShare} commAt m ρ c : sProp 𝕄) := rfl
theorem sendPay_eq (c : Dev nD) (k : Fin 16) :
    sendPay m ρ c k = ((rowM 0 : Memref sig .tc .vmem S1024 .f32).view.loc (c : Thread nD τ) ↦[(rowM 0 : Memref sig .tc .vmem S1024 .f32).view.set]{shr k} commAt m ρ c : sProp 𝕄) := rfl

attribute [local sl_rounds] duties_bar amount_bar payload_bar expect_bar mem_ks barPay_bwd
  duties_recv duties_send amount_recv amount_send payload_recv payload_send expect_recv expect_send recvPay_eq sendPay_eq

/-! ## The signal -/

theorem wp_sig (c : Dev nD) (S : Finset (Fin 16)) (k : Fin 16) (hk : k ∈ S) (hk0 : k ≠ 0)
    {α : Type} {Q : α → sProp 𝕄} {kont : PUnit → Prog (TpuEff nD τ sig (Elt F) Λ₀ .tc) α} :
    iprop(records m ρ K ∗ sigSt (F := F) c S)
      ⊢ iprop((sigSt (F := F) c (S.erase k) -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal ((bwd c k : Dev nD) : Thread nD τ) barS (1#32).toNat) kont) Q) := by
  unfold sigSt
  iintro ⟨#HR, ⟨%W, HO⟩, Htok, Hrows⟩ Hk
  ihave Ht := (bigSep_pick hk) $$ Htok
  icases Ht with ⟨Ht, Htok⟩
  ihave Hr := (bigSep_pick hk) $$ Hrows
  icases Hr with ⟨⟨%f, Hr⟩, Hrows⟩
  ihave HI := (inv_bar m ρ K (bwd c k)) $$ HR
  icases HI with #HI
  ihave Hr0 := (reached_bar m ρ K (bwd c k)) $$ HR
  icases Hr0 with #Hr0
  ihave HrV := (reached_recv m ρ K c k) $$ HR
  icases HrV with #HrV
  ihave Hr := (row_restate c k fullShare f) $$ Hr
  rw [Osig_erase c hk, ← add_assoc]
  sl_exec
  iapply Hk
  isplitl [HO]; · iexists W; iexact HO
  isplitl [Htok]; · iexact Htok
  iexact Hrows

/-! ## The wait for the others' signals -/

/-- The wait for the fifteen units of the own barrier cell, still owing the fifteen landings: the fifteen payloads come with it. -/
theorem wp_bar (c : Dev nD)
    {α : Type} {Q : α → sProp 𝕄} {kont : PUnit → Prog (TpuEff nD τ sig (Elt F) Λ₀ .tc) α} :
    iprop(records m ρ K ∗ levAts L lv ∗ (∃ W, owes (c : Thread nD τ) (Ocpy c ks) W) ∗ cred (tallyAt (barCell c) () 15) ∗ atPos ER (barCell c) 0 ∅ 0)
      ⊢ iprop((((∃ W, owes (c : Thread nD τ) (Ocpy c ks) W) ∗ atPos ER (barCell c) (0 + 1) ∅ 0 ∗ bigSep ks fun d => barPay (F := F) c d)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semWait barS (15#32).toNat) kont) Q) := by
  iintro ⟨#HR, #Hlev, ⟨%W, HO⟩, Hc, Hat⟩ Hk
  ihave HI := (inv_bar m ρ K c) $$ HR
  icases HI with #HI
  have hmw := mayWait_bar (F := F) c
  sl_exec
  iapply Hk
  isplitl [HO]; · iexists _; iexact HO
  isplitl [Hat]; · iexact Hat
  iexact Hat_pay1

/-! ## The copy -/

theorem wp_cpy (c : Dev nD) (S : Finset (Fin 16)) (k : Fin 16) (hk : k ∈ S) (hk0 : k ≠ 0)
    {hsc : (rowM k : Memref sig (Dev.tc (fwd c k) : Thread nD τ).2.kind .vmem S1024 .f32).view.ref.isScScratch = false}
    {hsrc : (rowM 0 : Memref sig .tc .vmem S1024 .f32).view.WordExact} {hdst : (rowM k : Memref sig .tc .vmem S1024 .f32).view.WordExact}
    {hsem : DmaTarget.Typed .vmem (.dma (recvS k)) (.remote (Dev.tc (fwd c k) : Thread nD τ) (rowM k : Memref sig .tc .vmem S1024 .f32) (.dma (sendS k)) hsc)}
    {α : Type} {Q : α → sProp 𝕄} {kont : PUnit → Prog (TpuEff nD τ sig (Elt F) Λ₀ .tc) α} :
    iprop(records m ρ K ∗ cpySt m ρ c S)
      ⊢ iprop(((cred (tallyAt (sendCell c k) () N) ∗ cpySt m ρ c (S.erase k)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM 0) (.remote (Dev.tc (fwd c k) : Thread nD τ) (rowM k) (.dma (sendS k)) hsc) (.dma (recvS k)) hsrc hdst hsem) kont) Q) := by
  unfold cpySt
  iintro ⟨#HR, ⟨%W, HO⟩, HtV, HtS, Hsh, Hbp⟩ Hk
  ihave H1 := (bigSep_pick hk) $$ HtV
  icases H1 with ⟨HtVk, HtV⟩
  ihave H2 := (bigSep_pick hk) $$ HtS
  icases H2 with ⟨HtSk, HtS⟩
  ihave H3 := (bigSep_pick hk) $$ Hsh
  icases H3 with ⟨Hshk, Hsh⟩
  ihave H4 := (bigSep_pick hk) $$ Hbp
  icases H4 with ⟨Hbpk, Hbp⟩
  unfold barPay
  icases Hbpk with ⟨⟨%fd, Hdst⟩, #HrV⟩
  unfold row0Pts rowPts
  iapply (Rounds.wp_send_pointsTo 𝒱₀ ER (sched m ρ) (c : Thread nD τ) none (κ₁ := K (c, some (false, k))) (κ₂ := K (fwd c k, some (true, k)))
      (src := rowM 0) (dst := rowM k) (q := shr k) (fs := commAt m ρ c) (fd := fd) (c' := (Dev.tc (fwd c k) : Thread nD τ))
      (r₁ := 0) (r₂ := 0) (d₁ := 0) (d₂ := 0)
      (by rw [duties_send m ρ c k hk0]; exact Finset.mem_singleton_self _) (by rw [duties_recv m ρ (fwd c k) k hk0]; exact Finset.mem_singleton_self _)
      () () N rfl (amount_send m ρ c k 0) (amount_recv m ρ (fwd c k) k 0) (Ocpy c (S.erase k)) (Ocpy_erase c hk) (W := W)
      (by rw [payload_send]; exact BI.Entails.refl _)
      (by rw [payload_recv]; unfold recvPay rowPts; rw [pointsTo_congr (landing_eq m ρ c k fd)])) $$ [HO HtVk HtSk Hshk Hdst]
  · isplitr; · iapply (inv_at m ρ K (c, some (false, k))); iexact HR
    isplitr; · iapply (inv_at m ρ K (fwd c k, some (true, k))); iexact HR
    isplitl [Hshk]; · iexact Hshk
    isplitl [Hdst]; · iexact Hdst
    isplitl [HO]; · iexact HO
    isplitl [HtSk]; · iexact HtSk
    isplitr; · iapply (reached_at m ρ K (c, some (false, k))); iexact HR
    isplitl [HtVk]; · iexact HtVk
    iexact HrV
  iintro ⟨Hc, HO⟩
  iapply Hk
  isplitl [Hc]; · iexact Hc
  isplitl [HO]; · iexists W; iexact HO
  isplitl [HtV]; · iexact HtV
  isplitl [HtS]; · iexact HtS
  isplitl [Hsh]; · iexact Hsh
  iexact Hbp

/-! ## The two waits -/

theorem wp_rcv (c : Dev nD) (k : Fin 16) (hk0 : k ≠ 0)
    {hsrc : (rowM 0 : Memref sig .tc .vmem S1024 .f32).view.WordExact} {hdst : (rowM k : Memref sig .tc .vmem S1024 .f32).view.WordExact}
    {α : Type} {Q : α → sProp 𝕄} {kont : PUnit → Prog (TpuEff nD τ sig (Elt F) Λ₀ .tc) α} :
    iprop(records m ρ K ∗ (∃ W, owes (c : Thread nD τ) 0 W) ∗ cred (tallyAt (recvCell c k) () N) ∗ atPos ER (recvCell c k) 0 ∅ 0)
      ⊢ iprop((((∃ W, owes (c : Thread nD τ) 0 W) ∗ atPos ER (recvCell c k) (0 + 1) ∅ 0 ∗ rowPts c k (commAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (rowM 0 : Memref sig .tc .vmem S1024 .f32) (rowM k : Memref sig .tc .vmem S1024 .f32) hsrc hdst) kont) Q) := by
  iintro ⟨#HR, ⟨%W, HO⟩, Hc, Hat⟩ Hk
  ihave HI := (inv_recv m ρ K c k) $$ HR
  icases HI with #HI
  sl_exec
  iapply Hk
  isplitl [HO]; · iexists _; iexact HO
  isplitl [Hat]; · iexact Hat
  unfold rowPts; iexact Hat_pay1

theorem wp_sndw (c : Dev nD) (k : Fin 16) (hk0 : k ≠ 0)
    {hsrc : (rowM k : Memref sig .tc .vmem S1024 .f32).view.WordExact} {hdst : (rowM 0 : Memref sig .tc .vmem S1024 .f32).view.WordExact}
    {α : Type} {Q : α → sProp 𝕄} {kont : PUnit → Prog (TpuEff nD τ sig (Elt F) Λ₀ .tc) α} :
    iprop(records m ρ K ∗ (∃ W, owes (c : Thread nD τ) 0 W) ∗ cred (tallyAt (sendCell c k) () N) ∗ atPos ER (sendCell c k) 0 ∅ 0)
      ⊢ iprop((((∃ W, owes (c : Thread nD τ) 0 W) ∗ atPos ER (sendCell c k) (0 + 1) ∅ 0 ∗ row0Pts m ρ c (shr k))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (rowM k : Memref sig .tc .vmem S1024 .f32) (rowM 0 : Memref sig .tc .vmem S1024 .f32) hsrc hdst) kont) Q) := by
  iintro ⟨#HR, ⟨%W, HO⟩, Hc, Hat⟩ Hk
  ihave HI := (inv_send m ρ K c k) $$ HR
  icases HI with #HI
  sl_exec
  iapply Hk
  isplitl [HO]; · iexists _; iexact HO
  isplitl [Hat]; · iexact Hat
  unfold row0Pts; iexact Hat_pay1

end Cert.KernelIdealProof
end
-- ==== Proof.Steps2.lean ====
import proofs.«900947_g7700000000000948_dist_mean_ax0_shard0_i_m2048_n1024_v7x_i16_f32_1_alg».proof.Proof.Steps

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

variable (K : Dev nD × CI → ℕ)

/-! ## The same steps over a set of offsets still to do and a set done -/

theorem bigSep_insert_intro {I : Type} [DecidableEq I] {s : Finset I} {i : I} (hi : i ∉ s) {Φ : I → sProp 𝕄} :
    iprop(Φ i ∗ bigSep s Φ) ⊢ bigSep (insert i s) Φ := Entails.of_eq (bigSep_insert hi).symm

/-- The used offsets up to `n`, and from `n` on. -/
def upto (n : ℕ) : Finset (Fin 16) := ks.filter fun k => k.val ≤ n
def frm (n : ℕ) : Finset (Fin 16) := ks.filter fun k => n ≤ k.val
theorem upto_zero : upto 0 = ∅ := by decide
theorem upto_all : upto 15 = ks := by decide
theorem frm_one : frm 1 = ks := by decide
theorem frm_end : frm 16 = ∅ := by decide

/-- The copies: `S` still to issue, `D` issued (the credit each returned on its send cell kept). -/
def cpySt2 (c : Dev nD) (S D : Finset (Fin 16)) : sProp 𝕄 :=
  iprop(cpySt m ρ c S ∗ bigSep D fun k => cred (tallyAt (sendCell c k) () N))

theorem wp_cpy2 (c : Dev nD) (S D S' D' : Finset (Fin 16)) (k : Fin 16) (hk : k ∈ S) (hkD : k ∉ D) (hk0 : k ≠ 0) (hS : S.erase k = S') (hD : insert k D = D')
    (n : Dev nD) (hn : n = fwd c k)
    {hsc : (rowM k : Memref sig (Dev.tc n : Thread nD τ).2.kind .vmem S1024 .f32).view.ref.isScScratch = false}
    {hsrc : (rowM 0 : Memref sig .tc .vmem S1024 .f32).view.WordExact} {hdst : (rowM k : Memref sig .tc .vmem S1024 .f32).view.WordExact}
    {hsem : DmaTarget.Typed .vmem (.dma (recvS k)) (.remote (Dev.tc n : Thread nD τ) (rowM k : Memref sig .tc .vmem S1024 .f32) (.dma (sendS k)) hsc)}
    {α : Type} {Q : α → sProp 𝕄} {kont : PUnit → Prog (TpuEff nD τ sig (Elt F) Λ₀ .tc) α} :
    iprop(records m ρ K ∗ cpySt2 m ρ c S D)
      ⊢ iprop((cpySt2 m ρ c S' D' -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM 0) (.remote (Dev.tc n : Thread nD τ) (rowM k) (.dma (sendS k)) hsc) (.dma (recvS k)) hsrc hdst hsem) kont) Q) := by
  subst hS hD hn
  unfold cpySt2
  iintro ⟨#HR, Hst, HD⟩ Hk
  iapply (wp_cpy m ρ K c S k hk hk0) $$ [Hst]
  · isplitr; · iexact HR
    iexact Hst
  iintro ⟨Hc, Hst⟩
  iapply Hk
  isplitl [Hst]; · iexact Hst
  iapply (bigSep_insert_intro hkD)
  isplitl [Hc]; · iexact Hc
  iexact HD

/-- The receive waits: `S` still to wait for, `D` landed (the row at its final contents, the cell one round on). -/
def rcvSt (c : Dev nD) (S D : Finset (Fin 16)) : sProp 𝕄 :=
  iprop((∃ W, owes (c : Thread nD τ) 0 W)
    ∗ (bigSep S fun k => iprop(cred (tallyAt (recvCell c k) () N) ∗ atPos ER (recvCell c k) 0 ∅ 0))
    ∗ bigSep D fun k => iprop(atPos ER (recvCell c k) (0 + 1) ∅ 0 ∗ rowPts c k (commAt m ρ c)))

theorem wp_rcv2 (c : Dev nD) (S D S' D' : Finset (Fin 16)) (k : Fin 16) (hk : k ∈ S) (hkD : k ∉ D) (hk0 : k ≠ 0) (hS : S.erase k = S') (hD : insert k D = D')
    {hsrc : (rowM 0 : Memref sig .tc .vmem S1024 .f32).view.WordExact} {hdst : (rowM k : Memref sig .tc .vmem S1024 .f32).view.WordExact}
    {α : Type} {Q : α → sProp 𝕄} {kont : PUnit → Prog (TpuEff nD τ sig (Elt F) Λ₀ .tc) α} :
    iprop(records m ρ K ∗ rcvSt m ρ c S D)
      ⊢ iprop((rcvSt m ρ c S' D' -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (rowM 0 : Memref sig .tc .vmem S1024 .f32) (rowM k : Memref sig .tc .vmem S1024 .f32) hsrc hdst) kont) Q) := by
  subst hS hD
  unfold rcvSt
  iintro ⟨#HR, HO, HS, HD⟩ Hk
  ihave H1 := (bigSep_pick hk) $$ HS
  icases H1 with ⟨⟨Hc, Hat⟩, HS⟩
  iapply (wp_rcv m ρ K c k hk0) $$ [HO Hc Hat]
  · isplitr; · iexact HR
    isplitl [HO]; · iexact HO
    isplitl [Hc]; · iexact Hc
    iexact Hat
  iintro ⟨HO, Hat, Hrow⟩
  iapply Hk
  isplitl [HO]; · iexact HO
  isplitl [HS]; · iexact HS
  iapply (bigSep_insert_intro hkD)
  isplitl [Hat Hrow]
  · isplitl [Hat]; · iexact Hat
    iexact Hrow
  iexact HD

/-- The send waits: `S` still to wait for, `D` left (the share of row 0 back, the cell one round on). -/
def sndSt (c : Dev nD) (S D : Finset (Fin 16)) : sProp 𝕄 :=
  iprop((∃ W, owes (c : Thread nD τ) 0 W)
    ∗ (bigSep S fun k => iprop(cred (tallyAt (sendCell c k) () N) ∗ atPos ER (sendCell c k) 0 ∅ 0))
    ∗ bigSep D fun k => iprop(atPos ER (sendCell c k) (0 + 1) ∅ 0 ∗ row0Pts m ρ c (shr k)))

theorem wp_sndw2 (c : Dev nD) (S D S' D' : Finset (Fin 16)) (k : Fin 16) (hk : k ∈ S) (hkD : k ∉ D) (hk0 : k ≠ 0) (hS : S.erase k = S') (hD : insert k D = D')
    {hsrc : (rowM k : Memref sig .tc .vmem S1024 .f32).view.WordExact} {hdst : (rowM 0 : Memref sig .tc .vmem S1024 .f32).view.WordExact}
    {α : Type} {Q : α → sProp 𝕄} {kont : PUnit → Prog (TpuEff nD τ sig (Elt F) Λ₀ .tc) α} :
    iprop(records m ρ K ∗ sndSt m ρ c S D)
      ⊢ iprop((sndSt m ρ c S' D' -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (rowM k : Memref sig .tc .vmem S1024 .f32) (rowM 0 : Memref sig .tc .vmem S1024 .f32) hsrc hdst) kont) Q) := by
  subst hS hD
  unfold sndSt
  iintro ⟨#HR, HO, HS, HD⟩ Hk
  ihave H1 := (bigSep_pick hk) $$ HS
  icases H1 with ⟨⟨Hc, Hat⟩, HS⟩
  iapply (wp_sndw m ρ K c k hk0) $$ [HO Hc Hat]
  · isplitr; · iexact HR
    isplitl [HO]; · iexact HO
    isplitl [Hc]; · iexact Hc
    iexact Hat
  iintro ⟨HO, Hat, Hrow⟩
  iapply Hk
  isplitl [HO]; · iexact HO
  isplitl [HS]; · iexact HS
  iapply (bigSep_insert_intro hkD)
  isplitl [Hat Hrow]
  · isplitl [Hat]; · iexact Hat
    iexact Hrow
  iexact HD

/-- The signal, between two named sets of offsets. -/
theorem wp_sig2 (c : Dev nD) (S S' : Finset (Fin 16)) (k : Fin 16) (hk : k ∈ S) (hk0 : k ≠ 0) (hS : S.erase k = S')
    {α : Type} {Q : α → sProp 𝕄} {kont : PUnit → Prog (TpuEff nD τ sig (Elt F) Λ₀ .tc) α} :
    iprop(records m ρ K ∗ sigSt (F := F) c S)
      ⊢ iprop((sigSt (F := F) c S' -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal ((bwd c k : Dev nD) : Thread nD τ) barS (1#32).toNat) kont) Q) := by
  subst hS
  exact wp_sig m ρ K c S k hk hk0

end Cert.KernelIdealProof
end
-- ==== Proof.Devs.lean ====
import proofs.«900947_g7700000000000948_dist_mean_ax0_shard0_i_m2048_n1024_v7x_i16_f32_1_alg».proof.Proof.Proto

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # The kernel's device chains in closed form

Signal `d` (`d = 1 … 15`) names the device `d` places on, which is the device `16 - d` places back; copy `d` names the
device `d` places on. Each is decided over the sixteen devices. -/

theorem dev1_eq (c : Dev nD) : (⟨k0_dev1 c, k0_dev1_lt c⟩ : Dev nD) = bwd c 15 := by revert c; decide +kernel
theorem dev2_eq (c : Dev nD) : (⟨k0_dev2 c, k0_dev2_lt c⟩ : Dev nD) = bwd c 14 := by revert c; decide +kernel
theorem dev3_eq (c : Dev nD) : (⟨k0_dev3 c, k0_dev3_lt c⟩ : Dev nD) = bwd c 13 := by revert c; decide +kernel
theorem dev4_eq (c : Dev nD) : (⟨k0_dev4 c, k0_dev4_lt c⟩ : Dev nD) = bwd c 12 := by revert c; decide +kernel
theorem dev5_eq (c : Dev nD) : (⟨k0_dev5 c, k0_dev5_lt c⟩ : Dev nD) = bwd c 11 := by revert c; decide +kernel
theorem dev6_eq (c : Dev nD) : (⟨k0_dev6 c, k0_dev6_lt c⟩ : Dev nD) = bwd c 10 := by revert c; decide +kernel
theorem dev7_eq (c : Dev nD) : (⟨k0_dev7 c, k0_dev7_lt c⟩ : Dev nD) = bwd c 9 := by revert c; decide +kernel
theorem dev8_eq (c : Dev nD) : (⟨k0_dev8 c, k0_dev8_lt c⟩ : Dev nD) = bwd c 8 := by revert c; decide +kernel
theorem dev9_eq (c : Dev nD) : (⟨k0_dev9 c, k0_dev9_lt c⟩ : Dev nD) = bwd c 7 := by revert c; decide +kernel
theorem dev10_eq (c : Dev nD) : (⟨k0_dev10 c, k0_dev10_lt c⟩ : Dev nD) = bwd c 6 := by revert c; decide +kernel
theorem dev11_eq (c : Dev nD) : (⟨k0_dev11 c, k0_dev11_lt c⟩ : Dev nD) = bwd c 5 := by revert c; decide +kernel
theorem dev12_eq (c : Dev nD) : (⟨k0_dev12 c, k0_dev12_lt c⟩ : Dev nD) = bwd c 4 := by revert c; decide +kernel
theorem dev13_eq (c : Dev nD) : (⟨k0_dev13 c, k0_dev13_lt c⟩ : Dev nD) = bwd c 3 := by revert c; decide +kernel
theorem dev14_eq (c : Dev nD) : (⟨k0_dev14 c, k0_dev14_lt c⟩ : Dev nD) = bwd c 2 := by revert c; decide +kernel
theorem dev15_eq (c : Dev nD) : (⟨k0_dev15 c, k0_dev15_lt c⟩ : Dev nD) = bwd c 1 := by revert c; decide +kernel
theorem dev16_eq (c : Dev nD) : (⟨k0_dev16 c, k0_dev16_lt c⟩ : Dev nD) = fwd c 1 := by revert c; decide +kernel
theorem dev17_eq (c : Dev nD) : (⟨k0_dev17 c, k0_dev17_lt c⟩ : Dev nD) = fwd c 2 := by revert c; decide +kernel
theorem dev18_eq (c : Dev nD) : (⟨k0_dev18 c, k0_dev18_lt c⟩ : Dev nD) = fwd c 3 := by revert c; decide +kernel
theorem dev19_eq (c : Dev nD) : (⟨k0_dev19 c, k0_dev19_lt c⟩ : Dev nD) = fwd c 4 := by revert c; decide +kernel
theorem dev20_eq (c : Dev nD) : (⟨k0_dev20 c, k0_dev20_lt c⟩ : Dev nD) = fwd c 5 := by revert c; decide +kernel
theorem dev21_eq (c : Dev nD) : (⟨k0_dev21 c, k0_dev21_lt c⟩ : Dev nD) = fwd c 6 := by revert c; decide +kernel
theorem dev22_eq (c : Dev nD) : (⟨k0_dev22 c, k0_dev22_lt c⟩ : Dev nD) = fwd c 7 := by revert c; decide +kernel
theorem dev23_eq (c : Dev nD) : (⟨k0_dev23 c, k0_dev23_lt c⟩ : Dev nD) = fwd c 8 := by revert c; decide +kernel
theorem dev24_eq (c : Dev nD) : (⟨k0_dev24 c, k0_dev24_lt c⟩ : Dev nD) = fwd c 9 := by revert c; decide +kernel
theorem dev25_eq (c : Dev nD) : (⟨k0_dev25 c, k0_dev25_lt c⟩ : Dev nD) = fwd c 10 := by revert c; decide +kernel
theorem dev26_eq (c : Dev nD) : (⟨k0_dev26 c, k0_dev26_lt c⟩ : Dev nD) = fwd c 11 := by revert c; decide +kernel
theorem dev27_eq (c : Dev nD) : (⟨k0_dev27 c, k0_dev27_lt c⟩ : Dev nD) = fwd c 12 := by revert c; decide +kernel
theorem dev28_eq (c : Dev nD) : (⟨k0_dev28 c, k0_dev28_lt c⟩ : Dev nD) = fwd c 13 := by revert c; decide +kernel
theorem dev29_eq (c : Dev nD) : (⟨k0_dev29 c, k0_dev29_lt c⟩ : Dev nD) = fwd c 14 := by revert c; decide +kernel
theorem dev30_eq (c : Dev nD) : (⟨k0_dev30 c, k0_dev30_lt c⟩ : Dev nD) = fwd c 15 := by revert c; decide +kernel

end Cert.KernelIdealProof
end
-- ==== Proof.BodyDefs.lean ====
import proofs.«900947_g7700000000000948_dist_mean_ax0_shard0_i_m2048_n1024_v7x_i16_f32_1_alg».proof.Proof.Proto

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # What one device's body starts from and ends with -/

variable (K : Dev nD × CI → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body: the ghost state, the credit of the barrier's fifteen units and of each receive cell's row, the levels, the
    table at any contents; what is owed; the two staging buffers as the pipeline left them. -/
def bodyPre (c : Dev nD) : sProp 𝕄 :=
  iprop((ghost m ρ K c ∗ cred (tallyAt (barCell c) () 15) ∗ (bigSep ks fun k => cred (tallyAt (recvCell c k) () N)) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- After it: the table complete and the own cells closed, nothing owed, the block of `x` as it was, the result staged. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelIdealProof
end
-- ==== Proof.Close.lean ====
import proofs.«900947_g7700000000000948_dist_mean_ax0_shard0_i_m2048_n1024_v7x_i16_f32_1_alg».proof.Proof.Steps

/-! # Closing the thirty-two own cells, and row 0 cut into the shares its fifteen copies read -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable (K : Dev nD × CI → ℕ)

/-! ## A family over a device's thirty-three cells, cell kind by cell kind -/

/-- The barrier cell's member, then the sixteen send cells', then the sixteen receive cells'. -/
theorem bigSep_cells (Φ : CI → sProp 𝕄) :
    bigSep Finset.univ Φ = iprop(Φ none ∗ (bigSep Finset.univ fun k : Fin 16 => Φ (some (false, k))) ∗ bigSep Finset.univ fun k : Fin 16 => Φ (some (true, k))) := by
  have h1 : (Finset.univ : Finset CI) = insert none ((Finset.univ : Finset (Bool × Fin 16)).map Function.Embedding.some) := by
    ext x; cases x <;> simp
  rw [h1, bigSep_insert (by simp), bigSep_map, bigSep_univ_prod]
  rw [show (Finset.univ : Finset Bool) = insert false {true} from by decide, bigSep_insert (by decide), bigSep_singleton]
  rfl

/-! ## Closing the cells -/

/-- A cell of the launch standing, nothing taken or consumed, at a round from which no round has a duty is closed, and its
    counter is zero. -/
theorem close_cell (ck : Dev nD × CI) (R : ℕ) (hR : ∀ r, R ≤ r → (sched (F := F) m ρ).duties (kcell ck) r = ∅) :
    iprop(records m ρ K ∗ atPos ER (kcell ck) R ∅ 0) ⊢ iprop(|={Set.univ}=> semVal (kcell ck) 0) := by
  iintro ⟨#HR, Hat⟩
  iapply (Rounds.cell_close ER (sched m ρ) (Set.mem_univ (K ck)) (fun h => h) (R := R) hR)
  isplitr
  · iapply (inv_at m ρ K ck); iexact HR
  · iexact Hat

/-- The send and receive cells at offset 0 have no duty at all; the others none after round 0. So with the fifteen used
    pairs past their round and the unused pair untouched, all thirty-two close at zero. -/
theorem close_all (c : Dev nD) :
    iprop(records m ρ K ∗ atPos ER (sendCell c 0) 0 ∅ 0 ∗ atPos ER (recvCell c 0) 0 ∅ 0
        ∗ (bigSep ks fun k => atPos ER (sendCell c k) (0 + 1) ∅ 0) ∗ (bigSep ks fun k => atPos ER (recvCell c k) (0 + 1) ∅ 0))
      ⊢ iprop(|={Set.univ}=> ((bigSep Finset.univ fun k : Fin 16 => semVal (sendCell c k) 0)
          ∗ bigSep Finset.univ fun k : Fin 16 => semVal (recvCell c k) 0)) := by
  have hS0 : ∀ r, 0 ≤ r → (sched (F := F) m ρ).duties (kcell (c, some (false, 0))) r = ∅ := fun r _ => by
    rcases Nat.eq_zero_or_pos r with rfl | h
    · exact duties_send0 m ρ c
    · exact duties_later m ρ _ r h
  have hV0 : ∀ r, 0 ≤ r → (sched (F := F) m ρ).duties (kcell (c, some (true, 0))) r = ∅ := fun r _ => by
    rcases Nat.eq_zero_or_pos r with rfl | h
    · exact duties_recv0 m ρ c
    · exact duties_later m ρ _ r h
  iintro ⟨#HR, HS0, HV0, HS, HV⟩
  imod (close_cell m ρ K (c, some (false, 0)) 0 hS0) $$ [HS0] with HzS0
  · isplitr; · iexact HR
    iexact HS0
  imod (close_cell m ρ K (c, some (true, 0)) 0 hV0) $$ [HV0] with HzV0
  · isplitr; · iexact HR
    iexact HV0
  ihave HS' := (bigSep_with_persistent (S := ks) (R := records m ρ K)
      (Φ := fun k => atPos ER (sendCell c k) (0 + 1) ∅ 0) (Ψ := fun k => iprop(|={Set.univ}=> semVal (sendCell c k) 0))
      (fun k _ => close_cell m ρ K (c, some (false, k)) (0 + 1) (duties_later m ρ _))) $$ [HS]
  · isplitr; · iexact HR
    iexact HS
  ihave HV' := (bigSep_with_persistent (S := ks) (R := records m ρ K)
      (Φ := fun k => atPos ER (recvCell c k) (0 + 1) ∅ 0) (Ψ := fun k => iprop(|={Set.univ}=> semVal (recvCell c k) 0))
      (fun k _ => close_cell m ρ K (c, some (true, k)) (0 + 1) (duties_later m ρ _))) $$ [HV]
  · isplitr; · iexact HR
    iexact HV
  imod (bigSep_fupd ks fun k => semVal (sendCell c k) 0) $$ HS' with HzS
  imod (bigSep_fupd ks fun k => semVal (recvCell c k) 0) $$ HV' with HzV
  imodintro
  rw [bigSep_ks (fun k : Fin 16 => semVal (sendCell c k) 0), bigSep_ks (fun k : Fin 16 => semVal (recvCell c k) 0)]
  isplitl [HzS0 HzS]
  · isplitl [HzS0]; · iexact HzS0
    iexact HzS
  · isplitl [HzV0]; · iexact HzV0
    iexact HzV

/-! ## Row 0 by shares -/

/-- Row 0 held outright at its final contents is a remainder and sixteen read shares of it: the one of offset 0, never
    lent, and one for each of the fifteen copies. -/
theorem row0_split (c : Dev nD) :
    ((rM : Memref sig .tc .vmem S16x1024 .f32).view.loc (c : Thread nD τ) ↦[rowSet c 0]{fullShare} commAt m ρ c : sProp 𝕄)
      ⊢ iprop(((rM : Memref sig .tc .vmem S16x1024 .f32).view.loc (c : Thread nD τ) ↦[rowSet c 0]{shareDrop fullShare 16} commAt m ρ c)
          ∗ row0Pts m ρ c (shr 0) ∗ bigSep ks fun k => row0Pts m ρ c (shr k)) := by
  refine (Transfers.pointsTo_toks_split fullShare 16).trans ?_
  rw [bigSep_ks]
  unfold row0Pts
  exact BI.Entails.refl _

/-- And back. -/
theorem row0_join (c : Dev nD) :
    iprop(((rM : Memref sig .tc .vmem S16x1024 .f32).view.loc (c : Thread nD τ) ↦[rowSet c 0]{shareDrop fullShare 16} commAt m ρ c)
          ∗ row0Pts m ρ c (shr 0) ∗ bigSep ks fun k => row0Pts m ρ c (shr k))
      ⊢ ((rM : Memref sig .tc .vmem S16x1024 .f32).view.loc (c : Thread nD τ) ↦[rowSet c 0]{fullShare} commAt m ρ c : sProp 𝕄) := by
  refine BI.Entails.trans ?_ (Transfers.pointsTo_toks_join fullShare 16)
  rw [bigSep_ks]
  unfold row0Pts
  exact BI.Entails.refl _

/-- info: 'Cert.KernelIdealProof.bigSep_cells' depends on axioms: [propext, Classical.choice, Quot.sound] -/
#guard_msgs in
#print axioms bigSep_cells

/-- info: 'Cert.KernelIdealProof.close_all' depends on axioms: [propext, Classical.choice, Quot.sound] -/
#guard_msgs in
#print axioms close_all

/-- info: 'Cert.KernelIdealProof.row0_split' depends on axioms: [propext, Classical.choice, Quot.sound] -/
#guard_msgs in
#print axioms row0_split

/-- info: 'Cert.KernelIdealProof.row0_join' depends on axioms: [propext, Classical.choice, Quot.sound] -/
#guard_msgs in
#print axioms row0_join

end Cert.KernelIdealProof

end
-- ==== Proof.Local.lean ====
import proofs.«900947_g7700000000000948_dist_mean_ax0_shard0_i_m2048_n1024_v7x_i16_f32_1_alg».proof.Proof.Rows
import Idealize.ShloMosaic.Lib.Pipeline.Value

/-! # The body's local memory steps: the column sums stored into row 0, and the final average written out -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The rectangles the body's loads and stores go through: all of `x`, row 0 of the table, all of the table, all of the result. -/
abbrev rx : Rect S2048x1024 := Rect.unit (s := S2048x1024) ![0, 0] S2048x1024.size inb_S2048x1024_S2048x1024_0_0
abbrev rr0 : Rect S16x1024 := Rect.unit (s := S16x1024) ![0, 0] S1x1024.size inb_S16x1024_S1x1024_0_0
abbrev rs : Rect S16x1024 := Rect.unit (s := S16x1024) ![0, 0] S16x1024.size inb_S16x1024_S16x1024_0_0
abbrev ro : Rect S1x1024 := Rect.unit (s := S1x1024) ![0, 0] S1x1024.size inb_S1x1024_S1x1024_0_0

theorem hz : (![0, 0] : Fin 2 → Nat) = fun _ => 0 := funext fun a => by fin_cases a <;> rfl

theorem read_x (f : (cc0_stg0_0 : Ref sig .tc).ty.Contents (Elt F)) :
    (xM : Memref sig .tc .vmem S2048x1024 .f32).view.readAt (Elt F) rx.toLoadRect f = f :=
  Memref.readAt_unit_zero (Elt F) cc0_stg0_0 hz _ f
theorem read_s (f : (cc0_scratch0 : Ref sig .tc).ty.Contents (Elt F)) :
    (rM : Memref sig .tc .vmem S16x1024 .f32).view.readAt (Elt F) rs.toLoadRect f = f :=
  Memref.readAt_unit_zero (Elt F) cc0_scratch0 hz _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz _ f w

/-- Row 0's elements are those the access through `rr0` goes to. -/
theorem set_rr0 (c : Dev nD) : ((rM : Memref sig .tc .vmem S16x1024 .f32).access rr0 : View sig .tc _ _ _).set = rowSet c 0 := by
  rw [rowSet_eq]; exact View.set_slice_whole _ _

/-- The only index of a one-row matrix with second coordinate `j 1` is `j`. -/
theorem rowIx_self (j : S1x1024.Idx) : rowIx ⟨(j 1).val, (j 1).isLt⟩ = j := by
  funext a
  fin_cases a
  · have h : (j 0).val < 1 := (j 0).isLt
    exact Fin.ext (by show 0 = (j 0).val; omega)
  · rfl

/-- What the store of the column sums leaves in row 0 is the table's final row 0. -/
theorem stored_eq (c : Dev nD) (f0 : Buf (Elt F) ((rM : Memref sig .tc .vmem S16x1024 .f32).view.loc (c : Thread nD τ))) :
    ∀ i ∈ rowSet c 0,
      ((rM : Memref sig .tc .vmem S16x1024 .f32).access rr0 : View sig .tc _ _ _).write (Elt F) f0 (k0_pay2 (xstg m ρ c)) Finset.univ i
        = commAt m ρ c i := by
  intro i hi
  rw [← set_rr0 c] at hi
  obtain ⟨j, rfl⟩ := View.exists_emb_of_mem_set _ hi
  rw [View.write_emb_of_mem (Val := Elt F) (v := ((rM : Memref sig .tc .vmem S16x1024 .f32).access rr0 : View sig .tc _ _ _)) f0 _ (M := Finset.univ) (Finset.mem_univ j)]
  have h0 : (((((rM : Memref sig .tc .vmem S16x1024 .f32).access rr0 : View sig .tc _ _ _).emb j : (rM : Memref sig .tc .vmem S16x1024 .f32).view.ty.Idx) : S16x1024.Idx) 0).val = (0 : Fin 16).val := by
    have h : (j 0).val < 1 := (j 0).isLt
    show 0 + 1 * (j 0).val = 0
    omega
  have h1 : (((((rM : Memref sig .tc .vmem S16x1024 .f32).access rr0 : View sig .tc _ _ _).emb j : (rM : Memref sig .tc .vmem S16x1024 .f32).view.ty.Idx) : S16x1024.Idx) 1).val = (j 1).val := by
    show 0 + 1 * (j 1).val = (j 1).val
    omega
  rw [commAt_of m ρ c _ 0 ⟨(j 1).val, (j 1).isLt⟩ h0 h1, bwd_zero, rowIx_self]
  rfl

/-- The first three steps: the device's block of `x` is read, and its column sums are stored into row 0 of the table, of
    which the device holds row 0 alone. -/
theorem wp_row0 (c : Dev nD) (f0 : Buf (Elt F) ((rM : Memref sig .tc .vmem S16x1024 .f32).view.loc (c : Thread nD τ)))
    {hlx : (xM : Memref sig .tc .vmem S2048x1024 .f32).view.LoadsAt rx.toLoadRect}
    {hlr : (rM : Memref sig .tc .vmem S16x1024 .f32).view.LoadsAt rr0.toLoadRect}
    {hx : ((rM : Memref sig .tc .vmem S16x1024 .f32).access rr0).Stores Finset.univ}
    {hm : (Finset.univ : Finset rr0.shape.Idx) = Finset.univ ∨ ∀ a, rr0.stride a = 1}
    {α : Type} {Q : α → sProp 𝕄} {kont : PUnit → Prog (TpuEff nD τ sig (Elt F) Λ₀ .tc) α} :
    iprop((((c : Thread nD τ).loc cc0_stg0_0) ↦{fullShare} xstg m ρ c)
        ∗ ((rM : Memref sig .tc .vmem S16x1024 .f32).view.loc (c : Thread nD τ) ↦[rowSet c 0]{fullShare} f0))
      ⊢ iprop((((((c : Thread nD τ).loc cc0_stg0_0) ↦{fullShare} xstg m ρ c)
              ∗ ((rM : Memref sig .tc .vmem S16x1024 .f32).view.loc (c : Thread nD τ) ↦[rowSet c 0]{fullShare} commAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
            (.op (.load xM rx.toLoadRect hlx) fun x => .op (.load rM rr0.toLoadRect hlr) fun _ =>
              .op (.store rM rr0 (k0_pay2 x) Finset.univ hx hm) kont) Q) := by
  iintro ⟨Hx, Hr⟩ Hk
  iapply (wp_load 𝒱₀ (c : Thread nD τ) none Set.univ (m := xM) (Finset.subset_univ _)) $$ Hx; iintro Hx
  rw [read_x]
  iapply (wp_load_rect 𝒱₀ (c : Thread nD τ) none Set.univ (m := rM) (r := rr0) (S := rowSet c 0) (le_of_eq (set_rr0 c))) $$ Hr; iintro Hr
  iapply (wp_store 𝒱₀ (c : Thread nD τ) none Set.univ (m := rM) (r := rr0) (Mk := Finset.univ) (S := rowSet c 0) (le_of_eq (set_rr0 c))) $$ Hr; iintro Hr
  ihave Hr' := (Entails.of_eq (pointsTo_congr (stored_eq m ρ c f0))) $$ Hr
  iapply Hk
  isplitl [Hx]; · iexact Hx
  iexact Hr'

open Idealize.ShloMosaic.Tactic in
/-- The last three steps: the whole table is read, and its sixteen rows added up and scaled are written over the result
    buffer. -/
theorem wp_final (c : Dev nD) (g1 : Buf (Elt F) ((c : Thread nD τ).loc cc0_stg1_0))
    {hls : (rM : Memref sig .tc .vmem S16x1024 .f32).view.LoadsAt rs.toLoadRect}
    {hlo : (oM : Memref sig .tc .vmem S1x1024 .f32).view.LoadsAt ro.toLoadRect}
    {hx : ((oM : Memref sig .tc .vmem S1x1024 .f32).access ro).Stores Finset.univ}
    {hm : (Finset.univ : Finset ro.shape.Idx) = Finset.univ ∨ ∀ a, ro.stride a = 1}
    {α : Type} {Q : α → sProp 𝕄} {kont : PUnit → Prog (TpuEff nD τ sig (Elt F) Λ₀ .tc) α} :
    iprop(scrPts c (commAt m ρ c) ∗ (((c : Thread nD τ).loc cc0_stg1_0) ↦{fullShare} g1))
      ⊢ iprop(((scrPts c (commAt m ρ c) ∗ (((c : Thread nD τ).loc cc0_stg1_0) ↦{fullShare} outAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
            (.op (.load rM rs.toLoadRect hls) fun x => .op (.load oM ro.toLoadRect hlo) fun _ =>
              .op (.store oM ro (k0_pay1 x) Finset.univ hx hm) kont) Q) := by
  unfold scrPts
  iintro ⟨Hscr, Hout⟩ Hk
  ihave Hout' := (show ((((c : Thread nD τ).loc cc0_stg1_0) ↦{fullShare} g1 : sProp 𝕄))
      ⊢ ((oM : Memref sig .tc .vmem S1x1024 .f32).view.loc (c : Thread nD τ) ↦[(oM : Memref sig .tc .vmem S1x1024 .f32).view.set]{fullShare} g1) from
        Entails.of_eq (by rw [View.set_whole])) $$ Hout
  sl_exec
  have hfin : (oM : Memref sig .tc .vmem S1x1024 .f32).view.writes (Elt F) g1
      [⟨ro, k0_pay1 ((rM : Memref sig .tc .vmem S16x1024 .f32).view.readAt (Elt F) rs.toLoadRect (commAt m ρ c))⟩] = outAt m ρ c := by
    rw [read_s]; exact write_out g1 _
  rw [hfin, View.set_whole]
  iapply Hk
  isplitl [Hscr]; · iexact Hscr
  iexact Hout'

/-- info: 'Cert.KernelIdealProof.wp_row0' depends on axioms: [propext, Classical.choice, Quot.sound] -/
#guard_msgs in #print axioms wp_row0

/-- info: 'Cert.KernelIdealProof.wp_final' depends on axioms: [propext, Classical.choice, Quot.sound] -/
#guard_msgs in #print axioms wp_final

end Cert.KernelIdealProof

end
-- ==== Proof.Wrap.lean ====
import proofs.«900947_g7700000000000948_dist_mean_ax0_shard0_i_m2048_n1024_v7x_i16_f32_1_alg».proof.Proof.BodyDefs

/-! # From a device's body lemma to the launch theorem's body obligation -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The two windows conjoined one by one. -/
theorem bigSep_W (Φ : Fin cfg0.W → sProp 𝕄) : bigSep Finset.univ Φ = iprop(Φ (0 : Fin 2) ∗ Φ (1 : Fin 2)) := bigSep_W0 Φ

/-- The argument's window is fetched at the one grid point. -/
theorem fetch_0 (t : Fin cfg0.N) : (cfg0.win (0 : Fin 2)).fetch t = true := by rw [fin_N t]; rfl

/-- Owning a whole buffer at given contents is the points-to of the buffer at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point, the two windows written out. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- A body lemma stated from `bodyPre` to `bodyPost`, for every choice of the invariants' names, is the library's body
    obligation on device `c`: the names come out of the starting state, and the rest is regrouped. -/
theorem body_obligation_of
    (hsound : ∀ (K : Dev nD × CI → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) cc0_scratch1 cc0_scratch2) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (hsound K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdealProof.body_obligation_of' depends on axioms: [propext, Classical.choice, Quot.sound] -/
#guard_msgs in #print axioms body_obligation_of

end Cert.KernelIdealProof

end
-- ==== Proof.States.lean ====
import proofs.«900947_g7700000000000948_dist_mean_ax0_shard0_i_m2048_n1024_v7x_i16_f32_1_alg».proof.Proof.Steps2

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # Entering and leaving each phase of the body: the assertions over "still to do / done" at their two ends -/

variable (K : Dev nD × CI → ℕ)

theorem sigSt_intro (c : Dev nD) (W : Waits sig Unit) (f0 : Buf (Elt F) ((rM : Memref sig .tc .vmem S16x1024 .f32).view.loc (c : Thread nD τ))) :
    iprop(owes (c : Thread nD τ) (O₀ c) W ∗ (bigSep ks fun k => dutyTok ER (barCell (bwd c k)) 0 k)
        ∗ (bigSep ks fun k => ((rM : Memref sig .tc .vmem S16x1024 .f32).view.loc (c : Thread nD τ) ↦[rowSet c k]{fullShare} f0 : sProp 𝕄)))
      ⊢ sigSt (F := F) c (upto 15) := by
  rw [upto_all]
  unfold sigSt O₀
  iintro ⟨HO, HT, HR⟩
  isplitl [HO]; · iexists W; iexact HO
  isplitl [HT]; · iexact HT
  have hrows : (bigSep ks fun k => ((rM : Memref sig .tc .vmem S16x1024 .f32).view.loc (c : Thread nD τ) ↦[rowSet c k]{fullShare} f0 : sProp 𝕄))
      ⊢ bigSep ks fun k => iprop(∃ f, (rM : Memref sig .tc .vmem S16x1024 .f32).view.loc (c : Thread nD τ) ↦[rowSet c k]{fullShare} f) :=
    bigSep_mono fun k _ =>
      show ((rM : Memref sig .tc .vmem S16x1024 .f32).view.loc (c : Thread nD τ) ↦[rowSet c k]{fullShare} f0 : sProp 𝕄)
        ⊢ iprop(∃ f, (rM : Memref sig .tc .vmem S16x1024 .f32).view.loc (c : Thread nD τ) ↦[rowSet c k]{fullShare} f) from by
          iintro H; iexists f0; iexact H
  iapply hrows
  iexact HR

theorem sigSt_elim (c : Dev nD) : sigSt (F := F) c (upto 0) ⊢ iprop((∃ W, owes (c : Thread nD τ) (Ocpy c ks) W)) := by
  rw [upto_zero]
  unfold sigSt
  rw [Osig_empty, add_zero]
  iintro ⟨HO, -, -⟩
  iexact HO

theorem cpySt2_intro (c : Dev nD) :
    iprop((∃ W, owes (c : Thread nD τ) (Ocpy c ks) W) ∗ (bigSep ks fun k => dutyTok ER (recvCell (fwd c k) k) 0 0)
        ∗ (bigSep ks fun k => dutyTok ER (sendCell c k) 0 0) ∗ (bigSep ks fun k => row0Pts m ρ c (shr k)) ∗ bigSep ks fun k => barPay (F := F) c k)
      ⊢ cpySt2 m ρ c (frm 1) (upto 0) := by
  rw [frm_one, upto_zero]
  unfold cpySt2 cpySt
  rw [bigSep_empty]
  iintro ⟨HO, H1, H2, H3, H4⟩
  isplitl
  · isplitl [HO]; · iexact HO
    isplitl [H1]; · iexact H1
    isplitl [H2]; · iexact H2
    isplitl [H3]; · iexact H3
    iexact H4
  · iempintro

theorem cpySt2_elim (c : Dev nD) :
    cpySt2 m ρ c (frm 16) (upto 15) ⊢ iprop((∃ W, owes (c : Thread nD τ) 0 W) ∗ bigSep ks fun k => cred (tallyAt (sendCell c k) () N)) := by
  rw [frm_end, upto_all]
  unfold cpySt2 cpySt
  rw [Ocpy_empty]
  iintro ⟨⟨HO, -, -, -, -⟩, HD⟩
  isplitl [HO]; · iexact HO
  iexact HD

/-- Row 0 and the fifteen landed rows, all at their final contents, are the table at its final contents. -/
theorem rows_join (c : Dev nD) :
    iprop(((rM : Memref sig .tc .vmem S16x1024 .f32).view.loc (c : Thread nD τ) ↦[rowSet c 0]{fullShare} commAt m ρ c) ∗ bigSep ks fun k => rowPts c k (commAt m ρ c))
      ⊢ scrPts c (commAt m ρ c) := by
  rw [scr_rows, bigSep_ks]
  exact Entails.refl _

end Cert.KernelIdealProof
end
-- ==== Proof.States2.lean ====
import proofs.«900947_g7700000000000948_dist_mean_ax0_shard0_i_m2048_n1024_v7x_i16_f32_1_alg».proof.Proof.Steps2

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # Entering and leaving the two waiting phases of the body -/

variable (K : Dev nD × CI → ℕ)

theorem rcvSt_intro (c : Dev nD) :
    iprop((∃ W, owes (c : Thread nD τ) 0 W) ∗ (bigSep ks fun k => cred (tallyAt (recvCell c k) () N)) ∗ (bigSep ks fun k => atPos ER (recvCell c k) 0 ∅ 0))
      ⊢ rcvSt m ρ c (frm 1) (upto 0) := by
  rw [frm_one, upto_zero]
  unfold rcvSt
  rw [bigSep_empty, bigSep_sep']
  iintro ⟨HO, HC, HA⟩
  isplitl [HO]; · iexact HO
  isplitl [HC HA]
  · isplitl [HC]; · iexact HC
    iexact HA
  · iempintro

theorem rcvSt_elim (c : Dev nD) :
    rcvSt m ρ c (frm 16) (upto 15)
      ⊢ iprop((∃ W, owes (c : Thread nD τ) 0 W) ∗ (bigSep ks fun k => atPos ER (recvCell c k) (0 + 1) ∅ 0) ∗ bigSep ks fun k => rowPts c k (commAt m ρ c)) := by
  rw [frm_end, upto_all]
  unfold rcvSt
  rw [bigSep_empty, bigSep_sep']
  iintro ⟨HO, -, HA, HR⟩
  isplitl [HO]; · iexact HO
  isplitl [HA]; · iexact HA
  iexact HR

theorem sndSt_intro (c : Dev nD) :
    iprop((∃ W, owes (c : Thread nD τ) 0 W) ∗ (bigSep ks fun k => cred (tallyAt (sendCell c k) () N)) ∗ (bigSep ks fun k => atPos ER (sendCell c k) 0 ∅ 0))
      ⊢ sndSt m ρ c (frm 1) (upto 0) := by
  rw [frm_one, upto_zero]
  unfold sndSt
  rw [bigSep_empty, bigSep_sep']
  iintro ⟨HO, HC, HA⟩
  isplitl [HO]; · iexact HO
  isplitl [HC HA]
  · isplitl [HC]; · iexact HC
    iexact HA
  · iempintro

theorem sndSt_elim (c : Dev nD) :
    sndSt m ρ c (frm 16) (upto 15)
      ⊢ iprop((∃ W, owes (c : Thread nD τ) 0 W) ∗ (bigSep ks fun k => atPos ER (sendCell c k) (0 + 1) ∅ 0) ∗ bigSep ks fun k => row0Pts m ρ c (shr k)) := by
  rw [frm_end, upto_all]
  unfold sndSt
  rw [bigSep_empty, bigSep_sep']
  iintro ⟨HO, -, HA, HR⟩
  isplitl [HO]; · iexact HO
  isplitl [HA]; · iexact HA
  iexact HR

/-- info: 'Cert.KernelIdealProof.rcvSt_intro' depends on axioms: [propext, Classical.choice, Quot.sound] -/
#guard_msgs in #print axioms rcvSt_intro

/-- info: 'Cert.KernelIdealProof.rcvSt_elim' depends on axioms: [propext, Classical.choice, Quot.sound] -/
#guard_msgs in #print axioms rcvSt_elim

/-- info: 'Cert.KernelIdealProof.sndSt_intro' depends on axioms: [propext, Classical.choice, Quot.sound] -/
#guard_msgs in #print axioms sndSt_intro

/-- info: 'Cert.KernelIdealProof.sndSt_elim' depends on axioms: [propext, Classical.choice, Quot.sound] -/
#guard_msgs in #print axioms sndSt_elim

end Cert.KernelIdealProof
end
-- ==== Proof.Body.lean ====
import proofs.«900947_g7700000000000948_dist_mean_ax0_shard0_i_m2048_n1024_v7x_i16_f32_1_alg».proof.Proof.Steps2
import proofs.«900947_g7700000000000948_dist_mean_ax0_shard0_i_m2048_n1024_v7x_i16_f32_1_alg».proof.Proof.Devs
import proofs.«900947_g7700000000000948_dist_mean_ax0_shard0_i_m2048_n1024_v7x_i16_f32_1_alg».proof.Proof.BodyDefs
import proofs.«900947_g7700000000000948_dist_mean_ax0_shard0_i_m2048_n1024_v7x_i16_f32_1_alg».proof.Proof.Close
import proofs.«900947_g7700000000000948_dist_mean_ax0_shard0_i_m2048_n1024_v7x_i16_f32_1_alg».proof.Proof.Local
import proofs.«900947_g7700000000000948_dist_mean_ax0_shard0_i_m2048_n1024_v7x_i16_f32_1_alg».proof.Proof.Wrap
import proofs.«900947_g7700000000000948_dist_mean_ax0_shard0_i_m2048_n1024_v7x_i16_f32_1_alg».proof.Proof.States
import proofs.«900947_g7700000000000948_dist_mean_ax0_shard0_i_m2048_n1024_v7x_i16_f32_1_alg».proof.Proof.States2

noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # One device's body

In program order: fifteen signals, each handing one own row to the device that will fill it; the column sums of the
own block stored into row 0; the wait for the fifteen signals of the others, which brings the fifteen target rows;
fifteen copies of row 0, each reading from its own share of it; the fifteen landings, each bringing an own row back
at its final contents; the fifteen departures, each bringing a share of row 0 back; then the table whole again,
the own cells closed, and the average of the sixteen rows written out. -/

variable (K : Dev nD × CI → ℕ)

set_option hygiene false in
/-- Signal `k`: from the offsets up to `k` still to signal, to those up to `k'`. -/
macro "sig_step " k:num k':num : tactic => `(tactic| (
  iapply (wp_sig2 m ρ K c (upto $k) (upto $k') ($k : Fin 16) (by decide) (by decide) (by decide)) $$ [Hst]
  · isplitr
    · iexact HR
    · iexact Hst
  iintro Hst))

set_option hygiene false in
/-- Copy `k`, addressed to the device the chain `hdev` names: the offsets from `k` on still to copy and those up to `k0` done,
    to from `k1` on and up to `k`. -/
macro "cpy_step " k0:num k:num k1:num hdev:ident : tactic => `(tactic| (
  iapply (wp_cpy2 m ρ K c (frm $k) (upto $k0) (frm $k1) (upto $k) ($k : Fin 16) (by decide) (by decide) (by decide) (by decide) (by decide) _ ($hdev c)) $$ [Hst]
  · isplitr
    · iexact HR
    · iexact Hst
  iintro Hst))

set_option hygiene false in
macro "rcv_step " k0:num k:num k1:num : tactic => `(tactic| (
  iapply (wp_rcv2 m ρ K c (frm $k) (upto $k0) (frm $k1) (upto $k) ($k : Fin 16) (by decide) (by decide) (by decide) (by decide) (by decide)) $$ [Hst]
  · isplitr
    · iexact HR
    · iexact Hst
  iintro Hst))

set_option hygiene false in
macro "snd_step " k0:num k:num k1:num : tactic => `(tactic| (
  iapply (wp_sndw2 m ρ K c (frm $k) (upto $k0) (frm $k1) (upto $k) ($k : Fin 16) (by decide) (by decide) (by decide) (by decide) (by decide)) $$ [Hst]
  · isplitr
    · iexact HR
    · iexact Hst
  iintro Hst))

set_option maxHeartbeats 8000000 in
set_option maxRecDepth 8000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold cc0_body
  simp only [k0_part1, k0_part2, k0_part3, k0_part4, k0_part5, k0_part6, k0_part7, k0_part8, k0_part9, k0_part10, k0_part11, k0_part12,
    k0_part13, k0_part14, k0_part15, k0_part16, k0_part17, k0_part18, k0_part19, k0_part20, k0_part21, k0_part22, k0_part23,
    semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c,
    dev12_eq c, dev13_eq c, dev14_eq c, dev15_eq c]
  unfold bodyPre ghost
  iintro ⟨⟨⟨⟨#HR, Hpos, Htoks⟩, HcB, HcV, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the table row by row; the tokens; the positions cell by cell
  ihave Hrows := (Entails.of_eq ((scr_rows c f0).trans (bigSep_ks _))) $$ Hscr
  icases Hrows with ⟨Hrow0, Hrows⟩
  unfold payToks
  icases Htoks with ⟨HtB, HtV, HtS⟩
  unfold poss
  ihave Hp := (Entails.of_eq (bigSep_cells (fun j : CI => (atPos ER (kcell (c, j)) 0 ∅ 0 : sProp 𝕄)))) $$ Hpos
  icases Hp with ⟨HatB, HatS, HatV⟩
  ihave HatS' := (Entails.of_eq (bigSep_ks (fun k : Fin 16 => (atPos ER (kcell (c, some (false, k))) 0 ∅ 0 : sProp 𝕄)))) $$ HatS
  icases HatS' with ⟨HatS0, HatS⟩
  ihave HatV' := (Entails.of_eq (bigSep_ks (fun k : Fin 16 => (atPos ER (kcell (c, some (true, k))) 0 ∅ 0 : sProp 𝕄)))) $$ HatV
  icases HatV' with ⟨HatV0, HatV⟩
  -- the fifteen signals, to the devices 15, 14, …, 1 places back
  ihave Hst := (sigSt_intro c W f0) $$ [HO HtB Hrows]
  · isplitl [HO]; · iexact HO
    isplitl [HtB]; · iexact HtB
    iexact Hrows
  sig_step 15 14
  sig_step 14 13
  sig_step 13 12
  sig_step 12 11
  sig_step 11 10
  sig_step 10 9
  sig_step 9 8
  sig_step 8 7
  sig_step 7 6
  sig_step 6 5
  sig_step 5 4
  sig_step 4 3
  sig_step 3 2
  sig_step 2 1
  sig_step 1 0
  ihave HO := (sigSt_elim c) $$ Hst
  -- the column sums of the own block into row 0
  iapply (wp_row0 m ρ c f0) $$ [Hx Hrow0]
  · isplitl [Hx]; · iexact Hx
    iexact Hrow0
  iintro ⟨Hx, Hrow0⟩
  -- the wait for the fifteen signals of the others: the rows to fill come with it
  iapply (wp_bar m ρ K c) $$ [HO HcB HatB]
  · isplitr; · iexact HR
    isplitr; · iexact Hlev
    isplitl [HO]; · iexact HO
    isplitl [HcB]; · iexact HcB
    iexact HatB
  iintro ⟨HO, HatB, Hbp⟩
  -- row 0 shared out among the fifteen copies
  ihave Hsh := (row0_split m ρ c) $$ Hrow0
  icases Hsh with ⟨Hdrop, Hsh0, Hsh⟩
  ihave Hst := (cpySt2_intro m ρ c) $$ [HO HtV HtS Hsh Hbp]
  · isplitl [HO]; · iexact HO
    isplitl [HtV]; · iexact HtV
    isplitl [HtS]; · iexact HtS
    isplitl [Hsh]; · iexact Hsh
    iexact Hbp
  cpy_step 0 1 2 dev16_eq
  cpy_step 1 2 3 dev17_eq
  cpy_step 2 3 4 dev18_eq
  cpy_step 3 4 5 dev19_eq
  cpy_step 4 5 6 dev20_eq
  cpy_step 5 6 7 dev21_eq
  cpy_step 6 7 8 dev22_eq
  cpy_step 7 8 9 dev23_eq
  cpy_step 8 9 10 dev24_eq
  cpy_step 9 10 11 dev25_eq
  cpy_step 10 11 12 dev26_eq
  cpy_step 11 12 13 dev27_eq
  cpy_step 12 13 14 dev28_eq
  cpy_step 13 14 15 dev29_eq
  cpy_step 14 15 16 dev30_eq
  ihave H := (cpySt2_elim m ρ c) $$ Hst
  icases H with ⟨HO, HcS⟩
  -- the fifteen landings
  ihave Hst := (rcvSt_intro m ρ c) $$ [HO HcV HatV]
  · isplitl [HO]; · iexact HO
    isplitl [HcV]; · iexact HcV
    iexact HatV
  rcv_step 0 1 2
  rcv_step 1 2 3
  rcv_step 2 3 4
  rcv_step 3 4 5
  rcv_step 4 5 6
  rcv_step 5 6 7
  rcv_step 6 7 8
  rcv_step 7 8 9
  rcv_step 8 9 10
  rcv_step 9 10 11
  rcv_step 10 11 12
  rcv_step 11 12 13
  rcv_step 12 13 14
  rcv_step 13 14 15
  rcv_step 14 15 16
  ihave H := (rcvSt_elim m ρ c) $$ Hst
  icases H with ⟨HO, HatV, Hrowsk⟩
  -- the fifteen departures
  ihave Hst := (sndSt_intro m ρ c) $$ [HO HcS HatS]
  · isplitl [HO]; · iexact HO
    isplitl [HcS]; · iexact HcS
    iexact HatS
  snd_step 0 1 2
  snd_step 1 2 3
  snd_step 2 3 4
  snd_step 3 4 5
  snd_step 4 5 6
  snd_step 5 6 7
  snd_step 6 7 8
  snd_step 7 8 9
  snd_step 8 9 10
  snd_step 9 10 11
  snd_step 10 11 12
  snd_step 11 12 13
  snd_step 12 13 14
  snd_step 13 14 15
  snd_step 14 15 16
  ihave H := (sndSt_elim m ρ c) $$ Hst
  icases H with ⟨HO, HatS, Hsh⟩
  -- the table whole again
  ihave Hrow0 := (row0_join m ρ c) $$ [Hdrop Hsh0 Hsh]
  · isplitl [Hdrop]; · iexact Hdrop
    isplitl [Hsh0]; · iexact Hsh0
    iexact Hsh
  ihave Hscr := (rows_join m ρ c) $$ [Hrow0 Hrowsk]
  · isplitl [Hrow0]; · iexact Hrow0
    iexact Hrowsk
  -- the thirty-two own cells close: their counters at zero are the device's again
  imod (close_all m ρ K c) $$ [HatS0 HatV0 HatS HatV] with ⟨HzS, HzV⟩
  · isplitr; · iexact HR
    isplitl [HatS0]; · iexact HatS0
    isplitl [HatV0]; · iexact HatV0
    isplitl [HatS]; · iexact HatS
    iexact HatV
  -- the sixteen rows added up, scaled, and stored
  iapply (wp_final m ρ c g1) $$ [Hscr Hout]
  · isplitl [Hscr]; · iexact Hscr
    iexact Hout
  iintro ⟨Hscr, Hout⟩
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexact Hscr
    isplitl [HzS]; · iexact HzS
    iexact HzV
  isplitl [HO]
  · icases HO with ⟨%Wf, HO⟩
    iexists Wf
    isplitr; · ipureintro; exact fun _ _ => Or.inl trivial
    iexact HO
  isplitl [Hx]
  · iexists _; isplitr; · (ipureintro; rfl)
    iexact Hx
  iexists _; isplitr; · (ipureintro; rfl)
  iexact Hout

/-- The library's body obligation on device `c`. -/
theorem body_obligation (c : Dev nD) : BodyObligation (dats (F := F) m ρ 0 c) (defs₀ (F := F)) 𝒱₀ () Set.univ :=
  body_obligation_of m ρ (fun K c Kt => sound_body m ρ K c Kt) c

/-- info: 'Cert.KernelIdealProof.body_obligation' depends on axioms: [propext, Classical.choice, Quot.sound] -/
#guard_msgs in #print axioms body_obligation

end Cert.KernelIdealProof
end
-- ==== Proof.Launch.lean ====
import proofs.«900947_g7700000000000948_dist_mean_ax0_shard0_i_m2048_n1024_v7x_i16_f32_1_alg».proof.Proof.Proto

/-! # The launch: from every device's body to the run of the whole program -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The kernel's own semaphores, the cells, the tokens -/

/-- The kernel's own thirty-two semaphores: the send cells (`false`) and the receive cells (`true`). -/
abbrev osem : Bool × Fin 16 → SemLoc sig := fun bk => csem (some bk)

theorem slot_csem (j : CI) : slot (csem j) = j := by
  rcases j with _ | ⟨_ | _, k⟩
  · exact slot_bar
  · exact slot_send k
  · exact slot_recv k

theorem csem_injective : Function.Injective csem := Function.LeftInverse.injective slot_csem

theorem ownSemFacts : Pipeline.OwnSemFacts cfg0.spec osem := by
  refine ⟨?_, fun a b h => Option.some.inj (csem_injective h), ?_⟩
  · rintro ⟨_ | _, k⟩ <;> revert k <;> decide
  · rintro ⟨_ | _, k⟩ w s <;> revert k w s <;> decide

theorem share_eq (c : Dev nD) (w : Fin cfg0.W) : (dats m ρ 0 c).share w = fullShare := by unfold Dat.share; split <;> rfl

theorem kcell_injective : Function.Injective (kcell : Dev nD × CI → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

/-- Every device's thirty-three cells. -/
def allCells : Finset (GSem nD τ sig) := Finset.univ.map ⟨kcell, kcell_injective⟩

/-- The names of the duty tokens minted for a device's own cells: a barrier duty per offset, one duty per send and per
    receive cell. -/
abbrev TI : Type := Fin 16 ⊕ (Bool × Fin 16)
abbrev tokOf (x : Dev nD × TI) : GSem nD τ sig × ℕ × Fin 16 := match x.2 with
  | .inl k => (kcell (x.1, none), 0, k)
  | .inr bk => (kcell (x.1, some bk), 0, 0)

theorem tokOf_injective : Function.Injective (tokOf : Dev nD × TI → GSem nD τ sig × ℕ × Fin 16) := by
  rintro ⟨c, j⟩ ⟨c', j'⟩ h
  have hc : c = c' := by
    rcases j with k | bk <;> rcases j' with k' | bk' <;> exact congrArg (fun x : GSem nD τ sig × ℕ × Fin 16 => x.1.1.1) h
  subst hc
  rcases j with k | bk <;> rcases j' with k' | bk'
  · have hk : k = k' := congrArg (fun x : GSem nD τ sig × ℕ × Fin 16 => x.2.2) h
    rw [hk]
  · have hb : csem none = csem (some bk') := congrArg (fun x : GSem nD τ sig × ℕ × Fin 16 => x.1.2) h
    exact absurd (csem_injective hb) (fun h' => by cases h')
  · have hb : csem (some bk) = csem none := congrArg (fun x : GSem nD τ sig × ℕ × Fin 16 => x.1.2) h
    exact absurd (csem_injective hb) (fun h' => by cases h')
  · have hb : csem (some bk) = csem (some bk') := congrArg (fun x : GSem nD τ sig × ℕ × Fin 16 => x.1.2) h
    rw [Option.some.inj (csem_injective hb)]

def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 16 => dutyTok ER (barCell c) 0 k)
    ∗ bigSep Finset.univ fun bk : Bool × Fin 16 => dutyTok ER (kcell (c, some bk)) 0 0)

/-- What the launch element deals device `c`: the round state of each of its cells, its positions and reached-marks,
    the tokens of its cells' duties. -/
def G (c : Dev nD) : sProp 𝕄 :=
  iprop((bigSep Finset.univ fun j : CI => roundState ER (sched m ρ) (kcell (c, j)) 0)
    ∗ (bigSep Finset.univ fun j : CI => iprop(atPos ER (kcell (c, j)) 0 ∅ 0 ∗ reached ER (kcell (c, j)) 0)) ∗ toks c)

/-- What the global step makes of it. -/
def G' (c : Dev nD) : sProp 𝕄 := iprop(∃ K, ghost m ρ K c)

theorem bigSep_CI (Φ : CI → sProp 𝕄) :
    bigSep Finset.univ Φ = iprop(Φ none ∗ bigSep Finset.univ fun bk : Bool × Fin 16 => Φ (some bk)) := by
  rw [bigSep_univ_at Φ none,
    show ((Finset.univ : Finset CI).erase none) = Finset.univ.map Function.Embedding.some from by
      ext x; cases x <;> simp,
    bigSep_map]
  rfl

theorem bigSep_bool (Φ : Bool → sProp 𝕄) : bigSep Finset.univ Φ = iprop(Φ false ∗ Φ true) :=
  bigSep_univ_eq_bigSepL [false, true] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : CI => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants allocated -/

theorem ownSems0_eq (c : Dev nD) : (Pipeline.ownSems0 (Ix := Unit) (Name := ℕ) (U := UU) (Lvl := ℕ) (Val := Elt F) (τ := τ) osem c : sProp 𝕄)
    = bigSep Finset.univ fun bk : Bool × Fin 16 => semVal (kcell (c, some bk)) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CI => semVal (kcell (c, j)) 0 : sProp 𝕄) := by
  rw [ownSems0_eq, unscopedSems0_eq, bigSep_CI]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : CI => iprop(∃ κ : ℕ, cellInv ER (sched m ρ) κ (kcell (c, j))))
          ∗ (bigSep Finset.univ fun j : CI => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CI => semVal (kcell (c, j)) 0) ∗ bigSep Finset.univ fun j : CI => roundState ER (sched m ρ) (kcell (c, j)) 0)
      ⊢ (|={Set.univ}=> bigSep Finset.univ fun j : CI => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay with them -/

/-- What stays with device `c` besides the records: its positions, and the tokens of the duties it pays. -/
def linear (c : Dev nD) : sProp 𝕄 := iprop(poss c ∗ payToks c)

theorem ghost_intro (K : Dev nD × CI → ℕ) (c : Dev nD) : iprop(records m ρ K ∗ linear c) ⊢ G' m ρ c := by
  unfold linear G' ghost
  iintro ⟨HR, HP, HT⟩
  iexists K
  isplitl [HR]; · iexact HR
  isplitl [HP]; · iexact HP
  iexact HT

/-- A family of assertions indexed by (device, offset), every offset's row moved along a bijection of the devices and the
    unused offset 0 dropped. -/
theorem deal (Ψ : Dev nD → Fin 16 → sProp 𝕄) (f finv : Fin 16 → Dev nD → Dev nD)
    (h1 : ∀ k c, finv k (f k c) = c) (h2 : ∀ k c, f k (finv k c) = c) :
    (bigSep Finset.univ fun c : Dev nD => bigSep Finset.univ fun k : Fin 16 => Ψ c k)
      ⊢ bigSep Finset.univ fun c : Dev nD => bigSep ks fun k : Fin 16 => Ψ (f k c) k := by
  rw [bigSep_univ_comm]
  refine (Entails.of_eq (bigSep_congr (s := Finset.univ) fun (k : Fin 16) _ =>
    bigSep_univ_equiv (⟨f k, finv k, h1 k, h2 k⟩ : Dev nD ≃ Dev nD) (fun c => Ψ c k))).trans ?_
  show (bigSep Finset.univ fun k : Fin 16 => bigSep Finset.univ fun a : Dev nD => Ψ (f k a) k) ⊢ _
  rw [← bigSep_univ_comm (fun (c : Dev nD) (k : Fin 16) => Ψ (f k c) k)]
  exact bigSep_mono fun c _ => bigSep_subset (Finset.subset_univ ks)

theorem toks_eq (c : Dev nD) : (toks c : sProp 𝕄) = iprop((bigSep Finset.univ fun k : Fin 16 => dutyTok ER (barCell c) 0 k)
    ∗ (bigSep Finset.univ fun k : Fin 16 => dutyTok ER (sendCell c k) 0 0) ∗ bigSep Finset.univ fun k : Fin 16 => dutyTok ER (recvCell c k) 0 0) := by
  unfold toks; rw [bigSep_univ_prod, bigSep_bool]

/-- The tokens dealt around: duty `k` of a barrier cell goes to the device `k` places on (which pays it), the duty of
    receive cell `k` to the device `k` places back (whose copy pays it), a send cell's duty stays. -/
theorem toks_around : (bigSep Finset.univ fun c : Dev nD => (toks c : sProp 𝕄)) ⊢ bigSep Finset.univ fun c : Dev nD => payToks c := by
  unfold payToks
  rw [bigSep_congr (s := Finset.univ) (fun (c : Dev nD) _ => toks_eq (F := F) c), bigSep_sep', bigSep_sep', bigSep_sep', bigSep_sep']
  iintro ⟨H1, H2, H3⟩
  isplitl [H1]
  · iapply (deal (fun c k => (dutyTok ER (barCell c) 0 k : sProp 𝕄)) (fun k c => bwd c k) (fun k c => fwd c k) (fun k c => fwd_bwd c k) (fun k c => bwd_fwd c k))
    iexact H1
  isplitl [H3]
  · iapply (deal (fun c k => (dutyTok ER (recvCell c k) 0 0 : sProp 𝕄)) (fun k c => fwd c k) (fun k c => bwd c k) (fun k c => bwd_fwd c k) (fun k c => fwd_bwd c k))
    iexact H3
  iapply (deal (fun c k => (dutyTok ER (sendCell c k) 0 0 : sProp 𝕄)) (fun _ c => c) (fun _ c => c) (fun _ _ => rfl) (fun _ _ => rfl))
  iexact H2

theorem regroup :
    (bigSep Finset.univ fun c : Dev nD => iprop((bigSep Finset.univ fun j : CI => iprop(∃ κ : ℕ, cellInv ER (sched m ρ) κ (kcell (c, j))))
          ∗ (bigSep Finset.univ fun j : CI => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun j : CI => (atPos ER (kcell (c, j)) 0 ∅ 0 : sProp 𝕄)) (fun j => reached ER (kcell (c, j)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => (poss c : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem nsmul_tallyAt (g : GSem nD τ sig) (n a : ℕ) : n • (tallyAt g () a : CellTallies nD τ sig Unit) = tallyAt g () (n * a) := by
  induction n with
  | zero => rw [zero_nsmul, Nat.zero_mul, tallyAt_zero]
  | succ n ih => rw [succ_nsmul, ih, tallyAt_add, Nat.succ_mul]

theorem card_ks : ks.card = 15 := by decide

/-- Fifteen unit credits on one cell are one credit of fifteen. -/
theorem cred_bar15 (c : Dev nD) :
    (bigSep ks fun _ : Fin 16 => (cred (tallyAt (barCell c) () 1) : sProp 𝕄)) ⊢ cred (tallyAt (barCell c) () 15) := by
  rw [← Pipeline.cred_finsetSum, Finset.sum_const, card_ks, nsmul_tallyAt]

/-- Each device's barrier cell is owed a unit by the fifteen others, and its receive cell `k` a row by the device `k` places
    back: the credit the launch deals it. -/
theorem creds (c : Dev nD) :
    (Pipeline.launchCred O₀ c : sProp 𝕄) ⊢ iprop(cred (tallyAt (barCell c) () 15) ∗ bigSep ks fun k => cred (tallyAt (recvCell c k) () N)) := by
  rw [show (O₀ : Dev nD → CellTallies nD τ sig Unit)
      = fun d => (∑ k ∈ ks, (fun (k : Fin 16) (d : Dev nD) => tallyAt (recvCell (fwd d k) k) () N) k d)
        + ∑ k ∈ ks, (fun (k : Fin 16) (d : Dev nD) => tallyAt (barCell (bwd d k)) () 1) k d from rfl,
    Pipeline.launchCred_add, Pipeline.launchCred_sum, Pipeline.launchCred_sum]
  have hB : (bigSep ks fun k : Fin 16 => (Pipeline.launchCred (fun d : Dev nD => tallyAt (barCell (bwd d k)) () 1) c : sProp 𝕄))
      ⊢ cred (tallyAt (barCell c) () 15) :=
    (bigSep_mono fun (k : Fin 16) _ => Pipeline.launchCred_tallyAt (.reg barS) (fun d => bwd d k) (fun d => fwd d k)
      (fun c => bwd_fwd c k) (fun d => fwd_bwd d k) () 1 c).trans (cred_bar15 c)
  have hR : (bigSep ks fun k : Fin 16 => (Pipeline.launchCred (fun d : Dev nD => tallyAt (recvCell (fwd d k) k) () N) c : sProp 𝕄))
      ⊢ bigSep ks fun k : Fin 16 => cred (tallyAt (recvCell c k) () N) :=
    bigSep_mono fun (k : Fin 16) _ => Pipeline.launchCred_tallyAt (.dma (recvS k)) (fun d => fwd d k) (fun d => bwd d k)
      (fun c => fwd_bwd c k) (fun d => bwd_fwd d k) () N c
  iintro ⟨HR, HB⟩
  isplitl [HB]
  · iapply hB; iexact HB
  · iapply hR; iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem scrPts_eq (c : Dev nD) (f : Buf (Elt F) ((c : Thread nD τ).loc cc0_scratch0)) :
    scrPts c f = (((c : Thread nD τ).loc cc0_scratch0) ↦{fullShare} f : sProp 𝕄) := by unfold scrPts; rw [View.set_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq, bigSep_univ_prod, bigSep_bool]
  unfold Φ₁
  iintro ⟨Hr, HzS, HzV⟩
  isplitr; · iempintro
  isplitl [HzS HzV]
  · isplitl [HzS] <;> iassumption
  iexists (commAt m ρ c); rw [← scrPts_eq]; iexact Hr

/-! ## The waits on the staging cells -/

/-- What a device owes at launch is owed to a receive cell or to a barrier cell. -/
theorem O₀_pos {c : Dev nD} {g : GSem nD τ sig} {u : Unit} (h : 0 < O₀ c g u) :
    (∃ k : Fin 16, g = recvCell (fwd c k) k) ∨ ∃ k : Fin 16, g = barCell (bwd c k) := by
  unfold O₀ Ocpy Osig at h
  rcases Pipeline.add_pos_cases h with h | h
  · obtain ⟨k, -, hk⟩ := Pipeline.sum_pos_exists h
    rw [tallyAt_apply] at hk
    by_cases hg : g = recvCell (fwd c k) k ∧ u = ()
    · exact Or.inl ⟨k, hg.1⟩
    · rw [if_neg hg] at hk; exact absurd hk (Nat.lt_irrefl 0)
  · obtain ⟨k, -, hk⟩ := Pipeline.sum_pos_exists h
    rw [tallyAt_apply] at hk
    by_cases hg : g = barCell (bwd c k) ∧ u = ()
    · exact Or.inr ⟨k, hg.1⟩
    · rw [if_neg hg] at hk; exact absurd hk (Nat.lt_irrefl 0)

/-- A staging cell sits at level 0, below every cell a device owes to: it may be waited on whatever the device still owes. -/
theorem mayWait_stage (c : Dev nD) (q : DmaSem sig) (hq : (slot (.dma q)).map Prod.fst ≠ some true) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [show lv ((c : Thread nD τ), .dma q) () = 0 from by dsimp only [lv]; rw [if_neg (fun h => by cases h), if_neg hq]]
    rcases O₀_pos hg with ⟨k, rfl⟩ | ⟨k, rfl⟩
    · rw [L_tc, lv_recv]; exact ⟨Finset.mem_singleton_self _, by decide⟩
    · rw [L_tc, lv_bar]; exact ⟨Finset.mem_singleton_self _, by decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array after the run, as the pipeline's proof data compute it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of sixteen devices, for any float values, from any memory with zero counters: if every device's
    body meets its obligation, every weakly fair execution of @main terminates, and every final state has each
    device's two windowed arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.Final.lean ====
import proofs.«900947_g7700000000000948_dist_mean_ax0_shard0_i_m2048_n1024_v7x_i16_f32_1_alg».proof.Proof.Launch
import proofs.«900947_g7700000000000948_dist_mean_ax0_shard0_i_m2048_n1024_v7x_i16_f32_1_alg».proof.Proof.Gen.KernelIdeal.Points
import Idealize.ShloMosaic.Lib.Pipeline.Value

/-! # The two windowed arrays after the run: the input unchanged, the result the kernel's value -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

/-- The `x` block after the run holds what it held. -/
theorem finalA_x (c : Dev nD) : finalA m ρ c (0 : Fin 2) = m ((c : Thread nD τ).loc main_arg0) :=
  (dats (F := F) m ρ 0 c).arrAt_in (0 : Fin 2) rfl _

/-- The result array after the run holds the kernel's value on that device. -/
theorem finalA_out (c : Dev nD) : finalA m ρ c (1 : Fin 2) = outAt m ρ c := by
  unfold finalA
  -- the grid has one point, and the result window is written back there
  rw [show cfg0.N = (t₀ : Fin cfg0.N).val + 1 from rfl, (dats (F := F) m ρ 0 c).arrAt_succ (1 : Fin 2) t₀, if_pos (flush0_1 t₀)]
  -- its block is the whole array at offset zero, so the write-back replaces the array by the staged contents
  have hz : (fun a => (win0_1.index t₀) a * main_v1.ty.shape.size a) = fun _ => 0 :=
    funext fun a => by fin_cases a <;> decide
  have hw := Memref.write_access_unit_zero_univ (Elt F) main_v1 hz (fun a => by fin_cases a <;> decide)
    ((dats m ρ 0 c).arrAt 1 t₀) ((dats m ρ 0 c).flushed 1 t₀)
  refine hw.trans ?_
  -- and the staged contents after the body are, by the proof data, the kernel's value
  funext j
  show (dats m ρ 0 c).after 1 t₀ _ = _
  dsimp only [dats]

/-- info: 'Cert.KernelIdealProof.finalA_x' depends on axioms: [propext, Classical.choice, Quot.sound] -/
#guard_msgs in
#print axioms finalA_x

/-- info: 'Cert.KernelIdealProof.finalA_out' depends on axioms: [propext, Classical.choice, Quot.sound] -/
#guard_msgs in
#print axioms finalA_out

end Cert.KernelIdealProof

end
-- ==== Proof.Value.lean ====
import proofs.«900947_g7700000000000948_dist_mean_ax0_shard0_i_m2048_n1024_v7x_i16_f32_1_alg».proof.Defs
import proofs.«900947_g7700000000000948_dist_mean_ax0_shard0_i_m2048_n1024_v7x_i16_f32_1_alg».proof.Proof.Proto
import proofs.«900947_g7700000000000948_dist_mean_ax0_shard0_i_m2048_n1024_v7x_i16_f32_1_alg».proof.Proof.Gen.ReferenceIdeal.Read
import Idealize.ShloMosaic.Lib.Layout
import Idealize.ShloMosaic.Lib.ValueIdx
import Idealize.ShloMosaic.Lib.ValueLayout
import Idealize.ShloMosaic.PureOps.Ideal.Laws

/-! # Over the extended reals the kernel's value on every device is the reference's mean -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)
open Idealize.ShloMosaic.ValueIdx

namespace MeanValue

/-! ## The two constants and the scale

The word `0x38000000` is 2⁻¹⁵ = 1 / 32768 and the word `0x47000000` is 32768; dividing an extended real by a nonzero
real is multiplying it by the reciprocal, at the infinities and at the junk value too. -/

theorem ofBits_inv : Ideal.ofBits .f32 0x38000000#32 = (((1 / 32768 : ℝ)) : EReal) := by
  simp [Ideal.ofBits, Ideal.ieee, -EReal.coe_mul]; norm_num

theorem ofBits_n : Ideal.ofBits .f32 0x47000000#32 = ((32768 : ℝ) : EReal) := by
  simp [Ideal.ofBits, Ideal.ieee, -EReal.coe_mul]; norm_num

theorem scale_eq (x : EReal) :
    x * Ideal.ofBits .f32 0x38000000#32 = Ideal.div x (Ideal.ofBits .f32 0x47000000#32) := by
  rw [ofBits_inv, ofBits_n, Ideal.div_coe (by norm_num)]

/-! ## A sum over `a · b` rows is the sum over `a` blocks of the sums over each block's `b` rows -/

theorem sum_fin_mul {M : Type*} [AddCommMonoid M] {a b n : ℕ} (hn : a * b = n) (g : Fin n → M)
    (hlt : ∀ (p : Fin a) (q : Fin b), p.val * b + q.val < n) :
    ∑ R, g R = ∑ p : Fin a, ∑ q : Fin b, g ⟨p.val * b + q.val, hlt p q⟩ := by
  subst hn
  rw [← Equiv.sum_comp finProdFinEquiv g, Fintype.sum_prod_type]
  refine Finset.sum_congr rfl fun p _ => Finset.sum_congr rfl fun q _ => congrArg g (Fin.ext ?_)
  show q.val + b * p.val = p.val * b + q.val
  rw [Nat.mul_comm, Nat.add_comm]

/-- Row `q` of block `p` is a row of the whole array. -/
theorem blk_lt (p : Fin 16) (q : Fin 2048) : p.val * 2048 + q.val < 32768 := by
  have := p.isLt; have := q.isLt; omega

/-- The blocks may be taken in any order: addition in a commutative monoid does not mind. -/
theorem total_sum {M : Type*} [AddCommMonoid M] (σ : Equiv.Perm (Fin 16)) (g : Fin 32768 → M) :
    ∑ k : Fin 16, ∑ r : Fin 2048, g ⟨(σ k).val * 2048 + r.val, blk_lt (σ k) r⟩ = ∑ R, g R := by
  rw [sum_fin_mul (a := 16) (b := 2048) rfl g blk_lt]
  exact Equiv.sum_comp σ fun p => ∑ q : Fin 2048, g ⟨p.val * 2048 + q.val, blk_lt p q⟩

/-- Going back `k` places from `c` is its own inverse as a function of `k`: `c - (c - k) = k` around the ring, -/
theorem bwd_bwd (c : Dev nD) (k : Fin 16) : bwd c (bwd c k) = k := by revert c k; decide

/-- so the sixteen offsets name each of the sixteen devices exactly once. -/
def bwdPerm (c : Dev nD) : Equiv.Perm (Fin 16) := ⟨bwd c, bwd c, bwd_bwd c, bwd_bwd c⟩

/-! ## The kernel's side, an element at a time -/

/-- The window of the argument is the whole block: what the kernel finds staged is the device's buffer. -/
theorem xstg_eq {F : FTy → Type} [FloatOps F] (m : (ℓ : Loc nD τ sig) → Buf (Elt F) ℓ) (ρ : Dev nD → PrngReg) (c : Dev nD) :
    xstg (F := F) m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem rowIx_eq (j : Fin 1024) : rowIx j = ix2 (0 : Fin 1) j := by
  funext a; match a with | ⟨0, _⟩ => rfl | ⟨1, _⟩ => rfl

/-- A block's row of column sums: column `j` holds the sum of the block's column `j`. -/
theorem pay2_apply (v : FVec Ideal S2048x1024 .f32) (j : Fin 1024) :
    k0_pay2 (F := Ideal) v (rowIx j) = ∑ r : Fin 2048, v (ix2 r j) := by
  rw [rowIx_eq]
  unfold k0_pay2
  rw [shapeCast_a_1a_apply, shapeCast_self]
  refine (Ideal.multiReduction_add_single _ _ _ _ _ (ix1 j)).trans ?_
  refine Finset.sum_congr rfl fun r _ => congrArg v ?_
  funext a; match a with | ⟨0, _⟩ => rfl | ⟨1, _⟩ => rfl

/-- The result of a table of sixteen rows: column `j` holds the sum of the table's column `j`, times 2⁻¹⁵. -/
theorem pay1_apply (t : FVec Ideal S16x1024 .f32) (u : Fin 1) (j : Fin 1024) :
    k0_pay1 (F := Ideal) t (ix2 u j) = (∑ k : Fin 16, t (ix2 k j)) * Ideal.ofBits .f32 0x38000000#32 := by
  unfold k0_pay1
  rw [mulf_apply, broadcast_apply, shapeCast_a_1a_apply]
  refine congrArg (· * _) ?_
  refine (Ideal.multiReduction_add_single _ _ _ _ _ (ix1 j)).trans ?_
  refine Finset.sum_congr rfl fun r _ => congrArg t ?_
  funext a; match a with | ⟨0, _⟩ => rfl | ⟨1, _⟩ => rfl

/-- Row `k` of device `c`'s table at column `j`: the sum of column `j` over the rows of the whole array that make up the
    block of the device `k` places back. -/
theorem commAt_apply (m : (ℓ : Loc nD τ sig) → Buf (Elt Ideal) ℓ) (ρ : Dev nD → PrngReg)
    (X : (⟨Cert.ReferenceIdeal.S32768x1024, .f32⟩ : BufTy).Contents (Elt Ideal))
    (hblk : ∀ c : Dev nD, m ((c.tc : Thread nD τ).loc main_arg0) = Layout.block ⟨2, ![2048, 1024]⟩ ⟨2, ![32768, 1024]⟩ 0 16 c X)
    (c : Dev nD) (k : Fin 16) (j : Fin 1024) :
    (commAt (F := Ideal) m ρ c : FVec Ideal S16x1024 .f32) (ix2 k j)
      = ∑ r : Fin 2048, X (ix2 ⟨(bwd c k).val * 2048 + r.val, blk_lt (bwd c k) r⟩ j) := by
  show k0_pay2 (F := Ideal) (xstg m ρ (bwd c k)) (rowIx j) = _
  rw [pay2_apply, xstg_eq, hblk]
  refine Finset.sum_congr rfl fun r _ => ?_
  show X _ = X _
  refine congrArg X ?_
  funext a; match a with | ⟨0, _⟩ => rfl | ⟨1, _⟩ => rfl

/-- A table whose row `k` holds the column sums of the block `k` places back adds up, column by column, to the column sums of
    the whole array. -/
theorem table_sum (X : (⟨Cert.ReferenceIdeal.S32768x1024, .f32⟩ : BufTy).Contents (Elt Ideal)) (c : Dev nD) (j : Fin 1024)
    (T : FVec Ideal S16x1024 .f32)
    (hT : ∀ k : Fin 16, T (ix2 k j) = ∑ r : Fin 2048, X (ix2 ⟨(bwd c k).val * 2048 + r.val, blk_lt (bwd c k) r⟩ j)) :
    ∑ k : Fin 16, T (ix2 k j) = ∑ R : Fin 32768, X (ix2 R j) :=
  (Finset.sum_congr rfl fun k _ => hT k).trans (total_sum (bwdPerm c) fun R => X (ix2 R j))

/-! ## The reference's side, an element at a time -/

theorem ref_idx (u : Fin 1) (j : Fin 1024) (R : Fin 32768) :
    Cert.ReferenceIdeal.Read.idx_main_v0 (Cert.ReferenceIdeal.Read.idx_main_v1 (ix2 u j)) R = ix2 R j := by
  funext a; match a with | ⟨0, _⟩ => rfl | ⟨1, _⟩ => rfl

/-- The mean at column `j`: zero plus the sum of the whole array's column `j`, divided by 32768. -/
theorem ref_apply (X : (⟨Cert.ReferenceIdeal.S32768x1024, .f32⟩ : BufTy).Contents (Elt Ideal)) (u : Fin 1) (j : Fin 1024) :
    Cert.ReferenceIdeal.Read.val_main_v3 (F := Ideal) X (ix2 u j)
      = Ideal.div (∑ R : Fin 32768, X (ix2 R j)) (Ideal.ofBits .f32 0x47000000#32) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  rw [Ideal.hostDivf_def, Ideal.ofBits_def, Ideal.ofBits_def, Ideal.ofBits_zero_f32, zero_add]
  simp only [ref_idx]

end MeanValue

open MeanValue in
/-- With every device's block its part of the whole array `X`, the sixteen rows a device adds up are the column sums of
    the sixteen blocks, so their total is the column sum of `X`; scaling by 2⁻¹⁵ is dividing by 32768. -/
theorem outAt_eq_ref (m : (ℓ : Loc nD τ sig) → Buf (Elt Ideal) ℓ) (ρ : Dev nD → PrngReg)
    (X : Buf (Elt Ideal) (((0 : Dev Cert.ReferenceIdeal.nD).tc : Thread Cert.ReferenceIdeal.nD Cert.ReferenceIdeal.τ).loc Cert.ReferenceIdeal.main_arg0))
    (hblk : ∀ c : Dev nD, m ((c.tc : Thread nD τ).loc main_arg0) = Layout.block ⟨2, ![2048, 1024]⟩ ⟨2, ![32768, 1024]⟩ 0 16 c X)
    (c : Dev nD) :
    outAt (F := Ideal) m ρ c = Cert.ReferenceIdeal.Read.val_main_v3 (F := Ideal) X := by
  funext i
  obtain ⟨u, j, rfl⟩ : ∃ (u : Fin 1) (j : Fin 1024), i = ix2 u j := ⟨i 0, i 1, eq_ix2 i⟩
  rw [ref_apply, ← scale_eq]
  show k0_pay1 (F := Ideal) (commAt m ρ c) (ix2 u j) = _
  rw [pay1_apply]
  refine congrArg (· * _) ?_
  exact table_sum X c j (commAt m ρ c) fun k => commAt_apply m ρ X hblk c k j

/-- info: 'Cert.KernelIdealProof.outAt_eq_ref' depends on axioms: [propext, Classical.choice, Quot.sound] -/
#guard_msgs in #print axioms outAt_eq_ref

end Cert.KernelIdealProof

end
-- ==== Proof.KProto.lean ====
import proofs.«900947_g7700000000000948_dist_mean_ax0_shard0_i_m2048_n1024_v7x_i16_f32_1_alg».proof.Proof.Gen.Kernel
import proofs.«900947_g7700000000000948_dist_mean_ax0_shard0_i_m2048_n1024_v7x_i16_f32_1_alg».proof.Proof.Gen.Kernel.Skeleton
import proofs.«900947_g7700000000000948_dist_mean_ax0_shard0_i_m2048_n1024_v7x_i16_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

/-!
# The all-to-all mean over sixteen devices: the protocol

Every device reduces its own block of `x` to one row of column sums, hands that row to each of the other
fifteen devices, and averages the sixteen rows it then holds. Device `c` keeps its own sums in row 0 of a
sixteen-row table and receives the sums of device `c - k` in row `k`.

The synchronisation, cell by cell, for a device `c` and an offset `k = 1 … 15`:
* the barrier cell of `c` has one round of fifteen unit duties; duty `k` is paid by device `c + k`
  and hands `c` that device's row `k` (the row `c` is about to fill) together with the fact that
  its receive cell `k` stands at round 0;
* receive cell `k` of `c` has one duty, paid by the copy issued on device `c - k`; it hands `c`
  its own row `k` holding the sender's column sums;
* send cell `k` of `c` has one duty, paid by `c`'s own copy `k`; it hands back the share of row 0
  that copy read from.
Send and receive cell 0 are never used and have no duty.
-/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra: the pipeline's own copy and one for this protocol, duties named by an offset -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices at an offset, around the ring of sixteen -/

/-- The device `k` places after `c`. -/
def fwd (c : Dev nD) (k : Fin 16) : Dev nD := ⟨(c.val + k.val) % 16, Nat.mod_lt _ (by decide)⟩
/-- The device `k` places before `c`. -/
def bwd (c : Dev nD) (k : Fin 16) : Dev nD := ⟨(c.val + (16 - k.val)) % 16, Nat.mod_lt _ (by decide)⟩

theorem bwd_fwd (c : Dev nD) (k : Fin 16) : bwd (fwd c k) k = c := by revert c k; decide
theorem fwd_bwd (c : Dev nD) (k : Fin 16) : fwd (bwd c k) k = c := by revert c k; decide
theorem bwd_zero (c : Dev nD) : bwd c 0 = c := by revert c; decide
theorem fwd_zero (c : Dev nD) : fwd c 0 = c := by revert c; decide

/-- The offsets that are used: all but 0. -/
def ks : Finset (Fin 16) := Finset.univ.erase 0
theorem mem_ks {k : Fin 16} : k ∈ ks ↔ k ≠ 0 := by unfold ks; simp

/-! ## The memrefs and cells -/

abbrev xM : Memref sig .tc .vmem S2048x1024 .f32 := Memref.whole cc0_stg0_0
abbrev oM : Memref sig .tc .vmem S1x1024 .f32 := Memref.whole cc0_stg1_0
abbrev rM : Memref sig .tc .vmem S16x1024 .f32 := Memref.whole cc0_scratch0

theorem inbRow (k : Fin 16) : ∀ a, (![k.val, 0] : Fin 2 → Nat) a + S1x1024.size a ≤ S16x1024.size a := by revert k; decide
theorem inbSem (k : Fin 16) : ∀ a, (![k.val] : Fin 1 → Nat) a + S1.size a ≤ S16.size a := by revert k; decide

/-- Row `k` of the table, as the kernel's copies and waits name it. -/
abbrev rowM (k : Fin 16) : Memref sig .tc .vmem S1024 .f32 :=
  ((rM : Memref sig .tc .vmem S16x1024 .f32).slice (Rect.unit (s := S16x1024) ![k.val, 0] S1x1024.size (inbRow k)) (fun _ => rfl)).squeeze S1024 squeezes_S1x1024_S1024

/-- The runtime's barrier semaphore of collective id 0 (unscoped); the send and receive DMA semaphores (scoped scratch). -/
abbrev barS : Sem sig := (SemArray.scalar (sig.barrier 0 rfl) : Sems sig S_).sem
abbrev sendS (k : Fin 16) : DmaSem sig :=
  ((cc0_scratch1.slice (Rect.unit (s := S16) ![k.val] S1.size (inbSem k))).squeeze S_ squeezes_S1_S_).sem
abbrev recvS (k : Fin 16) : DmaSem sig :=
  ((cc0_scratch2.slice (Rect.unit (s := S16) ![k.val] S1.size (inbSem k))).squeeze S_ squeezes_S1_S_).sem

theorem sendS_val (k : Fin 16) : (sendS k).val = 2 + k.val := by revert k; decide
theorem recvS_val (k : Fin 16) : (recvS k).val = 18 + k.val := by revert k; decide

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- A device's thirty-three cells: the barrier's, then (which, offset) with `false` for send and `true` for receive. -/
abbrev CI : Type := Option (Bool × Fin 16)
abbrev csem : CI → SemLoc sig
  | none => .reg barS
  | some (false, k) => .dma (sendS k)
  | some (true, k) => .dma (recvS k)
abbrev kcell (ck : Dev nD × CI) : GSem nD τ sig := ((ck.1 : Thread nD τ), csem ck.2)

/-- What a copy of one row credits the cells it completes on. -/
abbrev N : ℕ := (rowM 0 : Memref sig .tc .vmem S1024 .f32).view.dmaCredit
theorem N_pos : 0 < N := View.dmaCredit_pos _ (by decide)

/-- Which send or receive cell a DMA semaphore is, if any. -/
def slot : SemLoc sig → Option (Bool × Fin 16)
  | .reg _ => none
  | .dma q => if h : 2 ≤ q.val ∧ q.val < 18 then some (false, ⟨q.val - 2, by omega⟩)
      else if h' : 18 ≤ q.val ∧ q.val < 34 then some (true, ⟨q.val - 18, by omega⟩) else none

theorem slot_send (k : Fin 16) : slot (.dma (sendS k)) = some (false, k) := by revert k; decide
theorem slot_recv (k : Fin 16) : slot (.dma (recvS k)) = some (true, k) := by revert k; decide
theorem slot_bar : slot (.reg barS) = none := rfl

/-! ## Contents -/

/-- Device `c`'s block of `x` as its kernel finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- The index `(0, j)` of a one-row matrix. -/
abbrev rowIx (j : Fin 1024) : S1x1024.Idx := fun a => match a with
  | ⟨0, _⟩ => (⟨0, Nat.one_pos⟩ : Fin 1)
  | ⟨1, _⟩ => (⟨j.val, j.isLt⟩ : Fin 1024)

/-- The table device `c` ends with: row `k` holds the column sums of the block of device `c - k`. -/
def commAt (c : Dev nD) : Buf (Elt F) (((c : Dev nD) : Thread nD τ).loc cc0_scratch0) :=
  fun i => k0_pay2 (xstg m ρ (bwd c ⟨(i 0).val, (i 0).isLt⟩)) (rowIx ⟨(i 1).val, (i 1).isLt⟩)

/-- The kernel's result on device `c`: the sixteen rows added up and scaled. -/
def outAt (c : Dev nD) : (cc0_stg1_0 : Ref sig .tc).ty.Contents (Elt F) := k0_pay1 (commAt m ρ c)

def scrPts (c : Dev nD) (f : Buf (Elt F) ((rM : Memref sig .tc .vmem S16x1024 .f32).view.loc (c : Thread nD τ))) : sProp 𝕄 :=
  (rM : Memref sig .tc .vmem S16x1024 .f32).view.loc (c : Thread nD τ) ↦[(rM : Memref sig .tc .vmem S16x1024 .f32).view.set]{fullShare} f
/-- Row `k` of device `c`'s table, held outright at contents `f`. -/
def rowPts (c : Dev nD) (k : Fin 16) (f : Buf (Elt F) ((rowM k : Memref sig .tc .vmem S1024 .f32).view.loc (c : Thread nD τ))) : sProp 𝕄 :=
  (rowM k : Memref sig .tc .vmem S1024 .f32).view.loc (c : Thread nD τ) ↦[(rowM k : Memref sig .tc .vmem S1024 .f32).view.set]{fullShare} f
/-- Row 0 of device `c`'s table at its final contents, held at a share. -/
def row0Pts (c : Dev nD) (q : PosShare TreeShare) : sProp 𝕄 :=
  (rowM 0 : Memref sig .tc .vmem S1024 .f32).view.loc (c : Thread nD τ) ↦[(rowM 0 : Memref sig .tc .vmem S1024 .f32).view.set]{q} commAt m ρ c

/-- The share of row 0 that copy `k` reads from. -/
abbrev shr (k : Fin 16) : PosShare TreeShare := shareTok fullShare 16 k

instance scrPts_storable (c : Dev nD) (f) : BI.Storable (upEmb : UEmb _ 𝕄) (scrPts (F := F) c f) := by unfold scrPts; infer_instance
instance rowPts_storable (c : Dev nD) (k : Fin 16) (f) : BI.Storable (upEmb : UEmb _ 𝕄) (rowPts (F := F) c k f) := by unfold rowPts; infer_instance
instance row0Pts_storable (c : Dev nD) (q) : BI.Storable (upEmb : UEmb _ 𝕄) (row0Pts (F := F) m ρ c q) := by unfold row0Pts; infer_instance

/-! ## The schedule -/

/-- What device `c + d`'s signal (duty `d` of `c`'s barrier cell) hands `c`: that device's row `d`, and that its
    receive cell `d` stands at round 0 — what `c`'s copy `d` into it needs. -/
def barPay (c : Dev nD) (d : Fin 16) : sProp 𝕄 := iprop((∃ f, rowPts (fwd c d) d f) ∗ reached ER (recvCell (fwd c d) d) 0)
def recvPay (c : Dev nD) (k : Fin 16) : sProp 𝕄 := rowPts c k (commAt m ρ c)
def sendPay (c : Dev nD) (k : Fin 16) : sProp 𝕄 := row0Pts m ρ c (shr k)

def dutiesOf (sm : SemLoc sig) : Finset (Fin 16) :=
  if sm = .reg barS then ks else match slot sm with
    | some (_, k) => if k = 0 then ∅ else {0}
    | none => ∅

def payOf (c : Dev nD) (sm : SemLoc sig) (d : Fin 16) : sProp 𝕄 :=
  if sm = .reg barS then barPay c d else match slot sm with
    | some (false, k) => sendPay m ρ c k
    | some (true, k) => recvPay m ρ c k
    | none => iprop(emp)

/-- One round, round 0. -/
def sched : Rounds.Schedule (GSem nD τ sig) (Fin 16) 𝕄 where
  duties g r := if r = 0 ∧ g.1.2 = .tc then dutiesOf g.2 else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance sched_payload_storable (g : GSem nD τ sig) (r : ℕ) (d : Fin 16) :
    BI.Storable (upEmb : UEmb _ 𝕄) ((sched (F := F) m ρ).payload g r d) := by
  show BI.Storable upEmb (payOf m ρ g.1.1 g.2 d)
  unfold payOf barPay recvPay sendPay
  (repeat' split) <;> infer_instance

section Sched
variable (c : Dev nD) (k : Fin 16)

theorem send_ne_bar : (SemLoc.dma (sendS k) : SemLoc sig) ≠ .reg barS := fun h => by cases h
theorem recv_ne_bar : (SemLoc.dma (recvS k) : SemLoc sig) ≠ .reg barS := fun h => by cases h

theorem dutiesOf_bar : dutiesOf (.reg barS) = ks := if_pos rfl
theorem dutiesOf_send (hk : k ≠ 0) : dutiesOf (.dma (sendS k)) = {0} := by
  unfold dutiesOf; rw [if_neg (send_ne_bar k), slot_send]; exact if_neg hk
theorem dutiesOf_recv (hk : k ≠ 0) : dutiesOf (.dma (recvS k)) = {0} := by
  unfold dutiesOf; rw [if_neg (recv_ne_bar k), slot_recv]; exact if_neg hk
theorem dutiesOf_send0 : dutiesOf (.dma (sendS 0)) = ∅ := by
  unfold dutiesOf; rw [if_neg (send_ne_bar 0), slot_send]; exact if_pos rfl
theorem dutiesOf_recv0 : dutiesOf (.dma (recvS 0)) = ∅ := by
  unfold dutiesOf; rw [if_neg (recv_ne_bar 0), slot_recv]; exact if_pos rfl

theorem duties_bar : (sched (F := F) m ρ).duties (barCell c) 0 = ks := by
  dsimp only [sched]; rw [if_pos ⟨rfl, rfl⟩]; exact dutiesOf_bar
theorem duties_send (hk : k ≠ 0) : (sched (F := F) m ρ).duties (sendCell c k) 0 = {0} := by
  dsimp only [sched]; rw [if_pos ⟨rfl, rfl⟩]; exact dutiesOf_send k hk
theorem duties_recv (hk : k ≠ 0) : (sched (F := F) m ρ).duties (recvCell c k) 0 = {0} := by
  dsimp only [sched]; rw [if_pos ⟨rfl, rfl⟩]; exact dutiesOf_recv k hk
theorem duties_send0 : (sched (F := F) m ρ).duties (sendCell c 0) 0 = ∅ := by
  dsimp only [sched]; rw [if_pos ⟨rfl, rfl⟩]; exact dutiesOf_send0
theorem duties_recv0 : (sched (F := F) m ρ).duties (recvCell c 0) 0 = ∅ := by
  dsimp only [sched]; rw [if_pos ⟨rfl, rfl⟩]; exact dutiesOf_recv0
theorem duties_later (g : GSem nD τ sig) : ∀ r, 1 ≤ r → (sched (F := F) m ρ).duties g r = ∅ :=
  fun r hr => by dsimp only [sched]; rw [if_neg fun h => by omega]

theorem amount_bar (d : Fin 16) : (sched (F := F) m ρ).amount (barCell c) 0 d = 1 := by dsimp only [sched]; exact if_pos rfl
theorem amount_send (d : Fin 16) : (sched (F := F) m ρ).amount (sendCell c k) 0 d = N := by dsimp only [sched]; exact if_neg (send_ne_bar k)
theorem amount_recv (d : Fin 16) : (sched (F := F) m ρ).amount (recvCell c k) 0 d = N := by dsimp only [sched]; exact if_neg (recv_ne_bar k)

theorem expect_bar : (sched (F := F) m ρ).expect (barCell c) 0 = 15 := by
  unfold Schedule.expect Schedule.amountOf
  rw [duties_bar, Finset.sum_congr rfl fun d _ => amount_bar m ρ c d, Finset.sum_const, smul_eq_mul, Nat.mul_one]
  decide
theorem expect_send (hk : k ≠ 0) : (sched (F := F) m ρ).expect (sendCell c k) 0 = N := by
  unfold Schedule.expect Schedule.amountOf; rw [duties_send m ρ c k hk, Finset.sum_singleton, amount_send]
theorem expect_recv (hk : k ≠ 0) : (sched (F := F) m ρ).expect (recvCell c k) 0 = N := by
  unfold Schedule.expect Schedule.amountOf; rw [duties_recv m ρ c k hk, Finset.sum_singleton, amount_recv]

theorem payload_bar (d : Fin 16) : (sched (F := F) m ρ).payload (barCell c) 0 d = barPay c d := by
  dsimp only [sched]; unfold payOf; exact if_pos rfl
theorem payload_send (d : Fin 16) : (sched (F := F) m ρ).payload (sendCell c k) 0 d = sendPay m ρ c k := by
  dsimp only [sched]; unfold payOf; rw [if_neg (send_ne_bar k), slot_send]
theorem payload_recv (d : Fin 16) : (sched (F := F) m ρ).payload (recvCell c k) 0 d = recvPay m ρ c k := by
  dsimp only [sched]; unfold payOf; rw [if_neg (recv_ne_bar k), slot_recv]

/-- The whole of the barrier cell's round, no duty taken yet: the fifteen senders' payloads. -/
theorem rest_bar : bigSep ((sched (F := F) m ρ).duties (barCell c) 0 \ ∅) (fun d => (sched (F := F) m ρ).payload (barCell c) 0 d) = bigSep ks (fun d => barPay (F := F) c d) := by
  rw [Finset.sdiff_empty, duties_bar]
  exact bigSep_congr fun d _ => payload_bar m ρ c d
theorem rest_send (hk : k ≠ 0) : bigSep ((sched (F := F) m ρ).duties (sendCell c k) 0 \ ∅) (fun d => (sched (F := F) m ρ).payload (sendCell c k) 0 d) = sendPay m ρ c k := by
  rw [Finset.sdiff_empty, duties_send m ρ c k hk, bigSep_singleton, payload_send]
theorem rest_recv (hk : k ≠ 0) : bigSep ((sched (F := F) m ρ).duties (recvCell c k) 0 \ ∅) (fun d => (sched (F := F) m ρ).payload (recvCell c k) 0 d) = recvPay m ρ c k := by
  rw [Finset.sdiff_empty, duties_recv m ρ c k hk, bigSep_singleton, payload_recv]

end Sched

/-! ## What each device owes at launch; the levels -/

/-- The signals still to send, to the barrier cells of the devices `k` places back for `k` in `S`. -/
def Osig (c : Dev nD) (S : Finset (Fin 16)) : CellTallies nD τ sig Unit := ∑ k ∈ S, tallyAt (barCell (bwd c k)) () 1
/-- The copies still to issue, to the receive cells `k` of the devices `k` places on for `k` in `S`. -/
def Ocpy (c : Dev nD) (S : Finset (Fin 16)) : CellTallies nD τ sig Unit := ∑ k ∈ S, tallyAt (recvCell (fwd c k) k) () N
def O₀ (c : Dev nD) : CellTallies nD τ sig Unit := Ocpy c ks + Osig c ks

theorem Osig_erase (c : Dev nD) {S : Finset (Fin 16)} {k : Fin 16} (hk : k ∈ S) :
    Osig c S = Osig c (S.erase k) + tallyAt (barCell (bwd c k)) () 1 := by
  unfold Osig; rw [add_comm]; exact (Finset.add_sum_erase S _ hk).symm
theorem Ocpy_erase (c : Dev nD) {S : Finset (Fin 16)} {k : Fin 16} (hk : k ∈ S) :
    Ocpy c S = Ocpy c (S.erase k) + tallyAt (recvCell (fwd c k) k) () N := by
  unfold Ocpy; rw [add_comm]; exact (Finset.add_sum_erase S _ hk).symm
theorem Osig_empty (c : Dev nD) : Osig c ∅ = 0 := Finset.sum_empty
theorem Ocpy_empty (c : Dev nD) : Ocpy c ∅ = 0 := Finset.sum_empty

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if (slot g.2).map Prod.fst = some true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 16) (u : Unit) : lv (recvCell c k) u = 2 := by
  unfold lv; rw [if_neg (recv_ne_bar k), slot_recv]; rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names the launch allocated them at, and that every cell has reached round 0. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

/-- Device `c`'s positions, at round 0 of each of its cells. -/
def poss (c : Dev nD) : sProp 𝕄 := bigSep Finset.univ fun j : CI => atPos ER (kcell (c, j)) 0 ∅ 0
/-- The tokens of the duties device `c` pays: duty `k` of the barrier cell `k` places back, the arrival on receive cell `k`
    of the device `k` places on, and its own send cell `k`'s. -/
def payToks (c : Dev nD) : sProp 𝕄 :=
  iprop((bigSep ks fun k => dutyTok ER (barCell (bwd c k)) 0 k) ∗ (bigSep ks fun k => dutyTok ER (recvCell (fwd c k) k) 0 0)
    ∗ bigSep ks fun k => dutyTok ER (sendCell c k) 0 0)

def ghost (K : Dev nD × CI → ℕ) (c : Dev nD) : sProp 𝕄 := iprop(records m ρ K ∗ poss c ∗ payToks c)

/-- What device `c`'s body starts from: the ghost state at some names, the credit of its barrier's fifteen units and of each
    receive cell's row, and the level facts. -/
def start (c : Dev nD) : sProp 𝕄 :=
  iprop((∃ K, ghost m ρ K c) ∗ cred (tallyAt (barCell c) () 15) ∗ (bigSep ks fun k => cred (tallyAt (recvCell c k) () N)) ∗ levAts L lv)

def Φ₀ (c : Dev nD) : sProp 𝕄 := iprop(start m ρ c ∗ ∃ f, scrPts c f)
/-- After the point: the table at its final contents, the thirty-two own cells at zero, closed. -/
def Φ₁ (c : Dev nD) : sProp 𝕄 :=
  iprop(scrPts c (commAt m ρ c) ∗ (bigSep Finset.univ fun k : Fin 16 => semVal (sendCell c k) 0) ∗ bigSep Finset.univ fun k : Fin 16 => semVal (recvCell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelProof

end
-- ==== Proof.KRows.lean ====
import proofs.«900947_g7700000000000948_dist_mean_ax0_shard0_i_m2048_n1024_v7x_i16_f32_1_alg».proof.Proof.KProto
import Idealize.ShloMosaic.Lib.Pipeline.Value

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # The table's rows: their elements, and what a store into row 0 and a landing into row `k` leave there -/

/-- Row `k`'s elements, as elements of device `c`'s table. -/
abbrev rowSet (c : Dev nD) (k : Fin 16) : Finset (Idx ((rM : Memref sig .tc .vmem S16x1024 .f32).view.loc (c : Thread nD τ))) :=
  (rowM k : Memref sig .tc .vmem S1024 .f32).view.set

theorem rowSet_eq (c : Dev nD) (k : Fin 16) : rowSet c k = (Rect.unit (s := S16x1024) ![k.val, 0] S1x1024.size (inbRow k)).set := by
  unfold rowSet
  simp only [Memref.view_squeeze, Memref.view_slice, Memref.view_whole, View.set_reshape, View.set_slice_whole]

/-- An element lies in row `k` exactly when its first coordinate is `k`. -/
theorem mem_rowSet (c : Dev nD) {k : Fin 16} {i : Idx ((rM : Memref sig .tc .vmem S16x1024 .f32).view.loc (c : Thread nD τ))} :
    i ∈ rowSet c k ↔ ((i : S16x1024.Idx) 0).val = k.val := by
  rw [rowSet_eq, Rect.mem_set_unit]
  constructor
  · intro h; have := h 0; simp at this; omega
  · intro h a
    fin_cases a
    · simp; omega
    · simp; exact ((i : S16x1024.Idx) 1).isLt

theorem rowSet_disjoint (c : Dev nD) {k k' : Fin 16} (h : k ≠ k') : Disjoint (rowSet c k) (rowSet c k') := by
  rw [Finset.disjoint_left]
  intro i hi hi'
  rw [mem_rowSet] at hi hi'
  exact h (Fin.ext (hi.symm.trans hi'))

theorem biUnion_rowSet (c : Dev nD) : (Finset.univ : Finset (Fin 16)).biUnion (rowSet c) = Finset.univ := by
  ext i
  simp only [Finset.mem_biUnion, Finset.mem_univ, true_and, iff_true]
  exact ⟨⟨((i : S16x1024.Idx) 0).val, ((i : S16x1024.Idx) 0).isLt⟩, (mem_rowSet c).mpr rfl⟩

set_option maxHeartbeats 1000000 in
/-- The table held outright is its sixteen rows held outright. -/
theorem scr_rows (c : Dev nD) (f : Buf (Elt F) ((rM : Memref sig .tc .vmem S16x1024 .f32).view.loc (c : Thread nD τ))) :
    scrPts (F := F) c f = bigSep Finset.univ fun k : Fin 16 => ((rM : Memref sig .tc .vmem S16x1024 .f32).view.loc (c : Thread nD τ) ↦[rowSet c k]{fullShare} f : sProp 𝕄) := by
  unfold scrPts
  have h1 : (rM : Memref sig .tc .vmem S16x1024 .f32).view.set = (Finset.univ : Finset (Fin 16)).biUnion (rowSet c) := by
    rw [biUnion_rowSet]; exact View.set_whole _
  rw [h1]
  exact pointsTo_biUnion Finset.univ (rowSet c) fun k _ k' _ h => rowSet_disjoint c h

/-- A family over the sixteen offsets is its member at 0 and the rest. -/
theorem bigSep_ks (Φ : Fin 16 → sProp 𝕄) : bigSep Finset.univ Φ = iprop(Φ 0 ∗ bigSep ks Φ) := by
  unfold ks; exact bigSep_erase (Finset.mem_univ 0)

/-- Where row `k`'s view sends the index `j` of a row: to `(k, j)`. -/
theorem rowM_emb_0 (k : Fin 16) (j : S1024.Idx) :
    ((((rowM k : Memref sig .tc .vmem S1024 .f32).view.emb j : (rM : Memref sig .tc .vmem S16x1024 .f32).view.ty.Idx) : S16x1024.Idx) 0).val = k.val := by
  simp only [Memref.view_squeeze, Memref.view_slice, Memref.view_whole, View.emb_reshape, View.emb_slice, View.emb_whole,
    Function.Embedding.trans_apply, Equiv.coe_toEmbedding, Function.Embedding.refl_apply]
  rw [Shape.reshapeEquiv_cons_one]
  show k.val + 1 * 0 = k.val
  omega
theorem rowM_emb_1 (k : Fin 16) (j : S1024.Idx) :
    ((((rowM k : Memref sig .tc .vmem S1024 .f32).view.emb j : (rM : Memref sig .tc .vmem S16x1024 .f32).view.ty.Idx) : S16x1024.Idx) 1).val = (j 0).val := by
  simp only [Memref.view_squeeze, Memref.view_slice, Memref.view_whole, View.emb_reshape, View.emb_slice, View.emb_whole,
    Function.Embedding.trans_apply, Equiv.coe_toEmbedding, Function.Embedding.refl_apply]
  rw [Shape.reshapeEquiv_cons_one]
  show 0 + 1 * (j 0).val = (j 0).val
  omega

/-- The table's entry at `(k, j)` in closed form, from the coordinates alone. -/
theorem commAt_of (c : Dev nD) (i : Idx ((rM : Memref sig .tc .vmem S16x1024 .f32).view.loc (c : Thread nD τ))) (k : Fin 16) (j : Fin 1024)
    (h0 : ((i : S16x1024.Idx) 0).val = k.val) (h1 : ((i : S16x1024.Idx) 1).val = j.val) :
    commAt m ρ c i = k0_pay2 (xstg m ρ (bwd c k)) (rowIx j) := by
  unfold commAt
  have e0 : (⟨((i : S16x1024.Idx) 0).val, ((i : S16x1024.Idx) 0).isLt⟩ : Fin 16) = k := Fin.ext h0
  have e1 : (⟨((i : S16x1024.Idx) 1).val, ((i : S16x1024.Idx) 1).isLt⟩ : Fin 1024) = j := Fin.ext h1
  rw [e0, e1]

/-- What a landing of the sender's row 0 leaves in row `k` of the device `k` places on is that device's final row `k`. -/
theorem landing_eq (c : Dev nD) (k : Fin 16) (fd : Buf (Elt F) ((rowM k : Memref sig .tc .vmem S1024 .f32).view.loc ((fwd c k : Dev nD) : Thread nD τ))) :
    ∀ i ∈ rowSet (fwd c k) k,
      (rowM k : Memref sig .tc .vmem S1024 .f32).view.write (Elt F) fd ((rowM 0 : Memref sig .tc .vmem S1024 .f32).view.read (Elt F) (commAt m ρ c)) Finset.univ i
        = commAt m ρ (fwd c k) i := by
  intro i hi
  obtain ⟨j, -, rfl⟩ := Finset.mem_map.mp hi
  rw [View.write_emb_of_mem (Val := Elt F) (v := (rowM k : Memref sig .tc .vmem S1024 .f32).view) fd _ (M := Finset.univ) (Finset.mem_univ j)]
  rw [commAt_of m ρ (fwd c k) _ k ⟨(j 0).val, (j 0).isLt⟩ (rowM_emb_0 k j) (rowM_emb_1 k j), bwd_fwd]
  show commAt m ρ c ((rowM 0 : Memref sig .tc .vmem S1024 .f32).view.emb j) = _
  rw [commAt_of m ρ c _ 0 ⟨(j 0).val, (j 0).isLt⟩ (rowM_emb_0 0 j) (rowM_emb_1 0 j), bwd_zero]

end Cert.KernelProof
end
-- ==== Proof.KSteps.lean ====
import proofs.«900947_g7700000000000948_dist_mean_ax0_shard0_i_m2048_n1024_v7x_i16_f32_1_alg».proof.Proof.KRows

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)
open Idealize.ShloMosaic.Tactic

variable {F : FTy → Type} [FloatOps F]
variable (m : (ℓ : Loc nD τ sig) → Buf (Elt F) ℓ) (ρ : Dev nD → PrngReg)
local notation "𝕄" => MT nD τ sig Unit (Elt F) ℕ UU ℕ

/-! # One step of each kind, for a symbolic device and a symbolic offset

The body is the same four remote steps fifteen times over: a signal to the barrier cell `k` places back, a copy of
row 0 into row `k` of the device `k` places on, the wait for the landing in the own row `k`, and the wait for copy
`k` to have left. Each is proved once here, over what is still to be done (a set of offsets). -/

variable (K : Dev nD × CI → ℕ)

theorem inv_at (ck : Dev nD × CI) : records m ρ K ⊢ cellInv ER (sched m ρ) (K ck) (kcell ck) := by
  unfold records
  iintro ⟨HI, -⟩
  iapply (show (bigSep Finset.univ fun ck : Dev nD × CI => (cellInv ER (sched m ρ) (K ck) (kcell ck) : sProp 𝕄)) ⊢ cellInv ER (sched m ρ) (K ck) (kcell ck)
    from bigSep_elim (Finset.mem_univ ck))
  iexact HI
theorem reached_at (ck : Dev nD × CI) : records m ρ K ⊢ (reached ER (kcell ck) 0 : sProp 𝕄) := by
  unfold records
  iintro ⟨-, HR⟩
  iapply (show (bigSep Finset.univ fun ck : Dev nD × CI => (reached ER (kcell ck) 0 : sProp 𝕄)) ⊢ reached ER (kcell ck) 0
    from bigSep_elim (Finset.mem_univ ck))
  iexact HR

/-! ## Levels -/

theorem Ocpy_pos {c : Dev nD} {S : Finset (Fin 16)} {g : GSem nD τ sig} {u : Unit} (h : 0 < Ocpy c S g u) :
    ∃ k ∈ S, g = recvCell (fwd c k) k := by
  unfold Ocpy at h
  rw [Finset.sum_apply, Finsupp.finset_sum_apply] at h
  obtain ⟨k, hk, hpos⟩ := Finset.exists_ne_zero_of_sum_ne_zero (Nat.pos_iff_ne_zero.mp h)
  rw [tallyAt_apply] at hpos
  by_cases hg : g = recvCell (fwd c k) k ∧ u = ()
  · exact ⟨k, hk, hg.1⟩
  · rw [if_neg hg] at hpos; exact absurd rfl hpos

/-- At its barrier wait a device owes only landings on receive cells, which sit above every barrier cell. -/
theorem mayWait_bar (c : Dev nD) :
    (levAts L lv : sProp 𝕄) ⊢ MayWait (c : Thread nD τ) (.reg barS) () (Ocpy c ks) :=
  MayOwe.of_cut (L := L) (lev := lv) 1 (fun p hp => by rw [Finset.mem_singleton.mp hp, L_tc]; exact Finset.mem_singleton_self _)
    (fun g u hg => by obtain ⟨k, -, rfl⟩ := Ocpy_pos hg; rw [L_tc]; exact Finset.mem_singleton_self _)
    (fun p hp => by rw [Finset.mem_singleton.mp hp]; exact (lv_bar c ()).le)
    (fun g u hg => by obtain ⟨k, -, rfl⟩ := Ocpy_pos hg; rw [lv_recv]; decide)

/-! ## What is still to be done, as one assertion -/

/-- Before the signals to the offsets `S`: what is owed, the tokens of those signals' duties, and the own rows they hand over. -/
def sigSt (c : Dev nD) (S : Finset (Fin 16)) : sProp 𝕄 :=
  iprop((∃ W, owes (c : Thread nD τ) (Ocpy c ks + Osig c S) W)
    ∗ (bigSep S fun k => dutyTok ER (barCell (bwd c k)) 0 k)
    ∗ bigSep S fun k => iprop(∃ f, (rM : Memref sig .tc .vmem S16x1024 .f32).view.loc (c : Thread nD τ) ↦[rowSet c k]{fullShare} f))

/-- Before the copies to the offsets `S`: what is owed, the two tokens and the share of row 0 each copy needs, and what
    the barrier handed over for it (the target's row and that its receive cell stands at round 0). -/
def cpySt (c : Dev nD) (S : Finset (Fin 16)) : sProp 𝕄 :=
  iprop((∃ W, owes (c : Thread nD τ) (Ocpy c S) W)
    ∗ (bigSep S fun k => dutyTok ER (recvCell (fwd c k) k) 0 0)
    ∗ (bigSep S fun k => dutyTok ER (sendCell c k) 0 0)
    ∗ (bigSep S fun k => row0Pts m ρ c (shr k))
    ∗ bigSep S fun k => barPay (F := F) c k)

/-! ## The facts and payloads as the steps read them

Each cell's invariant and mark under the cell's own name, a row held through its own view, and each duty's payload
spelt out as what it hands over. -/

/-- The payload of the duty a device pays on the barrier cell `k` places back, spelt out: its own row `k` and its receive cell's mark. -/
theorem barPay_bwd (c : Dev nD) (k : Fin 16) :
    barPay (F := F) (bwd c k) k = iprop((∃ f, ((rowM k : Memref sig .tc .vmem S1024 .f32).view.loc (c : Thread nD τ) ↦[(rowM k : Memref sig .tc .vmem S1024 .f32).view.set]{fullShare} f)) ∗ reached ER (recvCell c k) 0) := by
  unfold barPay rowPts; rw [fwd_bwd]

theorem inv_bar (c : Dev nD) : records m ρ K ⊢ cellInv ER (sched m ρ) (K (c, none)) (barCell c) := inv_at m ρ K (c, none)
theorem inv_send (c : Dev nD) (k : Fin 16) : records m ρ K ⊢ cellInv ER (sched m ρ) (K (c, some (false, k))) (sendCell c k) := inv_at m ρ K (c, some (false, k))
theorem inv_recv (c : Dev nD) (k : Fin 16) : records m ρ K ⊢ cellInv ER (sched m ρ) (K (c, some (true, k))) (recvCell c k) := inv_at m ρ K (c, some (true, k))
theorem reached_bar (c : Dev nD) : records m ρ K ⊢ (reached ER (barCell c) 0 : sProp 𝕄) := reached_at m ρ K (c, none)
theorem reached_send (c : Dev nD) (k : Fin 16) : records m ρ K ⊢ (reached ER (sendCell c k) 0 : sProp 𝕄) := reached_at m ρ K (c, some (false, k))
theorem reached_recv (c : Dev nD) (k : Fin 16) : records m ρ K ⊢ (reached ER (recvCell c k) 0 : sProp 𝕄) := reached_at m ρ K (c, some (true, k))
/-- A row held through the table's view is the row held through its own. -/
theorem row_restate (c : Dev nD) (k : Fin 16) (q : PosShare TreeShare) (f : Buf (Elt F) ((rM : Memref sig .tc .vmem S16x1024 .f32).view.loc (c : Thread nD τ))) :
    ((rM : Memref sig .tc .vmem S16x1024 .f32).view.loc (c : Thread nD τ) ↦[rowSet c k]{q} f : sProp 𝕄)
      ⊢ ((rowM k : Memref sig .tc .vmem S1024 .f32).view.loc (c : Thread nD τ) ↦[(rowM k : Memref sig .tc .vmem S1024 .f32).view.set]{q} f) := BI.Entails.refl _

theorem recvPay_eq (c : Dev nD) (k : Fin 16) :
    recvPay m ρ c k = ((rowM k : Memref sig .tc .vmem S1024 .f32).view.loc (c : Thread nD τ) ↦[(rowM k : Memref sig .tc .vmem S1024 .f32).view.set]{fullShare} commAt m ρ c : sProp 𝕄) := rfl
theorem sendPay_eq (c : Dev nD) (k : Fin 16) :
    sendPay m ρ c k = ((rowM 0 : Memref sig .tc .vmem S1024 .f32).view.loc (c : Thread nD τ) ↦[(rowM 0 : Memref sig .tc .vmem S1024 .f32).view.set]{shr k} commAt m ρ c : sProp 𝕄) := rfl

attribute [local sl_rounds] duties_bar amount_bar payload_bar expect_bar mem_ks barPay_bwd
  duties_recv duties_send amount_recv amount_send payload_recv payload_send expect_recv expect_send recvPay_eq sendPay_eq

/-! ## The signal -/

theorem wp_sig (c : Dev nD) (S : Finset (Fin 16)) (k : Fin 16) (hk : k ∈ S) (hk0 : k ≠ 0)
    {α : Type} {Q : α → sProp 𝕄} {kont : PUnit → Prog (TpuEff nD τ sig (Elt F) Λ₀ .tc) α} :
    iprop(records m ρ K ∗ sigSt (F := F) c S)
      ⊢ iprop((sigSt (F := F) c (S.erase k) -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal ((bwd c k : Dev nD) : Thread nD τ) barS (1#32).toNat) kont) Q) := by
  unfold sigSt
  iintro ⟨#HR, ⟨%W, HO⟩, Htok, Hrows⟩ Hk
  ihave Ht := (bigSep_pick hk) $$ Htok
  icases Ht with ⟨Ht, Htok⟩
  ihave Hr := (bigSep_pick hk) $$ Hrows
  icases Hr with ⟨⟨%f, Hr⟩, Hrows⟩
  ihave HI := (inv_bar m ρ K (bwd c k)) $$ HR
  icases HI with #HI
  ihave Hr0 := (reached_bar m ρ K (bwd c k)) $$ HR
  icases Hr0 with #Hr0
  ihave HrV := (reached_recv m ρ K c k) $$ HR
  icases HrV with #HrV
  ihave Hr := (row_restate c k fullShare f) $$ Hr
  rw [Osig_erase c hk, ← add_assoc]
  sl_exec
  iapply Hk
  isplitl [HO]; · iexists W; iexact HO
  isplitl [Htok]; · iexact Htok
  iexact Hrows

/-! ## The wait for the others' signals -/

/-- The wait for the fifteen units of the own barrier cell, still owing the fifteen landings: the fifteen payloads come with it. -/
theorem wp_bar (c : Dev nD)
    {α : Type} {Q : α → sProp 𝕄} {kont : PUnit → Prog (TpuEff nD τ sig (Elt F) Λ₀ .tc) α} :
    iprop(records m ρ K ∗ levAts L lv ∗ (∃ W, owes (c : Thread nD τ) (Ocpy c ks) W) ∗ cred (tallyAt (barCell c) () 15) ∗ atPos ER (barCell c) 0 ∅ 0)
      ⊢ iprop((((∃ W, owes (c : Thread nD τ) (Ocpy c ks) W) ∗ atPos ER (barCell c) (0 + 1) ∅ 0 ∗ bigSep ks fun d => barPay (F := F) c d)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semWait barS (15#32).toNat) kont) Q) := by
  iintro ⟨#HR, #Hlev, ⟨%W, HO⟩, Hc, Hat⟩ Hk
  ihave HI := (inv_bar m ρ K c) $$ HR
  icases HI with #HI
  have hmw := mayWait_bar (F := F) c
  sl_exec
  iapply Hk
  isplitl [HO]; · iexists _; iexact HO
  isplitl [Hat]; · iexact Hat
  iexact Hat_pay1

/-! ## The copy -/

theorem wp_cpy (c : Dev nD) (S : Finset (Fin 16)) (k : Fin 16) (hk : k ∈ S) (hk0 : k ≠ 0)
    {hsc : (rowM k : Memref sig (Dev.tc (fwd c k) : Thread nD τ).2.kind .vmem S1024 .f32).view.ref.isScScratch = false}
    {hsrc : (rowM 0 : Memref sig .tc .vmem S1024 .f32).view.WordExact} {hdst : (rowM k : Memref sig .tc .vmem S1024 .f32).view.WordExact}
    {hsem : DmaTarget.Typed .vmem (.dma (recvS k)) (.remote (Dev.tc (fwd c k) : Thread nD τ) (rowM k : Memref sig .tc .vmem S1024 .f32) (.dma (sendS k)) hsc)}
    {α : Type} {Q : α → sProp 𝕄} {kont : PUnit → Prog (TpuEff nD τ sig (Elt F) Λ₀ .tc) α} :
    iprop(records m ρ K ∗ cpySt m ρ c S)
      ⊢ iprop(((cred (tallyAt (sendCell c k) () N) ∗ cpySt m ρ c (S.erase k)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM 0) (.remote (Dev.tc (fwd c k) : Thread nD τ) (rowM k) (.dma (sendS k)) hsc) (.dma (recvS k)) hsrc hdst hsem) kont) Q) := by
  unfold cpySt
  iintro ⟨#HR, ⟨%W, HO⟩, HtV, HtS, Hsh, Hbp⟩ Hk
  ihave H1 := (bigSep_pick hk) $$ HtV
  icases H1 with ⟨HtVk, HtV⟩
  ihave H2 := (bigSep_pick hk) $$ HtS
  icases H2 with ⟨HtSk, HtS⟩
  ihave H3 := (bigSep_pick hk) $$ Hsh
  icases H3 with ⟨Hshk, Hsh⟩
  ihave H4 := (bigSep_pick hk) $$ Hbp
  icases H4 with ⟨Hbpk, Hbp⟩
  unfold barPay
  icases Hbpk with ⟨⟨%fd, Hdst⟩, #HrV⟩
  unfold row0Pts rowPts
  iapply (Rounds.wp_send_pointsTo 𝒱₀ ER (sched m ρ) (c : Thread nD τ) none (κ₁ := K (c, some (false, k))) (κ₂ := K (fwd c k, some (true, k)))
      (src := rowM 0) (dst := rowM k) (q := shr k) (fs := commAt m ρ c) (fd := fd) (c' := (Dev.tc (fwd c k) : Thread nD τ))
      (r₁ := 0) (r₂ := 0) (d₁ := 0) (d₂ := 0)
      (by rw [duties_send m ρ c k hk0]; exact Finset.mem_singleton_self _) (by rw [duties_recv m ρ (fwd c k) k hk0]; exact Finset.mem_singleton_self _)
      () () N rfl (amount_send m ρ c k 0) (amount_recv m ρ (fwd c k) k 0) (Ocpy c (S.erase k)) (Ocpy_erase c hk) (W := W)
      (by rw [payload_send]; exact BI.Entails.refl _)
      (by rw [payload_recv]; unfold recvPay rowPts; rw [pointsTo_congr (landing_eq m ρ c k fd)])) $$ [HO HtVk HtSk Hshk Hdst]
  · isplitr; · iapply (inv_at m ρ K (c, some (false, k))); iexact HR
    isplitr; · iapply (inv_at m ρ K (fwd c k, some (true, k))); iexact HR
    isplitl [Hshk]; · iexact Hshk
    isplitl [Hdst]; · iexact Hdst
    isplitl [HO]; · iexact HO
    isplitl [HtSk]; · iexact HtSk
    isplitr; · iapply (reached_at m ρ K (c, some (false, k))); iexact HR
    isplitl [HtVk]; · iexact HtVk
    iexact HrV
  iintro ⟨Hc, HO⟩
  iapply Hk
  isplitl [Hc]; · iexact Hc
  isplitl [HO]; · iexists W; iexact HO
  isplitl [HtV]; · iexact HtV
  isplitl [HtS]; · iexact HtS
  isplitl [Hsh]; · iexact Hsh
  iexact Hbp

/-! ## The two waits -/

theorem wp_rcv (c : Dev nD) (k : Fin 16) (hk0 : k ≠ 0)
    {hsrc : (rowM 0 : Memref sig .tc .vmem S1024 .f32).view.WordExact} {hdst : (rowM k : Memref sig .tc .vmem S1024 .f32).view.WordExact}
    {α : Type} {Q : α → sProp 𝕄} {kont : PUnit → Prog (TpuEff nD τ sig (Elt F) Λ₀ .tc) α} :
    iprop(records m ρ K ∗ (∃ W, owes (c : Thread nD τ) 0 W) ∗ cred (tallyAt (recvCell c k) () N) ∗ atPos ER (recvCell c k) 0 ∅ 0)
      ⊢ iprop((((∃ W, owes (c : Thread nD τ) 0 W) ∗ atPos ER (recvCell c k) (0 + 1) ∅ 0 ∗ rowPts c k (commAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (rowM 0 : Memref sig .tc .vmem S1024 .f32) (rowM k : Memref sig .tc .vmem S1024 .f32) hsrc hdst) kont) Q) := by
  iintro ⟨#HR, ⟨%W, HO⟩, Hc, Hat⟩ Hk
  ihave HI := (inv_recv m ρ K c k) $$ HR
  icases HI with #HI
  sl_exec
  iapply Hk
  isplitl [HO]; · iexists _; iexact HO
  isplitl [Hat]; · iexact Hat
  unfold rowPts; iexact Hat_pay1

theorem wp_sndw (c : Dev nD) (k : Fin 16) (hk0 : k ≠ 0)
    {hsrc : (rowM k : Memref sig .tc .vmem S1024 .f32).view.WordExact} {hdst : (rowM 0 : Memref sig .tc .vmem S1024 .f32).view.WordExact}
    {α : Type} {Q : α → sProp 𝕄} {kont : PUnit → Prog (TpuEff nD τ sig (Elt F) Λ₀ .tc) α} :
    iprop(records m ρ K ∗ (∃ W, owes (c : Thread nD τ) 0 W) ∗ cred (tallyAt (sendCell c k) () N) ∗ atPos ER (sendCell c k) 0 ∅ 0)
      ⊢ iprop((((∃ W, owes (c : Thread nD τ) 0 W) ∗ atPos ER (sendCell c k) (0 + 1) ∅ 0 ∗ row0Pts m ρ c (shr k))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (rowM k : Memref sig .tc .vmem S1024 .f32) (rowM 0 : Memref sig .tc .vmem S1024 .f32) hsrc hdst) kont) Q) := by
  iintro ⟨#HR, ⟨%W, HO⟩, Hc, Hat⟩ Hk
  ihave HI := (inv_send m ρ K c k) $$ HR
  icases HI with #HI
  sl_exec
  iapply Hk
  isplitl [HO]; · iexists _; iexact HO
  isplitl [Hat]; · iexact Hat
  unfold row0Pts; iexact Hat_pay1

end Cert.KernelProof
end
-- ==== Proof.KSteps2.lean ====
import proofs.«900947_g7700000000000948_dist_mean_ax0_shard0_i_m2048_n1024_v7x_i16_f32_1_alg».proof.Proof.KSteps

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

variable (K : Dev nD × CI → ℕ)

/-! ## The same steps over a set of offsets still to do and a set done -/

theorem bigSep_insert_intro {I : Type} [DecidableEq I] {s : Finset I} {i : I} (hi : i ∉ s) {Φ : I → sProp 𝕄} :
    iprop(Φ i ∗ bigSep s Φ) ⊢ bigSep (insert i s) Φ := Entails.of_eq (bigSep_insert hi).symm

/-- The used offsets up to `n`, and from `n` on. -/
def upto (n : ℕ) : Finset (Fin 16) := ks.filter fun k => k.val ≤ n
def frm (n : ℕ) : Finset (Fin 16) := ks.filter fun k => n ≤ k.val
theorem upto_zero : upto 0 = ∅ := by decide
theorem upto_all : upto 15 = ks := by decide
theorem frm_one : frm 1 = ks := by decide
theorem frm_end : frm 16 = ∅ := by decide

/-- The copies: `S` still to issue, `D` issued (the credit each returned on its send cell kept). -/
def cpySt2 (c : Dev nD) (S D : Finset (Fin 16)) : sProp 𝕄 :=
  iprop(cpySt m ρ c S ∗ bigSep D fun k => cred (tallyAt (sendCell c k) () N))

theorem wp_cpy2 (c : Dev nD) (S D S' D' : Finset (Fin 16)) (k : Fin 16) (hk : k ∈ S) (hkD : k ∉ D) (hk0 : k ≠ 0) (hS : S.erase k = S') (hD : insert k D = D')
    (n : Dev nD) (hn : n = fwd c k)
    {hsc : (rowM k : Memref sig (Dev.tc n : Thread nD τ).2.kind .vmem S1024 .f32).view.ref.isScScratch = false}
    {hsrc : (rowM 0 : Memref sig .tc .vmem S1024 .f32).view.WordExact} {hdst : (rowM k : Memref sig .tc .vmem S1024 .f32).view.WordExact}
    {hsem : DmaTarget.Typed .vmem (.dma (recvS k)) (.remote (Dev.tc n : Thread nD τ) (rowM k : Memref sig .tc .vmem S1024 .f32) (.dma (sendS k)) hsc)}
    {α : Type} {Q : α → sProp 𝕄} {kont : PUnit → Prog (TpuEff nD τ sig (Elt F) Λ₀ .tc) α} :
    iprop(records m ρ K ∗ cpySt2 m ρ c S D)
      ⊢ iprop((cpySt2 m ρ c S' D' -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM 0) (.remote (Dev.tc n : Thread nD τ) (rowM k) (.dma (sendS k)) hsc) (.dma (recvS k)) hsrc hdst hsem) kont) Q) := by
  subst hS hD hn
  unfold cpySt2
  iintro ⟨#HR, Hst, HD⟩ Hk
  iapply (wp_cpy m ρ K c S k hk hk0) $$ [Hst]
  · isplitr; · iexact HR
    iexact Hst
  iintro ⟨Hc, Hst⟩
  iapply Hk
  isplitl [Hst]; · iexact Hst
  iapply (bigSep_insert_intro hkD)
  isplitl [Hc]; · iexact Hc
  iexact HD

/-- The receive waits: `S` still to wait for, `D` landed (the row at its final contents, the cell one round on). -/
def rcvSt (c : Dev nD) (S D : Finset (Fin 16)) : sProp 𝕄 :=
  iprop((∃ W, owes (c : Thread nD τ) 0 W)
    ∗ (bigSep S fun k => iprop(cred (tallyAt (recvCell c k) () N) ∗ atPos ER (recvCell c k) 0 ∅ 0))
    ∗ bigSep D fun k => iprop(atPos ER (recvCell c k) (0 + 1) ∅ 0 ∗ rowPts c k (commAt m ρ c)))

theorem wp_rcv2 (c : Dev nD) (S D S' D' : Finset (Fin 16)) (k : Fin 16) (hk : k ∈ S) (hkD : k ∉ D) (hk0 : k ≠ 0) (hS : S.erase k = S') (hD : insert k D = D')
    {hsrc : (rowM 0 : Memref sig .tc .vmem S1024 .f32).view.WordExact} {hdst : (rowM k : Memref sig .tc .vmem S1024 .f32).view.WordExact}
    {α : Type} {Q : α → sProp 𝕄} {kont : PUnit → Prog (TpuEff nD τ sig (Elt F) Λ₀ .tc) α} :
    iprop(records m ρ K ∗ rcvSt m ρ c S D)
      ⊢ iprop((rcvSt m ρ c S' D' -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS k) (rowM 0 : Memref sig .tc .vmem S1024 .f32) (rowM k : Memref sig .tc .vmem S1024 .f32) hsrc hdst) kont) Q) := by
  subst hS hD
  unfold rcvSt
  iintro ⟨#HR, HO, HS, HD⟩ Hk
  ihave H1 := (bigSep_pick hk) $$ HS
  icases H1 with ⟨⟨Hc, Hat⟩, HS⟩
  iapply (wp_rcv m ρ K c k hk0) $$ [HO Hc Hat]
  · isplitr; · iexact HR
    isplitl [HO]; · iexact HO
    isplitl [Hc]; · iexact Hc
    iexact Hat
  iintro ⟨HO, Hat, Hrow⟩
  iapply Hk
  isplitl [HO]; · iexact HO
  isplitl [HS]; · iexact HS
  iapply (bigSep_insert_intro hkD)
  isplitl [Hat Hrow]
  · isplitl [Hat]; · iexact Hat
    iexact Hrow
  iexact HD

/-- The send waits: `S` still to wait for, `D` left (the share of row 0 back, the cell one round on). -/
def sndSt (c : Dev nD) (S D : Finset (Fin 16)) : sProp 𝕄 :=
  iprop((∃ W, owes (c : Thread nD τ) 0 W)
    ∗ (bigSep S fun k => iprop(cred (tallyAt (sendCell c k) () N) ∗ atPos ER (sendCell c k) 0 ∅ 0))
    ∗ bigSep D fun k => iprop(atPos ER (sendCell c k) (0 + 1) ∅ 0 ∗ row0Pts m ρ c (shr k)))

theorem wp_sndw2 (c : Dev nD) (S D S' D' : Finset (Fin 16)) (k : Fin 16) (hk : k ∈ S) (hkD : k ∉ D) (hk0 : k ≠ 0) (hS : S.erase k = S') (hD : insert k D = D')
    {hsrc : (rowM k : Memref sig .tc .vmem S1024 .f32).view.WordExact} {hdst : (rowM 0 : Memref sig .tc .vmem S1024 .f32).view.WordExact}
    {α : Type} {Q : α → sProp 𝕄} {kont : PUnit → Prog (TpuEff nD τ sig (Elt F) Λ₀ .tc) α} :
    iprop(records m ρ K ∗ sndSt m ρ c S D)
      ⊢ iprop((sndSt m ρ c S' D' -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS k) (rowM k : Memref sig .tc .vmem S1024 .f32) (rowM 0 : Memref sig .tc .vmem S1024 .f32) hsrc hdst) kont) Q) := by
  subst hS hD
  unfold sndSt
  iintro ⟨#HR, HO, HS, HD⟩ Hk
  ihave H1 := (bigSep_pick hk) $$ HS
  icases H1 with ⟨⟨Hc, Hat⟩, HS⟩
  iapply (wp_sndw m ρ K c k hk0) $$ [HO Hc Hat]
  · isplitr; · iexact HR
    isplitl [HO]; · iexact HO
    isplitl [Hc]; · iexact Hc
    iexact Hat
  iintro ⟨HO, Hat, Hrow⟩
  iapply Hk
  isplitl [HO]; · iexact HO
  isplitl [HS]; · iexact HS
  iapply (bigSep_insert_intro hkD)
  isplitl [Hat Hrow]
  · isplitl [Hat]; · iexact Hat
    iexact Hrow
  iexact HD

/-- The signal, between two named sets of offsets. -/
theorem wp_sig2 (c : Dev nD) (S S' : Finset (Fin 16)) (k : Fin 16) (hk : k ∈ S) (hk0 : k ≠ 0) (hS : S.erase k = S')
    {α : Type} {Q : α → sProp 𝕄} {kont : PUnit → Prog (TpuEff nD τ sig (Elt F) Λ₀ .tc) α} :
    iprop(records m ρ K ∗ sigSt (F := F) c S)
      ⊢ iprop((sigSt (F := F) c S' -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal ((bwd c k : Dev nD) : Thread nD τ) barS (1#32).toNat) kont) Q) := by
  subst hS
  exact wp_sig m ρ K c S k hk hk0

end Cert.KernelProof
end
-- ==== Proof.KDevs.lean ====
import proofs.«900947_g7700000000000948_dist_mean_ax0_shard0_i_m2048_n1024_v7x_i16_f32_1_alg».proof.Proof.KProto

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # The kernel's device chains in closed form

Signal `d` (`d = 1 … 15`) names the device `d` places on, which is the device `16 - d` places back; copy `d` names the
device `d` places on. Each is decided over the sixteen devices. -/

theorem dev1_eq (c : Dev nD) : (⟨k0_dev1 c, k0_dev1_lt c⟩ : Dev nD) = bwd c 15 := by revert c; decide +kernel
theorem dev2_eq (c : Dev nD) : (⟨k0_dev2 c, k0_dev2_lt c⟩ : Dev nD) = bwd c 14 := by revert c; decide +kernel
theorem dev3_eq (c : Dev nD) : (⟨k0_dev3 c, k0_dev3_lt c⟩ : Dev nD) = bwd c 13 := by revert c; decide +kernel
theorem dev4_eq (c : Dev nD) : (⟨k0_dev4 c, k0_dev4_lt c⟩ : Dev nD) = bwd c 12 := by revert c; decide +kernel
theorem dev5_eq (c : Dev nD) : (⟨k0_dev5 c, k0_dev5_lt c⟩ : Dev nD) = bwd c 11 := by revert c; decide +kernel
theorem dev6_eq (c : Dev nD) : (⟨k0_dev6 c, k0_dev6_lt c⟩ : Dev nD) = bwd c 10 := by revert c; decide +kernel
theorem dev7_eq (c : Dev nD) : (⟨k0_dev7 c, k0_dev7_lt c⟩ : Dev nD) = bwd c 9 := by revert c; decide +kernel
theorem dev8_eq (c : Dev nD) : (⟨k0_dev8 c, k0_dev8_lt c⟩ : Dev nD) = bwd c 8 := by revert c; decide +kernel
theorem dev9_eq (c : Dev nD) : (⟨k0_dev9 c, k0_dev9_lt c⟩ : Dev nD) = bwd c 7 := by revert c; decide +kernel
theorem dev10_eq (c : Dev nD) : (⟨k0_dev10 c, k0_dev10_lt c⟩ : Dev nD) = bwd c 6 := by revert c; decide +kernel
theorem dev11_eq (c : Dev nD) : (⟨k0_dev11 c, k0_dev11_lt c⟩ : Dev nD) = bwd c 5 := by revert c; decide +kernel
theorem dev12_eq (c : Dev nD) : (⟨k0_dev12 c, k0_dev12_lt c⟩ : Dev nD) = bwd c 4 := by revert c; decide +kernel
theorem dev13_eq (c : Dev nD) : (⟨k0_dev13 c, k0_dev13_lt c⟩ : Dev nD) = bwd c 3 := by revert c; decide +kernel
theorem dev14_eq (c : Dev nD) : (⟨k0_dev14 c, k0_dev14_lt c⟩ : Dev nD) = bwd c 2 := by revert c; decide +kernel
theorem dev15_eq (c : Dev nD) : (⟨k0_dev15 c, k0_dev15_lt c⟩ : Dev nD) = bwd c 1 := by revert c; decide +kernel
theorem dev16_eq (c : Dev nD) : (⟨k0_dev16 c, k0_dev16_lt c⟩ : Dev nD) = fwd c 1 := by revert c; decide +kernel
theorem dev17_eq (c : Dev nD) : (⟨k0_dev17 c, k0_dev17_lt c⟩ : Dev nD) = fwd c 2 := by revert c; decide +kernel
theorem dev18_eq (c : Dev nD) : (⟨k0_dev18 c, k0_dev18_lt c⟩ : Dev nD) = fwd c 3 := by revert c; decide +kernel
theorem dev19_eq (c : Dev nD) : (⟨k0_dev19 c, k0_dev19_lt c⟩ : Dev nD) = fwd c 4 := by revert c; decide +kernel
theorem dev20_eq (c : Dev nD) : (⟨k0_dev20 c, k0_dev20_lt c⟩ : Dev nD) = fwd c 5 := by revert c; decide +kernel
theorem dev21_eq (c : Dev nD) : (⟨k0_dev21 c, k0_dev21_lt c⟩ : Dev nD) = fwd c 6 := by revert c; decide +kernel
theorem dev22_eq (c : Dev nD) : (⟨k0_dev22 c, k0_dev22_lt c⟩ : Dev nD) = fwd c 7 := by revert c; decide +kernel
theorem dev23_eq (c : Dev nD) : (⟨k0_dev23 c, k0_dev23_lt c⟩ : Dev nD) = fwd c 8 := by revert c; decide +kernel
theorem dev24_eq (c : Dev nD) : (⟨k0_dev24 c, k0_dev24_lt c⟩ : Dev nD) = fwd c 9 := by revert c; decide +kernel
theorem dev25_eq (c : Dev nD) : (⟨k0_dev25 c, k0_dev25_lt c⟩ : Dev nD) = fwd c 10 := by revert c; decide +kernel
theorem dev26_eq (c : Dev nD) : (⟨k0_dev26 c, k0_dev26_lt c⟩ : Dev nD) = fwd c 11 := by revert c; decide +kernel
theorem dev27_eq (c : Dev nD) : (⟨k0_dev27 c, k0_dev27_lt c⟩ : Dev nD) = fwd c 12 := by revert c; decide +kernel
theorem dev28_eq (c : Dev nD) : (⟨k0_dev28 c, k0_dev28_lt c⟩ : Dev nD) = fwd c 13 := by revert c; decide +kernel
theorem dev29_eq (c : Dev nD) : (⟨k0_dev29 c, k0_dev29_lt c⟩ : Dev nD) = fwd c 14 := by revert c; decide +kernel
theorem dev30_eq (c : Dev nD) : (⟨k0_dev30 c, k0_dev30_lt c⟩ : Dev nD) = fwd c 15 := by revert c; decide +kernel

end Cert.KernelProof
end
-- ==== Proof.KBodyDefs.lean ====
import proofs.«900947_g7700000000000948_dist_mean_ax0_shard0_i_m2048_n1024_v7x_i16_f32_1_alg».proof.Proof.KProto

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # What one device's body starts from and ends with -/

variable (K : Dev nD × CI → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body: the ghost state, the credit of the barrier's fifteen units and of each receive cell's row, the levels, the
    table at any contents; what is owed; the two staging buffers as the pipeline left them. -/
def bodyPre (c : Dev nD) : sProp 𝕄 :=
  iprop((ghost m ρ K c ∗ cred (tallyAt (barCell c) () 15) ∗ (bigSep ks fun k => cred (tallyAt (recvCell c k) () N)) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- After it: the table complete and the own cells closed, nothing owed, the block of `x` as it was, the result staged. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelProof
end
-- ==== Proof.KClose.lean ====
import proofs.«900947_g7700000000000948_dist_mean_ax0_shard0_i_m2048_n1024_v7x_i16_f32_1_alg».proof.Proof.KSteps

/-! # Closing the thirty-two own cells, and row 0 cut into the shares its fifteen copies read -/

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable (K : Dev nD × CI → ℕ)

/-! ## A family over a device's thirty-three cells, cell kind by cell kind -/

/-- The barrier cell's member, then the sixteen send cells', then the sixteen receive cells'. -/
theorem bigSep_cells (Φ : CI → sProp 𝕄) :
    bigSep Finset.univ Φ = iprop(Φ none ∗ (bigSep Finset.univ fun k : Fin 16 => Φ (some (false, k))) ∗ bigSep Finset.univ fun k : Fin 16 => Φ (some (true, k))) := by
  have h1 : (Finset.univ : Finset CI) = insert none ((Finset.univ : Finset (Bool × Fin 16)).map Function.Embedding.some) := by
    ext x; cases x <;> simp
  rw [h1, bigSep_insert (by simp), bigSep_map, bigSep_univ_prod]
  rw [show (Finset.univ : Finset Bool) = insert false {true} from by decide, bigSep_insert (by decide), bigSep_singleton]
  rfl

/-! ## Closing the cells -/

/-- A cell of the launch standing, nothing taken or consumed, at a round from which no round has a duty is closed, and its
    counter is zero. -/
theorem close_cell (ck : Dev nD × CI) (R : ℕ) (hR : ∀ r, R ≤ r → (sched (F := F) m ρ).duties (kcell ck) r = ∅) :
    iprop(records m ρ K ∗ atPos ER (kcell ck) R ∅ 0) ⊢ iprop(|={Set.univ}=> semVal (kcell ck) 0) := by
  iintro ⟨#HR, Hat⟩
  iapply (Rounds.cell_close ER (sched m ρ) (Set.mem_univ (K ck)) (fun h => h) (R := R) hR)
  isplitr
  · iapply (inv_at m ρ K ck); iexact HR
  · iexact Hat

/-- The send and receive cells at offset 0 have no duty at all; the others none after round 0. So with the fifteen used
    pairs past their round and the unused pair untouched, all thirty-two close at zero. -/
theorem close_all (c : Dev nD) :
    iprop(records m ρ K ∗ atPos ER (sendCell c 0) 0 ∅ 0 ∗ atPos ER (recvCell c 0) 0 ∅ 0
        ∗ (bigSep ks fun k => atPos ER (sendCell c k) (0 + 1) ∅ 0) ∗ (bigSep ks fun k => atPos ER (recvCell c k) (0 + 1) ∅ 0))
      ⊢ iprop(|={Set.univ}=> ((bigSep Finset.univ fun k : Fin 16 => semVal (sendCell c k) 0)
          ∗ bigSep Finset.univ fun k : Fin 16 => semVal (recvCell c k) 0)) := by
  have hS0 : ∀ r, 0 ≤ r → (sched (F := F) m ρ).duties (kcell (c, some (false, 0))) r = ∅ := fun r _ => by
    rcases Nat.eq_zero_or_pos r with rfl | h
    · exact duties_send0 m ρ c
    · exact duties_later m ρ _ r h
  have hV0 : ∀ r, 0 ≤ r → (sched (F := F) m ρ).duties (kcell (c, some (true, 0))) r = ∅ := fun r _ => by
    rcases Nat.eq_zero_or_pos r with rfl | h
    · exact duties_recv0 m ρ c
    · exact duties_later m ρ _ r h
  iintro ⟨#HR, HS0, HV0, HS, HV⟩
  imod (close_cell m ρ K (c, some (false, 0)) 0 hS0) $$ [HS0] with HzS0
  · isplitr; · iexact HR
    iexact HS0
  imod (close_cell m ρ K (c, some (true, 0)) 0 hV0) $$ [HV0] with HzV0
  · isplitr; · iexact HR
    iexact HV0
  ihave HS' := (bigSep_with_persistent (S := ks) (R := records m ρ K)
      (Φ := fun k => atPos ER (sendCell c k) (0 + 1) ∅ 0) (Ψ := fun k => iprop(|={Set.univ}=> semVal (sendCell c k) 0))
      (fun k _ => close_cell m ρ K (c, some (false, k)) (0 + 1) (duties_later m ρ _))) $$ [HS]
  · isplitr; · iexact HR
    iexact HS
  ihave HV' := (bigSep_with_persistent (S := ks) (R := records m ρ K)
      (Φ := fun k => atPos ER (recvCell c k) (0 + 1) ∅ 0) (Ψ := fun k => iprop(|={Set.univ}=> semVal (recvCell c k) 0))
      (fun k _ => close_cell m ρ K (c, some (true, k)) (0 + 1) (duties_later m ρ _))) $$ [HV]
  · isplitr; · iexact HR
    iexact HV
  imod (bigSep_fupd ks fun k => semVal (sendCell c k) 0) $$ HS' with HzS
  imod (bigSep_fupd ks fun k => semVal (recvCell c k) 0) $$ HV' with HzV
  imodintro
  rw [bigSep_ks (fun k : Fin 16 => semVal (sendCell c k) 0), bigSep_ks (fun k : Fin 16 => semVal (recvCell c k) 0)]
  isplitl [HzS0 HzS]
  · isplitl [HzS0]; · iexact HzS0
    iexact HzS
  · isplitl [HzV0]; · iexact HzV0
    iexact HzV

/-! ## Row 0 by shares -/

/-- Row 0 held outright at its final contents is a remainder and sixteen read shares of it: the one of offset 0, never
    lent, and one for each of the fifteen copies. -/
theorem row0_split (c : Dev nD) :
    ((rM : Memref sig .tc .vmem S16x1024 .f32).view.loc (c : Thread nD τ) ↦[rowSet c 0]{fullShare} commAt m ρ c : sProp 𝕄)
      ⊢ iprop(((rM : Memref sig .tc .vmem S16x1024 .f32).view.loc (c : Thread nD τ) ↦[rowSet c 0]{shareDrop fullShare 16} commAt m ρ c)
          ∗ row0Pts m ρ c (shr 0) ∗ bigSep ks fun k => row0Pts m ρ c (shr k)) := by
  refine (Transfers.pointsTo_toks_split fullShare 16).trans ?_
  rw [bigSep_ks]
  unfold row0Pts
  exact BI.Entails.refl _

/-- And back. -/
theorem row0_join (c : Dev nD) :
    iprop(((rM : Memref sig .tc .vmem S16x1024 .f32).view.loc (c : Thread nD τ) ↦[rowSet c 0]{shareDrop fullShare 16} commAt m ρ c)
          ∗ row0Pts m ρ c (shr 0) ∗ bigSep ks fun k => row0Pts m ρ c (shr k))
      ⊢ ((rM : Memref sig .tc .vmem S16x1024 .f32).view.loc (c : Thread nD τ) ↦[rowSet c 0]{fullShare} commAt m ρ c : sProp 𝕄) := by
  refine BI.Entails.trans ?_ (Transfers.pointsTo_toks_join fullShare 16)
  rw [bigSep_ks]
  unfold row0Pts
  exact BI.Entails.refl _

/-- info: 'Cert.KernelProof.bigSep_cells' depends on axioms: [propext, Classical.choice, Quot.sound] -/
#guard_msgs in
#print axioms bigSep_cells

/-- info: 'Cert.KernelProof.close_all' depends on axioms: [propext, Classical.choice, Quot.sound] -/
#guard_msgs in
#print axioms close_all

/-- info: 'Cert.KernelProof.row0_split' depends on axioms: [propext, Classical.choice, Quot.sound] -/
#guard_msgs in
#print axioms row0_split

/-- info: 'Cert.KernelProof.row0_join' depends on axioms: [propext, Classical.choice, Quot.sound] -/
#guard_msgs in
#print axioms row0_join

end Cert.KernelProof

end
-- ==== Proof.KLocal.lean ====
import proofs.«900947_g7700000000000948_dist_mean_ax0_shard0_i_m2048_n1024_v7x_i16_f32_1_alg».proof.Proof.KRows
import Idealize.ShloMosaic.Lib.Pipeline.Value

/-! # The body's local memory steps: the column sums stored into row 0, and the final average written out -/

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The rectangles the body's loads and stores go through: all of `x`, row 0 of the table, all of the table, all of the result. -/
abbrev rx : Rect S2048x1024 := Rect.unit (s := S2048x1024) ![0, 0] S2048x1024.size inb_S2048x1024_S2048x1024_0_0
abbrev rr0 : Rect S16x1024 := Rect.unit (s := S16x1024) ![0, 0] S1x1024.size inb_S16x1024_S1x1024_0_0
abbrev rs : Rect S16x1024 := Rect.unit (s := S16x1024) ![0, 0] S16x1024.size inb_S16x1024_S16x1024_0_0
abbrev ro : Rect S1x1024 := Rect.unit (s := S1x1024) ![0, 0] S1x1024.size inb_S1x1024_S1x1024_0_0

theorem hz : (![0, 0] : Fin 2 → Nat) = fun _ => 0 := funext fun a => by fin_cases a <;> rfl

theorem read_x (f : (cc0_stg0_0 : Ref sig .tc).ty.Contents (Elt F)) :
    (xM : Memref sig .tc .vmem S2048x1024 .f32).view.readAt (Elt F) rx.toLoadRect f = f :=
  Memref.readAt_unit_zero (Elt F) cc0_stg0_0 hz _ f
theorem read_s (f : (cc0_scratch0 : Ref sig .tc).ty.Contents (Elt F)) :
    (rM : Memref sig .tc .vmem S16x1024 .f32).view.readAt (Elt F) rs.toLoadRect f = f :=
  Memref.readAt_unit_zero (Elt F) cc0_scratch0 hz _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz _ f w

/-- Row 0's elements are those the access through `rr0` goes to. -/
theorem set_rr0 (c : Dev nD) : ((rM : Memref sig .tc .vmem S16x1024 .f32).access rr0 : View sig .tc _ _ _).set = rowSet c 0 := by
  rw [rowSet_eq]; exact View.set_slice_whole _ _

/-- The only index of a one-row matrix with second coordinate `j 1` is `j`. -/
theorem rowIx_self (j : S1x1024.Idx) : rowIx ⟨(j 1).val, (j 1).isLt⟩ = j := by
  funext a
  fin_cases a
  · have h : (j 0).val < 1 := (j 0).isLt
    exact Fin.ext (by show 0 = (j 0).val; omega)
  · rfl

/-- What the store of the column sums leaves in row 0 is the table's final row 0. -/
theorem stored_eq (c : Dev nD) (f0 : Buf (Elt F) ((rM : Memref sig .tc .vmem S16x1024 .f32).view.loc (c : Thread nD τ))) :
    ∀ i ∈ rowSet c 0,
      ((rM : Memref sig .tc .vmem S16x1024 .f32).access rr0 : View sig .tc _ _ _).write (Elt F) f0 (k0_pay2 (xstg m ρ c)) Finset.univ i
        = commAt m ρ c i := by
  intro i hi
  rw [← set_rr0 c] at hi
  obtain ⟨j, rfl⟩ := View.exists_emb_of_mem_set _ hi
  rw [View.write_emb_of_mem (Val := Elt F) (v := ((rM : Memref sig .tc .vmem S16x1024 .f32).access rr0 : View sig .tc _ _ _)) f0 _ (M := Finset.univ) (Finset.mem_univ j)]
  have h0 : (((((rM : Memref sig .tc .vmem S16x1024 .f32).access rr0 : View sig .tc _ _ _).emb j : (rM : Memref sig .tc .vmem S16x1024 .f32).view.ty.Idx) : S16x1024.Idx) 0).val = (0 : Fin 16).val := by
    have h : (j 0).val < 1 := (j 0).isLt
    show 0 + 1 * (j 0).val = 0
    omega
  have h1 : (((((rM : Memref sig .tc .vmem S16x1024 .f32).access rr0 : View sig .tc _ _ _).emb j : (rM : Memref sig .tc .vmem S16x1024 .f32).view.ty.Idx) : S16x1024.Idx) 1).val = (j 1).val := by
    show 0 + 1 * (j 1).val = (j 1).val
    omega
  rw [commAt_of m ρ c _ 0 ⟨(j 1).val, (j 1).isLt⟩ h0 h1, bwd_zero, rowIx_self]
  rfl

/-- The first three steps: the device's block of `x` is read, and its column sums are stored into row 0 of the table, of
    which the device holds row 0 alone. -/
theorem wp_row0 (c : Dev nD) (f0 : Buf (Elt F) ((rM : Memref sig .tc .vmem S16x1024 .f32).view.loc (c : Thread nD τ)))
    {hlx : (xM : Memref sig .tc .vmem S2048x1024 .f32).view.LoadsAt rx.toLoadRect}
    {hlr : (rM : Memref sig .tc .vmem S16x1024 .f32).view.LoadsAt rr0.toLoadRect}
    {hx : ((rM : Memref sig .tc .vmem S16x1024 .f32).access rr0).Stores Finset.univ}
    {hm : (Finset.univ : Finset rr0.shape.Idx) = Finset.univ ∨ ∀ a, rr0.stride a = 1}
    {α : Type} {Q : α → sProp 𝕄} {kont : PUnit → Prog (TpuEff nD τ sig (Elt F) Λ₀ .tc) α} :
    iprop((((c : Thread nD τ).loc cc0_stg0_0) ↦{fullShare} xstg m ρ c)
        ∗ ((rM : Memref sig .tc .vmem S16x1024 .f32).view.loc (c : Thread nD τ) ↦[rowSet c 0]{fullShare} f0))
      ⊢ iprop((((((c : Thread nD τ).loc cc0_stg0_0) ↦{fullShare} xstg m ρ c)
              ∗ ((rM : Memref sig .tc .vmem S16x1024 .f32).view.loc (c : Thread nD τ) ↦[rowSet c 0]{fullShare} commAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
            (.op (.load xM rx.toLoadRect hlx) fun x => .op (.load rM rr0.toLoadRect hlr) fun _ =>
              .op (.store rM rr0 (k0_pay2 x) Finset.univ hx hm) kont) Q) := by
  iintro ⟨Hx, Hr⟩ Hk
  iapply (wp_load 𝒱₀ (c : Thread nD τ) none Set.univ (m := xM) (Finset.subset_univ _)) $$ Hx; iintro Hx
  rw [read_x]
  iapply (wp_load_rect 𝒱₀ (c : Thread nD τ) none Set.univ (m := rM) (r := rr0) (S := rowSet c 0) (le_of_eq (set_rr0 c))) $$ Hr; iintro Hr
  iapply (wp_store 𝒱₀ (c : Thread nD τ) none Set.univ (m := rM) (r := rr0) (Mk := Finset.univ) (S := rowSet c 0) (le_of_eq (set_rr0 c))) $$ Hr; iintro Hr
  ihave Hr' := (Entails.of_eq (pointsTo_congr (stored_eq m ρ c f0))) $$ Hr
  iapply Hk
  isplitl [Hx]; · iexact Hx
  iexact Hr'

open Idealize.ShloMosaic.Tactic in
/-- The last three steps: the whole table is read, and its sixteen rows added up and scaled are written over the result
    buffer. -/
theorem wp_final (c : Dev nD) (g1 : Buf (Elt F) ((c : Thread nD τ).loc cc0_stg1_0))
    {hls : (rM : Memref sig .tc .vmem S16x1024 .f32).view.LoadsAt rs.toLoadRect}
    {hlo : (oM : Memref sig .tc .vmem S1x1024 .f32).view.LoadsAt ro.toLoadRect}
    {hx : ((oM : Memref sig .tc .vmem S1x1024 .f32).access ro).Stores Finset.univ}
    {hm : (Finset.univ : Finset ro.shape.Idx) = Finset.univ ∨ ∀ a, ro.stride a = 1}
    {α : Type} {Q : α → sProp 𝕄} {kont : PUnit → Prog (TpuEff nD τ sig (Elt F) Λ₀ .tc) α} :
    iprop(scrPts c (commAt m ρ c) ∗ (((c : Thread nD τ).loc cc0_stg1_0) ↦{fullShare} g1))
      ⊢ iprop(((scrPts c (commAt m ρ c) ∗ (((c : Thread nD τ).loc cc0_stg1_0) ↦{fullShare} outAt m ρ c))
            -∗ wp frame (wpE (defs₀ (F := F)) 𝒱₀ (c : Thread nD τ) none) Set.univ (kont ⟨⟩) Q)
          -∗ wp frame (wpE (defs₀ (F := F)) 𝒱₀ (c : Thread nD τ) none) Set.univ
            (.op (.load rM rs.toLoadRect hls) fun x => .op (.load oM ro.toLoadRect hlo) fun _ =>
              .op (.store oM ro (k0_pay1 x) Finset.univ hx hm) kont) Q) := by
  unfold scrPts
  iintro ⟨Hscr, Hout⟩ Hk
  ihave Hout' := (show ((((c : Thread nD τ).loc cc0_stg1_0) ↦{fullShare} g1 : sProp 𝕄))
      ⊢ ((oM : Memref sig .tc .vmem S1x1024 .f32).view.loc (c : Thread nD τ) ↦[(oM : Memref sig .tc .vmem S1x1024 .f32).view.set]{fullShare} g1) from
        Entails.of_eq (by rw [View.set_whole])) $$ Hout
  sl_exec
  have hfin : (oM : Memref sig .tc .vmem S1x1024 .f32).view.writes (Elt F) g1
      [⟨ro, k0_pay1 ((rM : Memref sig .tc .vmem S16x1024 .f32).view.readAt (Elt F) rs.toLoadRect (commAt m ρ c))⟩] = outAt m ρ c := by
    rw [read_s]; exact write_out g1 _
  rw [hfin, View.set_whole]
  iapply Hk
  isplitl [Hscr]; · iexact Hscr
  iexact Hout'

/-- info: 'Cert.KernelProof.wp_row0' depends on axioms: [propext, Classical.choice, Quot.sound] -/
#guard_msgs in #print axioms wp_row0

/-- info: 'Cert.KernelProof.wp_final' depends on axioms: [propext, Classical.choice, Quot.sound] -/
#guard_msgs in #print axioms wp_final

end Cert.KernelProof

end
-- ==== Proof.KWrap.lean ====
import proofs.«900947_g7700000000000948_dist_mean_ax0_shard0_i_m2048_n1024_v7x_i16_f32_1_alg».proof.Proof.KBodyDefs

/-! # From a device's body lemma to the launch theorem's body obligation -/

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The two windows conjoined one by one. -/
theorem bigSep_W (Φ : Fin cfg0.W → sProp 𝕄) : bigSep Finset.univ Φ = iprop(Φ (0 : Fin 2) ∗ Φ (1 : Fin 2)) := bigSep_W0 Φ

/-- The argument's window is fetched at the one grid point. -/
theorem fetch_0 (t : Fin cfg0.N) : (cfg0.win (0 : Fin 2)).fetch t = true := by rw [fin_N t]; rfl

/-- Owning a whole buffer at given contents is the points-to of the buffer at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point, the two windows written out. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- A body lemma stated from `bodyPre` to `bodyPost`, for every choice of the invariants' names, is the library's body
    obligation on device `c`: the names come out of the starting state, and the rest is regrouped. -/
theorem body_obligation_of
    (hsound : ∀ (K : Dev nD × CI → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) cc0_scratch1 cc0_scratch2) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (hsound K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelProof.body_obligation_of' depends on axioms: [propext, Classical.choice, Quot.sound] -/
#guard_msgs in #print axioms body_obligation_of

end Cert.KernelProof

end
-- ==== Proof.KStates.lean ====
import proofs.«900947_g7700000000000948_dist_mean_ax0_shard0_i_m2048_n1024_v7x_i16_f32_1_alg».proof.Proof.KSteps2

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # Entering and leaving each phase of the body: the assertions over "still to do / done" at their two ends -/

variable (K : Dev nD × CI → ℕ)

theorem sigSt_intro (c : Dev nD) (W : Waits sig Unit) (f0 : Buf (Elt F) ((rM : Memref sig .tc .vmem S16x1024 .f32).view.loc (c : Thread nD τ))) :
    iprop(owes (c : Thread nD τ) (O₀ c) W ∗ (bigSep ks fun k => dutyTok ER (barCell (bwd c k)) 0 k)
        ∗ (bigSep ks fun k => ((rM : Memref sig .tc .vmem S16x1024 .f32).view.loc (c : Thread nD τ) ↦[rowSet c k]{fullShare} f0 : sProp 𝕄)))
      ⊢ sigSt (F := F) c (upto 15) := by
  rw [upto_all]
  unfold sigSt O₀
  iintro ⟨HO, HT, HR⟩
  isplitl [HO]; · iexists W; iexact HO
  isplitl [HT]; · iexact HT
  have hrows : (bigSep ks fun k => ((rM : Memref sig .tc .vmem S16x1024 .f32).view.loc (c : Thread nD τ) ↦[rowSet c k]{fullShare} f0 : sProp 𝕄))
      ⊢ bigSep ks fun k => iprop(∃ f, (rM : Memref sig .tc .vmem S16x1024 .f32).view.loc (c : Thread nD τ) ↦[rowSet c k]{fullShare} f) :=
    bigSep_mono fun k _ =>
      show ((rM : Memref sig .tc .vmem S16x1024 .f32).view.loc (c : Thread nD τ) ↦[rowSet c k]{fullShare} f0 : sProp 𝕄)
        ⊢ iprop(∃ f, (rM : Memref sig .tc .vmem S16x1024 .f32).view.loc (c : Thread nD τ) ↦[rowSet c k]{fullShare} f) from by
          iintro H; iexists f0; iexact H
  iapply hrows
  iexact HR

theorem sigSt_elim (c : Dev nD) : sigSt (F := F) c (upto 0) ⊢ iprop((∃ W, owes (c : Thread nD τ) (Ocpy c ks) W)) := by
  rw [upto_zero]
  unfold sigSt
  rw [Osig_empty, add_zero]
  iintro ⟨HO, -, -⟩
  iexact HO

theorem cpySt2_intro (c : Dev nD) :
    iprop((∃ W, owes (c : Thread nD τ) (Ocpy c ks) W) ∗ (bigSep ks fun k => dutyTok ER (recvCell (fwd c k) k) 0 0)
        ∗ (bigSep ks fun k => dutyTok ER (sendCell c k) 0 0) ∗ (bigSep ks fun k => row0Pts m ρ c (shr k)) ∗ bigSep ks fun k => barPay (F := F) c k)
      ⊢ cpySt2 m ρ c (frm 1) (upto 0) := by
  rw [frm_one, upto_zero]
  unfold cpySt2 cpySt
  rw [bigSep_empty]
  iintro ⟨HO, H1, H2, H3, H4⟩
  isplitl
  · isplitl [HO]; · iexact HO
    isplitl [H1]; · iexact H1
    isplitl [H2]; · iexact H2
    isplitl [H3]; · iexact H3
    iexact H4
  · iempintro

theorem cpySt2_elim (c : Dev nD) :
    cpySt2 m ρ c (frm 16) (upto 15) ⊢ iprop((∃ W, owes (c : Thread nD τ) 0 W) ∗ bigSep ks fun k => cred (tallyAt (sendCell c k) () N)) := by
  rw [frm_end, upto_all]
  unfold cpySt2 cpySt
  rw [Ocpy_empty]
  iintro ⟨⟨HO, -, -, -, -⟩, HD⟩
  isplitl [HO]; · iexact HO
  iexact HD

/-- Row 0 and the fifteen landed rows, all at their final contents, are the table at its final contents. -/
theorem rows_join (c : Dev nD) :
    iprop(((rM : Memref sig .tc .vmem S16x1024 .f32).view.loc (c : Thread nD τ) ↦[rowSet c 0]{fullShare} commAt m ρ c) ∗ bigSep ks fun k => rowPts c k (commAt m ρ c))
      ⊢ scrPts c (commAt m ρ c) := by
  rw [scr_rows, bigSep_ks]
  exact Entails.refl _

end Cert.KernelProof
end
-- ==== Proof.KStates2.lean ====
import proofs.«900947_g7700000000000948_dist_mean_ax0_shard0_i_m2048_n1024_v7x_i16_f32_1_alg».proof.Proof.KSteps2

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # Entering and leaving the two waiting phases of the body -/

variable (K : Dev nD × CI → ℕ)

theorem rcvSt_intro (c : Dev nD) :
    iprop((∃ W, owes (c : Thread nD τ) 0 W) ∗ (bigSep ks fun k => cred (tallyAt (recvCell c k) () N)) ∗ (bigSep ks fun k => atPos ER (recvCell c k) 0 ∅ 0))
      ⊢ rcvSt m ρ c (frm 1) (upto 0) := by
  rw [frm_one, upto_zero]
  unfold rcvSt
  rw [bigSep_empty, bigSep_sep']
  iintro ⟨HO, HC, HA⟩
  isplitl [HO]; · iexact HO
  isplitl [HC HA]
  · isplitl [HC]; · iexact HC
    iexact HA
  · iempintro

theorem rcvSt_elim (c : Dev nD) :
    rcvSt m ρ c (frm 16) (upto 15)
      ⊢ iprop((∃ W, owes (c : Thread nD τ) 0 W) ∗ (bigSep ks fun k => atPos ER (recvCell c k) (0 + 1) ∅ 0) ∗ bigSep ks fun k => rowPts c k (commAt m ρ c)) := by
  rw [frm_end, upto_all]
  unfold rcvSt
  rw [bigSep_empty, bigSep_sep']
  iintro ⟨HO, -, HA, HR⟩
  isplitl [HO]; · iexact HO
  isplitl [HA]; · iexact HA
  iexact HR

theorem sndSt_intro (c : Dev nD) :
    iprop((∃ W, owes (c : Thread nD τ) 0 W) ∗ (bigSep ks fun k => cred (tallyAt (sendCell c k) () N)) ∗ (bigSep ks fun k => atPos ER (sendCell c k) 0 ∅ 0))
      ⊢ sndSt m ρ c (frm 1) (upto 0) := by
  rw [frm_one, upto_zero]
  unfold sndSt
  rw [bigSep_empty, bigSep_sep']
  iintro ⟨HO, HC, HA⟩
  isplitl [HO]; · iexact HO
  isplitl [HC HA]
  · isplitl [HC]; · iexact HC
    iexact HA
  · iempintro

theorem sndSt_elim (c : Dev nD) :
    sndSt m ρ c (frm 16) (upto 15)
      ⊢ iprop((∃ W, owes (c : Thread nD τ) 0 W) ∗ (bigSep ks fun k => atPos ER (sendCell c k) (0 + 1) ∅ 0) ∗ bigSep ks fun k => row0Pts m ρ c (shr k)) := by
  rw [frm_end, upto_all]
  unfold sndSt
  rw [bigSep_empty, bigSep_sep']
  iintro ⟨HO, -, HA, HR⟩
  isplitl [HO]; · iexact HO
  isplitl [HA]; · iexact HA
  iexact HR

/-- info: 'Cert.KernelProof.rcvSt_intro' depends on axioms: [propext, Classical.choice, Quot.sound] -/
#guard_msgs in #print axioms rcvSt_intro

/-- info: 'Cert.KernelProof.rcvSt_elim' depends on axioms: [propext, Classical.choice, Quot.sound] -/
#guard_msgs in #print axioms rcvSt_elim

/-- info: 'Cert.KernelProof.sndSt_intro' depends on axioms: [propext, Classical.choice, Quot.sound] -/
#guard_msgs in #print axioms sndSt_intro

/-- info: 'Cert.KernelProof.sndSt_elim' depends on axioms: [propext, Classical.choice, Quot.sound] -/
#guard_msgs in #print axioms sndSt_elim

end Cert.KernelProof
end
-- ==== Proof.KBody.lean ====
import proofs.«900947_g7700000000000948_dist_mean_ax0_shard0_i_m2048_n1024_v7x_i16_f32_1_alg».proof.Proof.KSteps2
import proofs.«900947_g7700000000000948_dist_mean_ax0_shard0_i_m2048_n1024_v7x_i16_f32_1_alg».proof.Proof.KDevs
import proofs.«900947_g7700000000000948_dist_mean_ax0_shard0_i_m2048_n1024_v7x_i16_f32_1_alg».proof.Proof.KBodyDefs
import proofs.«900947_g7700000000000948_dist_mean_ax0_shard0_i_m2048_n1024_v7x_i16_f32_1_alg».proof.Proof.KClose
import proofs.«900947_g7700000000000948_dist_mean_ax0_shard0_i_m2048_n1024_v7x_i16_f32_1_alg».proof.Proof.KLocal
import proofs.«900947_g7700000000000948_dist_mean_ax0_shard0_i_m2048_n1024_v7x_i16_f32_1_alg».proof.Proof.KWrap
import proofs.«900947_g7700000000000948_dist_mean_ax0_shard0_i_m2048_n1024_v7x_i16_f32_1_alg».proof.Proof.KStates
import proofs.«900947_g7700000000000948_dist_mean_ax0_shard0_i_m2048_n1024_v7x_i16_f32_1_alg».proof.Proof.KStates2

noncomputable section
namespace Cert.KernelProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ UU ℕ

/-! # One device's body

In program order: fifteen signals, each handing one own row to the device that will fill it; the column sums of the
own block stored into row 0; the wait for the fifteen signals of the others, which brings the fifteen target rows;
fifteen copies of row 0, each reading from its own share of it; the fifteen landings, each bringing an own row back
at its final contents; the fifteen departures, each bringing a share of row 0 back; then the table whole again,
the own cells closed, and the average of the sixteen rows written out. -/

variable (K : Dev nD × CI → ℕ)

set_option hygiene false in
/-- Signal `k`: from the offsets up to `k` still to signal, to those up to `k'`. -/
macro "sig_step " k:num k':num : tactic => `(tactic| (
  iapply (wp_sig2 m ρ K c (upto $k) (upto $k') ($k : Fin 16) (by decide) (by decide) (by decide)) $$ [Hst]
  · isplitr
    · iexact HR
    · iexact Hst
  iintro Hst))

set_option hygiene false in
/-- Copy `k`, addressed to the device the chain `hdev` names: the offsets from `k` on still to copy and those up to `k0` done,
    to from `k1` on and up to `k`. -/
macro "cpy_step " k0:num k:num k1:num hdev:ident : tactic => `(tactic| (
  iapply (wp_cpy2 m ρ K c (frm $k) (upto $k0) (frm $k1) (upto $k) ($k : Fin 16) (by decide) (by decide) (by decide) (by decide) (by decide) _ ($hdev c)) $$ [Hst]
  · isplitr
    · iexact HR
    · iexact Hst
  iintro Hst))

set_option hygiene false in
macro "rcv_step " k0:num k:num k1:num : tactic => `(tactic| (
  iapply (wp_rcv2 m ρ K c (frm $k) (upto $k0) (frm $k1) (upto $k) ($k : Fin 16) (by decide) (by decide) (by decide) (by decide) (by decide)) $$ [Hst]
  · isplitr
    · iexact HR
    · iexact Hst
  iintro Hst))

set_option hygiene false in
macro "snd_step " k0:num k:num k1:num : tactic => `(tactic| (
  iapply (wp_sndw2 m ρ K c (frm $k) (upto $k0) (frm $k1) (upto $k) ($k : Fin 16) (by decide) (by decide) (by decide) (by decide) (by decide)) $$ [Hst]
  · isplitr
    · iexact HR
    · iexact Hst
  iintro Hst))

set_option maxHeartbeats 8000000 in
set_option maxRecDepth 8000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold cc0_body
  simp only [k0_part1, k0_part2, k0_part3, k0_part4, k0_part5, k0_part6, k0_part7, k0_part8, k0_part9, k0_part10, k0_part11, k0_part12,
    k0_part13, k0_part14, k0_part15, k0_part16, k0_part17, k0_part18, k0_part19, k0_part20, k0_part21, k0_part22, k0_part23,
    semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c,
    dev12_eq c, dev13_eq c, dev14_eq c, dev15_eq c]
  unfold bodyPre ghost
  iintro ⟨⟨⟨⟨#HR, Hpos, Htoks⟩, HcB, HcV, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the table row by row; the tokens; the positions cell by cell
  ihave Hrows := (Entails.of_eq ((scr_rows c f0).trans (bigSep_ks _))) $$ Hscr
  icases Hrows with ⟨Hrow0, Hrows⟩
  unfold payToks
  icases Htoks with ⟨HtB, HtV, HtS⟩
  unfold poss
  ihave Hp := (Entails.of_eq (bigSep_cells (fun j : CI => (atPos ER (kcell (c, j)) 0 ∅ 0 : sProp 𝕄)))) $$ Hpos
  icases Hp with ⟨HatB, HatS, HatV⟩
  ihave HatS' := (Entails.of_eq (bigSep_ks (fun k : Fin 16 => (atPos ER (kcell (c, some (false, k))) 0 ∅ 0 : sProp 𝕄)))) $$ HatS
  icases HatS' with ⟨HatS0, HatS⟩
  ihave HatV' := (Entails.of_eq (bigSep_ks (fun k : Fin 16 => (atPos ER (kcell (c, some (true, k))) 0 ∅ 0 : sProp 𝕄)))) $$ HatV
  icases HatV' with ⟨HatV0, HatV⟩
  -- the fifteen signals, to the devices 15, 14, …, 1 places back
  ihave Hst := (sigSt_intro c W f0) $$ [HO HtB Hrows]
  · isplitl [HO]; · iexact HO
    isplitl [HtB]; · iexact HtB
    iexact Hrows
  sig_step 15 14
  sig_step 14 13
  sig_step 13 12
  sig_step 12 11
  sig_step 11 10
  sig_step 10 9
  sig_step 9 8
  sig_step 8 7
  sig_step 7 6
  sig_step 6 5
  sig_step 5 4
  sig_step 4 3
  sig_step 3 2
  sig_step 2 1
  sig_step 1 0
  ihave HO := (sigSt_elim c) $$ Hst
  -- the column sums of the own block into row 0
  iapply (wp_row0 m ρ c f0) $$ [Hx Hrow0]
  · isplitl [Hx]; · iexact Hx
    iexact Hrow0
  iintro ⟨Hx, Hrow0⟩
  -- the wait for the fifteen signals of the others: the rows to fill come with it
  iapply (wp_bar m ρ K c) $$ [HO HcB HatB]
  · isplitr; · iexact HR
    isplitr; · iexact Hlev
    isplitl [HO]; · iexact HO
    isplitl [HcB]; · iexact HcB
    iexact HatB
  iintro ⟨HO, HatB, Hbp⟩
  -- row 0 shared out among the fifteen copies
  ihave Hsh := (row0_split m ρ c) $$ Hrow0
  icases Hsh with ⟨Hdrop, Hsh0, Hsh⟩
  ihave Hst := (cpySt2_intro m ρ c) $$ [HO HtV HtS Hsh Hbp]
  · isplitl [HO]; · iexact HO
    isplitl [HtV]; · iexact HtV
    isplitl [HtS]; · iexact HtS
    isplitl [Hsh]; · iexact Hsh
    iexact Hbp
  cpy_step 0 1 2 dev16_eq
  cpy_step 1 2 3 dev17_eq
  cpy_step 2 3 4 dev18_eq
  cpy_step 3 4 5 dev19_eq
  cpy_step 4 5 6 dev20_eq
  cpy_step 5 6 7 dev21_eq
  cpy_step 6 7 8 dev22_eq
  cpy_step 7 8 9 dev23_eq
  cpy_step 8 9 10 dev24_eq
  cpy_step 9 10 11 dev25_eq
  cpy_step 10 11 12 dev26_eq
  cpy_step 11 12 13 dev27_eq
  cpy_step 12 13 14 dev28_eq
  cpy_step 13 14 15 dev29_eq
  cpy_step 14 15 16 dev30_eq
  ihave H := (cpySt2_elim m ρ c) $$ Hst
  icases H with ⟨HO, HcS⟩
  -- the fifteen landings
  ihave Hst := (rcvSt_intro m ρ c) $$ [HO HcV HatV]
  · isplitl [HO]; · iexact HO
    isplitl [HcV]; · iexact HcV
    iexact HatV
  rcv_step 0 1 2
  rcv_step 1 2 3
  rcv_step 2 3 4
  rcv_step 3 4 5
  rcv_step 4 5 6
  rcv_step 5 6 7
  rcv_step 6 7 8
  rcv_step 7 8 9
  rcv_step 8 9 10
  rcv_step 9 10 11
  rcv_step 10 11 12
  rcv_step 11 12 13
  rcv_step 12 13 14
  rcv_step 13 14 15
  rcv_step 14 15 16
  ihave H := (rcvSt_elim m ρ c) $$ Hst
  icases H with ⟨HO, HatV, Hrowsk⟩
  -- the fifteen departures
  ihave Hst := (sndSt_intro m ρ c) $$ [HO HcS HatS]
  · isplitl [HO]; · iexact HO
    isplitl [HcS]; · iexact HcS
    iexact HatS
  snd_step 0 1 2
  snd_step 1 2 3
  snd_step 2 3 4
  snd_step 3 4 5
  snd_step 4 5 6
  snd_step 5 6 7
  snd_step 6 7 8
  snd_step 7 8 9
  snd_step 8 9 10
  snd_step 9 10 11
  snd_step 10 11 12
  snd_step 11 12 13
  snd_step 12 13 14
  snd_step 13 14 15
  snd_step 14 15 16
  ihave H := (sndSt_elim m ρ c) $$ Hst
  icases H with ⟨HO, HatS, Hsh⟩
  -- the table whole again
  ihave Hrow0 := (row0_join m ρ c) $$ [Hdrop Hsh0 Hsh]
  · isplitl [Hdrop]; · iexact Hdrop
    isplitl [Hsh0]; · iexact Hsh0
    iexact Hsh
  ihave Hscr := (rows_join m ρ c) $$ [Hrow0 Hrowsk]
  · isplitl [Hrow0]; · iexact Hrow0
    iexact Hrowsk
  -- the thirty-two own cells close: their counters at zero are the device's again
  imod (close_all m ρ K c) $$ [HatS0 HatV0 HatS HatV] with ⟨HzS, HzV⟩
  · isplitr; · iexact HR
    isplitl [HatS0]; · iexact HatS0
    isplitl [HatV0]; · iexact HatV0
    isplitl [HatS]; · iexact HatS
    iexact HatV
  -- the sixteen rows added up, scaled, and stored
  iapply (wp_final m ρ c g1) $$ [Hscr Hout]
  · isplitl [Hscr]; · iexact Hscr
    iexact Hout
  iintro ⟨Hscr, Hout⟩
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexact Hscr
    isplitl [HzS]; · iexact HzS
    iexact HzV
  isplitl [HO]
  · icases HO with ⟨%Wf, HO⟩
    iexists Wf
    isplitr; · ipureintro; exact fun _ _ => Or.inl trivial
    iexact HO
  isplitl [Hx]
  · iexists _; isplitr; · (ipureintro; rfl)
    iexact Hx
  iexists _; isplitr; · (ipureintro; rfl)
  iexact Hout

/-- The library's body obligation on device `c`. -/
theorem body_obligation (c : Dev nD) : BodyObligation (dats (F := F) m ρ 0 c) (defs₀ (F := F)) 𝒱₀ () Set.univ :=
  body_obligation_of m ρ (fun K c Kt => sound_body m ρ K c Kt) c

/-- info: 'Cert.KernelProof.body_obligation' depends on axioms: [propext, Classical.choice, Quot.sound] -/
#guard_msgs in #print axioms body_obligation

end Cert.KernelProof
end
-- ==== Proof.KLaunch.lean ====
import proofs.«900947_g7700000000000948_dist_mean_ax0_shard0_i_m2048_n1024_v7x_i16_f32_1_alg».proof.Proof.KProto

/-! # The launch: from every device's body to the run of the whole program -/

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The kernel's own semaphores, the cells, the tokens -/

/-- The kernel's own thirty-two semaphores: the send cells (`false`) and the receive cells (`true`). -/
abbrev osem : Bool × Fin 16 → SemLoc sig := fun bk => csem (some bk)

theorem slot_csem (j : CI) : slot (csem j) = j := by
  rcases j with _ | ⟨_ | _, k⟩
  · exact slot_bar
  · exact slot_send k
  · exact slot_recv k

theorem csem_injective : Function.Injective csem := Function.LeftInverse.injective slot_csem

theorem ownSemFacts : Pipeline.OwnSemFacts cfg0.spec osem := by
  refine ⟨?_, fun a b h => Option.some.inj (csem_injective h), ?_⟩
  · rintro ⟨_ | _, k⟩ <;> revert k <;> decide
  · rintro ⟨_ | _, k⟩ w s <;> revert k w s <;> decide

theorem share_eq (c : Dev nD) (w : Fin cfg0.W) : (dats m ρ 0 c).share w = fullShare := by unfold Dat.share; split <;> rfl

theorem kcell_injective : Function.Injective (kcell : Dev nD × CI → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

/-- Every device's thirty-three cells. -/
def allCells : Finset (GSem nD τ sig) := Finset.univ.map ⟨kcell, kcell_injective⟩

/-- The names of the duty tokens minted for a device's own cells: a barrier duty per offset, one duty per send and per
    receive cell. -/
abbrev TI : Type := Fin 16 ⊕ (Bool × Fin 16)
abbrev tokOf (x : Dev nD × TI) : GSem nD τ sig × ℕ × Fin 16 := match x.2 with
  | .inl k => (kcell (x.1, none), 0, k)
  | .inr bk => (kcell (x.1, some bk), 0, 0)

theorem tokOf_injective : Function.Injective (tokOf : Dev nD × TI → GSem nD τ sig × ℕ × Fin 16) := by
  rintro ⟨c, j⟩ ⟨c', j'⟩ h
  have hc : c = c' := by
    rcases j with k | bk <;> rcases j' with k' | bk' <;> exact congrArg (fun x : GSem nD τ sig × ℕ × Fin 16 => x.1.1.1) h
  subst hc
  rcases j with k | bk <;> rcases j' with k' | bk'
  · have hk : k = k' := congrArg (fun x : GSem nD τ sig × ℕ × Fin 16 => x.2.2) h
    rw [hk]
  · have hb : csem none = csem (some bk') := congrArg (fun x : GSem nD τ sig × ℕ × Fin 16 => x.1.2) h
    exact absurd (csem_injective hb) (fun h' => by cases h')
  · have hb : csem (some bk) = csem none := congrArg (fun x : GSem nD τ sig × ℕ × Fin 16 => x.1.2) h
    exact absurd (csem_injective hb) (fun h' => by cases h')
  · have hb : csem (some bk) = csem (some bk') := congrArg (fun x : GSem nD τ sig × ℕ × Fin 16 => x.1.2) h
    rw [Option.some.inj (csem_injective hb)]

def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 16 => dutyTok ER (barCell c) 0 k)
    ∗ bigSep Finset.univ fun bk : Bool × Fin 16 => dutyTok ER (kcell (c, some bk)) 0 0)

/-- What the launch element deals device `c`: the round state of each of its cells, its positions and reached-marks,
    the tokens of its cells' duties. -/
def G (c : Dev nD) : sProp 𝕄 :=
  iprop((bigSep Finset.univ fun j : CI => roundState ER (sched m ρ) (kcell (c, j)) 0)
    ∗ (bigSep Finset.univ fun j : CI => iprop(atPos ER (kcell (c, j)) 0 ∅ 0 ∗ reached ER (kcell (c, j)) 0)) ∗ toks c)

/-- What the global step makes of it. -/
def G' (c : Dev nD) : sProp 𝕄 := iprop(∃ K, ghost m ρ K c)

theorem bigSep_CI (Φ : CI → sProp 𝕄) :
    bigSep Finset.univ Φ = iprop(Φ none ∗ bigSep Finset.univ fun bk : Bool × Fin 16 => Φ (some bk)) := by
  rw [bigSep_univ_at Φ none,
    show ((Finset.univ : Finset CI).erase none) = Finset.univ.map Function.Embedding.some from by
      ext x; cases x <;> simp,
    bigSep_map]
  rfl

theorem bigSep_bool (Φ : Bool → sProp 𝕄) : bigSep Finset.univ Φ = iprop(Φ false ∗ Φ true) :=
  bigSep_univ_eq_bigSepL [false, true] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : CI => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants allocated -/

theorem ownSems0_eq (c : Dev nD) : (Pipeline.ownSems0 (Ix := Unit) (Name := ℕ) (U := UU) (Lvl := ℕ) (Val := Elt F) (τ := τ) osem c : sProp 𝕄)
    = bigSep Finset.univ fun bk : Bool × Fin 16 => semVal (kcell (c, some bk)) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CI => semVal (kcell (c, j)) 0 : sProp 𝕄) := by
  rw [ownSems0_eq, unscopedSems0_eq, bigSep_CI]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : CI => iprop(∃ κ : ℕ, cellInv ER (sched m ρ) κ (kcell (c, j))))
          ∗ (bigSep Finset.univ fun j : CI => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CI => semVal (kcell (c, j)) 0) ∗ bigSep Finset.univ fun j : CI => roundState ER (sched m ρ) (kcell (c, j)) 0)
      ⊢ (|={Set.univ}=> bigSep Finset.univ fun j : CI => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay with them -/

/-- What stays with device `c` besides the records: its positions, and the tokens of the duties it pays. -/
def linear (c : Dev nD) : sProp 𝕄 := iprop(poss c ∗ payToks c)

theorem ghost_intro (K : Dev nD × CI → ℕ) (c : Dev nD) : iprop(records m ρ K ∗ linear c) ⊢ G' m ρ c := by
  unfold linear G' ghost
  iintro ⟨HR, HP, HT⟩
  iexists K
  isplitl [HR]; · iexact HR
  isplitl [HP]; · iexact HP
  iexact HT

/-- A family of assertions indexed by (device, offset), every offset's row moved along a bijection of the devices and the
    unused offset 0 dropped. -/
theorem deal (Ψ : Dev nD → Fin 16 → sProp 𝕄) (f finv : Fin 16 → Dev nD → Dev nD)
    (h1 : ∀ k c, finv k (f k c) = c) (h2 : ∀ k c, f k (finv k c) = c) :
    (bigSep Finset.univ fun c : Dev nD => bigSep Finset.univ fun k : Fin 16 => Ψ c k)
      ⊢ bigSep Finset.univ fun c : Dev nD => bigSep ks fun k : Fin 16 => Ψ (f k c) k := by
  rw [bigSep_univ_comm]
  refine (Entails.of_eq (bigSep_congr (s := Finset.univ) fun (k : Fin 16) _ =>
    bigSep_univ_equiv (⟨f k, finv k, h1 k, h2 k⟩ : Dev nD ≃ Dev nD) (fun c => Ψ c k))).trans ?_
  show (bigSep Finset.univ fun k : Fin 16 => bigSep Finset.univ fun a : Dev nD => Ψ (f k a) k) ⊢ _
  rw [← bigSep_univ_comm (fun (c : Dev nD) (k : Fin 16) => Ψ (f k c) k)]
  exact bigSep_mono fun c _ => bigSep_subset (Finset.subset_univ ks)

theorem toks_eq (c : Dev nD) : (toks c : sProp 𝕄) = iprop((bigSep Finset.univ fun k : Fin 16 => dutyTok ER (barCell c) 0 k)
    ∗ (bigSep Finset.univ fun k : Fin 16 => dutyTok ER (sendCell c k) 0 0) ∗ bigSep Finset.univ fun k : Fin 16 => dutyTok ER (recvCell c k) 0 0) := by
  unfold toks; rw [bigSep_univ_prod, bigSep_bool]

/-- The tokens dealt around: duty `k` of a barrier cell goes to the device `k` places on (which pays it), the duty of
    receive cell `k` to the device `k` places back (whose copy pays it), a send cell's duty stays. -/
theorem toks_around : (bigSep Finset.univ fun c : Dev nD => (toks c : sProp 𝕄)) ⊢ bigSep Finset.univ fun c : Dev nD => payToks c := by
  unfold payToks
  rw [bigSep_congr (s := Finset.univ) (fun (c : Dev nD) _ => toks_eq (F := F) c), bigSep_sep', bigSep_sep', bigSep_sep', bigSep_sep']
  iintro ⟨H1, H2, H3⟩
  isplitl [H1]
  · iapply (deal (fun c k => (dutyTok ER (barCell c) 0 k : sProp 𝕄)) (fun k c => bwd c k) (fun k c => fwd c k) (fun k c => fwd_bwd c k) (fun k c => bwd_fwd c k))
    iexact H1
  isplitl [H3]
  · iapply (deal (fun c k => (dutyTok ER (recvCell c k) 0 0 : sProp 𝕄)) (fun k c => fwd c k) (fun k c => bwd c k) (fun k c => bwd_fwd c k) (fun k c => fwd_bwd c k))
    iexact H3
  iapply (deal (fun c k => (dutyTok ER (sendCell c k) 0 0 : sProp 𝕄)) (fun _ c => c) (fun _ c => c) (fun _ _ => rfl) (fun _ _ => rfl))
  iexact H2

theorem regroup :
    (bigSep Finset.univ fun c : Dev nD => iprop((bigSep Finset.univ fun j : CI => iprop(∃ κ : ℕ, cellInv ER (sched m ρ) κ (kcell (c, j))))
          ∗ (bigSep Finset.univ fun j : CI => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun j : CI => (atPos ER (kcell (c, j)) 0 ∅ 0 : sProp 𝕄)) (fun j => reached ER (kcell (c, j)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => (poss c : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem nsmul_tallyAt (g : GSem nD τ sig) (n a : ℕ) : n • (tallyAt g () a : CellTallies nD τ sig Unit) = tallyAt g () (n * a) := by
  induction n with
  | zero => rw [zero_nsmul, Nat.zero_mul, tallyAt_zero]
  | succ n ih => rw [succ_nsmul, ih, tallyAt_add, Nat.succ_mul]

theorem card_ks : ks.card = 15 := by decide

/-- Fifteen unit credits on one cell are one credit of fifteen. -/
theorem cred_bar15 (c : Dev nD) :
    (bigSep ks fun _ : Fin 16 => (cred (tallyAt (barCell c) () 1) : sProp 𝕄)) ⊢ cred (tallyAt (barCell c) () 15) := by
  rw [← Pipeline.cred_finsetSum, Finset.sum_const, card_ks, nsmul_tallyAt]

/-- Each device's barrier cell is owed a unit by the fifteen others, and its receive cell `k` a row by the device `k` places
    back: the credit the launch deals it. -/
theorem creds (c : Dev nD) :
    (Pipeline.launchCred O₀ c : sProp 𝕄) ⊢ iprop(cred (tallyAt (barCell c) () 15) ∗ bigSep ks fun k => cred (tallyAt (recvCell c k) () N)) := by
  rw [show (O₀ : Dev nD → CellTallies nD τ sig Unit)
      = fun d => (∑ k ∈ ks, (fun (k : Fin 16) (d : Dev nD) => tallyAt (recvCell (fwd d k) k) () N) k d)
        + ∑ k ∈ ks, (fun (k : Fin 16) (d : Dev nD) => tallyAt (barCell (bwd d k)) () 1) k d from rfl,
    Pipeline.launchCred_add, Pipeline.launchCred_sum, Pipeline.launchCred_sum]
  have hB : (bigSep ks fun k : Fin 16 => (Pipeline.launchCred (fun d : Dev nD => tallyAt (barCell (bwd d k)) () 1) c : sProp 𝕄))
      ⊢ cred (tallyAt (barCell c) () 15) :=
    (bigSep_mono fun (k : Fin 16) _ => Pipeline.launchCred_tallyAt (.reg barS) (fun d => bwd d k) (fun d => fwd d k)
      (fun c => bwd_fwd c k) (fun d => fwd_bwd d k) () 1 c).trans (cred_bar15 c)
  have hR : (bigSep ks fun k : Fin 16 => (Pipeline.launchCred (fun d : Dev nD => tallyAt (recvCell (fwd d k) k) () N) c : sProp 𝕄))
      ⊢ bigSep ks fun k : Fin 16 => cred (tallyAt (recvCell c k) () N) :=
    bigSep_mono fun (k : Fin 16) _ => Pipeline.launchCred_tallyAt (.dma (recvS k)) (fun d => fwd d k) (fun d => bwd d k)
      (fun c => fwd_bwd c k) (fun d => bwd_fwd d k) () N c
  iintro ⟨HR, HB⟩
  isplitl [HB]
  · iapply hB; iexact HB
  · iapply hR; iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem scrPts_eq (c : Dev nD) (f : Buf (Elt F) ((c : Thread nD τ).loc cc0_scratch0)) :
    scrPts c f = (((c : Thread nD τ).loc cc0_scratch0) ↦{fullShare} f : sProp 𝕄) := by unfold scrPts; rw [View.set_whole]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq, bigSep_univ_prod, bigSep_bool]
  unfold Φ₁
  iintro ⟨Hr, HzS, HzV⟩
  isplitr; · iempintro
  isplitl [HzS HzV]
  · isplitl [HzS] <;> iassumption
  iexists (commAt m ρ c); rw [← scrPts_eq]; iexact Hr

/-! ## The waits on the staging cells -/

/-- What a device owes at launch is owed to a receive cell or to a barrier cell. -/
theorem O₀_pos {c : Dev nD} {g : GSem nD τ sig} {u : Unit} (h : 0 < O₀ c g u) :
    (∃ k : Fin 16, g = recvCell (fwd c k) k) ∨ ∃ k : Fin 16, g = barCell (bwd c k) := by
  unfold O₀ Ocpy Osig at h
  rcases Pipeline.add_pos_cases h with h | h
  · obtain ⟨k, -, hk⟩ := Pipeline.sum_pos_exists h
    rw [tallyAt_apply] at hk
    by_cases hg : g = recvCell (fwd c k) k ∧ u = ()
    · exact Or.inl ⟨k, hg.1⟩
    · rw [if_neg hg] at hk; exact absurd hk (Nat.lt_irrefl 0)
  · obtain ⟨k, -, hk⟩ := Pipeline.sum_pos_exists h
    rw [tallyAt_apply] at hk
    by_cases hg : g = barCell (bwd c k) ∧ u = ()
    · exact Or.inr ⟨k, hg.1⟩
    · rw [if_neg hg] at hk; exact absurd hk (Nat.lt_irrefl 0)

/-- A staging cell sits at level 0, below every cell a device owes to: it may be waited on whatever the device still owes. -/
theorem mayWait_stage (c : Dev nD) (q : DmaSem sig) (hq : (slot (.dma q)).map Prod.fst ≠ some true) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [show lv ((c : Thread nD τ), .dma q) () = 0 from by dsimp only [lv]; rw [if_neg (fun h => by cases h), if_neg hq]]
    rcases O₀_pos hg with ⟨k, rfl⟩ | ⟨k, rfl⟩
    · rw [L_tc, lv_recv]; exact ⟨Finset.mem_singleton_self _, by decide⟩
    · rw [L_tc, lv_bar]; exact ⟨Finset.mem_singleton_self _, by decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array after the run, as the pipeline's proof data compute it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of sixteen devices, for any float values, from any memory with zero counters: if every device's
    body meets its obligation, every weakly fair execution of @main terminates, and every final state has each
    device's two windowed arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.KFinal.lean ====
import proofs.«900947_g7700000000000948_dist_mean_ax0_shard0_i_m2048_n1024_v7x_i16_f32_1_alg».proof.Proof.KLaunch
import proofs.«900947_g7700000000000948_dist_mean_ax0_shard0_i_m2048_n1024_v7x_i16_f32_1_alg».proof.Proof.Gen.Kernel.Points
import Idealize.ShloMosaic.Lib.Pipeline.Value

/-! # The two windowed arrays after the run: the input unchanged, the result the kernel's value -/

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]
variable (m : (ℓ : Loc nD τ sig) → Buf (Elt F) ℓ) (ρ : Dev nD → PrngReg)

/-- The `x` block after the run holds what it held. -/
theorem finalA_x (c : Dev nD) : finalA m ρ c (0 : Fin 2) = m ((c : Thread nD τ).loc main_arg0) :=
  (dats (F := F) m ρ 0 c).arrAt_in (0 : Fin 2) rfl _

/-- The result array after the run holds the kernel's value on that device. -/
theorem finalA_out (c : Dev nD) : finalA m ρ c (1 : Fin 2) = outAt m ρ c := by
  unfold finalA
  -- the grid has one point, and the result window is written back there
  rw [show cfg0.N = (t₀ : Fin cfg0.N).val + 1 from rfl, (dats (F := F) m ρ 0 c).arrAt_succ (1 : Fin 2) t₀, if_pos (flush0_1 t₀)]
  -- its block is the whole array at offset zero, so the write-back replaces the array by the staged contents
  have hz : (fun a => (win0_1.index t₀) a * main_v1.ty.shape.size a) = fun _ => 0 :=
    funext fun a => by fin_cases a <;> decide
  have hw := Memref.write_access_unit_zero_univ (Elt F) main_v1 hz (fun a => by fin_cases a <;> decide)
    ((dats m ρ 0 c).arrAt 1 t₀) ((dats m ρ 0 c).flushed 1 t₀)
  refine hw.trans ?_
  -- and the staged contents after the body are, by the proof data, the kernel's value
  funext j
  show (dats m ρ 0 c).after 1 t₀ _ = _
  dsimp only [dats]

/-- info: 'Cert.KernelProof.finalA_x' depends on axioms: [propext, Classical.choice, Quot.sound] -/
#guard_msgs in
#print axioms finalA_x

/-- info: 'Cert.KernelProof.finalA_out' depends on axioms: [propext, Classical.choice, Quot.sound] -/
#guard_msgs in
#print axioms finalA_out

end Cert.KernelProof

end
-- ==== Proof.lean ====
/-
  Sixteen devices each hold a block of 2048 rows of a 32768 × 1024 array. Every device adds up the columns of its block,
  hands that row of sums to the other fifteen, adds the sixteen rows it then holds and scales by 2⁻¹⁵; the reference
  divides the column sums of the whole array by 32768.

  A run of the kernel ends, on every device, with the block of `x` as it was found and the result array at the
  kernel's value. The frames read the first of these off the runs. Over the extended reals the second is the
  reference's mean of the whole array, which the reference's own run also ends at: that is the algebraic claim.
  The idealization rewrote no operation, so there is nothing to preserve.
-/
import proofs.«900947_g7700000000000948_dist_mean_ax0_shard0_i_m2048_n1024_v7x_i16_f32_1_alg».proof.Defs
import proofs.«900947_g7700000000000948_dist_mean_ax0_shard0_i_m2048_n1024_v7x_i16_f32_1_alg».proof.Proof.Gen.Kernel
import proofs.«900947_g7700000000000948_dist_mean_ax0_shard0_i_m2048_n1024_v7x_i16_f32_1_alg».proof.Proof.Gen.KernelIdeal
import proofs.«900947_g7700000000000948_dist_mean_ax0_shard0_i_m2048_n1024_v7x_i16_f32_1_alg».proof.Proof.Gen.ReferenceIdeal
import proofs.«900947_g7700000000000948_dist_mean_ax0_shard0_i_m2048_n1024_v7x_i16_f32_1_alg».proof.Proof.Gen.ReferenceIdeal.Run
import proofs.«900947_g7700000000000948_dist_mean_ax0_shard0_i_m2048_n1024_v7x_i16_f32_1_alg».proof.Proof.Gen.ReferenceIdeal.Read
import proofs.«900947_g7700000000000948_dist_mean_ax0_shard0_i_m2048_n1024_v7x_i16_f32_1_alg».proof.Proof.Gen.Pre_finite_inputs_Kernel
import proofs.«900947_g7700000000000948_dist_mean_ax0_shard0_i_m2048_n1024_v7x_i16_f32_1_alg».proof.Proof.Gen.Pre_finite_inputs_ReferenceIdeal
import proofs.«900947_g7700000000000948_dist_mean_ax0_shard0_i_m2048_n1024_v7x_i16_f32_1_alg».proof.Proof.Body
import proofs.«900947_g7700000000000948_dist_mean_ax0_shard0_i_m2048_n1024_v7x_i16_f32_1_alg».proof.Proof.Final
import proofs.«900947_g7700000000000948_dist_mean_ax0_shard0_i_m2048_n1024_v7x_i16_f32_1_alg».proof.Proof.Value
import proofs.«900947_g7700000000000948_dist_mean_ax0_shard0_i_m2048_n1024_v7x_i16_f32_1_alg».proof.Proof.KBody
import proofs.«900947_g7700000000000948_dist_mean_ax0_shard0_i_m2048_n1024_v7x_i16_f32_1_alg».proof.Proof.KFinal

noncomputable section

namespace Cert.Proof

open Idealize.ShloMosaic Idealize.SL.Sem

/-- The kernel as printed runs to the end on all sixteen devices and leaves every block of `x` as it found it. -/
theorem frame_k : Cert.frame_Kernel := fun m ρ _ =>
  (θ_run Cert.Kernel.defs _ _).mono (fun _ h c => (h c (0 : Fin 2)).trans (Cert.KernelProof.finalA_x m ρ c))
    (Cert.KernelProof.run_main (F := Bits) m ρ (Cert.KernelProof.body_obligation m ρ))

/-- So does the kernel read over the extended reals. -/
theorem frame_ki : Cert.frame_KernelIdeal := fun m ρ _ =>
  (θ_run Cert.KernelIdeal.defs _ _).mono (fun _ h c => (h c (0 : Fin 2)).trans (Cert.KernelIdealProof.finalA_x m ρ c))
    (Cert.KernelIdealProof.run_main (F := Ideal) m ρ (Cert.KernelIdealProof.body_obligation m ρ))

/-- The reference's six operations run in turn and none writes the argument. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- With every device's block its part of the whole array `X`, each device's result ends at the column sums of `X`
    divided by 32768, and so does the reference's. -/
theorem algebraic : Cert.algebraic_KernelIdeal_ReferenceIdeal := by
  intro m ρ m' ρ' _ hblk
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · -- the kernel: the result window's array is the kernel's value, which is the mean; the input window's is unchanged
    refine (θ_run Cert.KernelIdeal.defs _ _).mono
      (fun _ h c => ⟨?_, (h c (0 : Fin 2)).trans (Cert.KernelIdealProof.finalA_x m ρ c)⟩)
      (Cert.KernelIdealProof.run_main (F := Ideal) m ρ (Cert.KernelIdealProof.body_obligation m ρ))
    exact ((h c (1 : Fin 2)).trans (Cert.KernelIdealProof.finalA_out m ρ c)).trans
      (Cert.KernelIdealProof.outAt_eq_ref m ρ _ hblk c)
  · -- the reference: its result is the composed term of its six operations, which is the mean by definition
    exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, preserves, algebraic⟩

end Cert.Proof

end
